-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x200000 : Shape := ⟨2, ![2, 200000]⟩
abbrev S200000 : Shape := ⟨1, ![200000]⟩
abbrev S200000x768 : Shape := ⟨2, ![200000, 768]⟩
abbrev S100000x128 : Shape := ⟨2, ![100000, 128]⟩
abbrev S128x640 : Shape := ⟨2, ![128, 640]⟩
abbrev S640 : Shape := ⟨1, ![640]⟩
abbrev S768x640 : Shape := ⟨2, ![768, 640]⟩
abbrev S640x128 : Shape := ⟨2, ![640, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S200000x768 : S_.BroadcastsInDim S200000x768 (![] : Fin 0 → Fin S200000x768.rank)
  reducesTo_S200000x768_S_d0_1 : S200000x768.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x640 : S_.BroadcastsInDim S128x640 (![] : Fin 0 → Fin S128x640.rank)
  reducesTo_S128x640_S_d0_1 : S128x640.ReducesTo [0, 1] S_
  bcast_S_S640 : S_.BroadcastsInDim S640 (![] : Fin 0 → Fin S640.rank)
  reducesTo_S640_S_d0 : S640.ReducesTo [0] S_
  bcast_S_S768x640 : S_.BroadcastsInDim S768x640 (![] : Fin 0 → Fin S768x640.rank)
  reducesTo_S768x640_S_d0_1 : S768x640.ReducesTo [0, 1] S_
  bcast_S_S640x128 : S_.BroadcastsInDim S640x128 (![] : Fin 0 → Fin S640x128.rank)
  reducesTo_S640x128_S_d0_1 : S640x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S200000 : S_.BroadcastsInDim S200000 (![] : Fin 0 → Fin S200000.rank)
  reducesTo_S200000_S_d0 : S200000.ReducesTo [0] S_

variable [Facts]

def fn_part7 {F : FTy → Type} [FloatOps F] (main_arg1 : IVec S200000 32) (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  let main_c_48 : IVec S_ 32 := constantI S_ 32 1#32
  let main_v124 : IVec S200000 32 := broadcastInDim S200000 ![] bcast_S_S200000 main_c_48
  let main_v125 : IVec S200000 1 := cmpi .sge main_arg1 main_v124
  let main_c_49 : IVec S_ 32 := constantI S_ 32 5#32
  let main_v126 : IVec S200000 32 := broadcastInDim S200000 ![] bcast_S_S200000 main_c_49
  let main_v127 : IVec S200000 1 := cmpi .sle main_arg1 main_v126
  let main_v128 : IVec S200000 1 := andi main_v125 main_v127
  let main_c_50 : IVec S_ 1 := constantI S_ 1 1#1
  let main_v129 : IVec S_ 1 := (fun x v => Host.reduce IntOp.andi x v reducesTo_S200000_S_d0 h_S_) main_v128 main_c_50
  let main_v130 : IVec S_ 1 := andi main_v123 main_v129
  main_v130

def fn_part6 {F : FTy → Type} [FloatOps F] (main_arg1 : IVec S200000 32) (main_arg23 : FVec F S128x128 .f32) (main_arg24 : FVec F S128 .f32) (main_arg25 : FVec F S128x1 .f32) (main_arg26 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x1 .f32 := Host.absf main_arg25
  let main_cst_44 : FVec F S_ .f32 := constant S_ .f32 0x7F800000#32
  let main_v115 : FVec F S128x1 .f32 := broadcastInDim S128x1 ![] bcast_S_S128x1 main_cst_44
  let main_v116 : IVec S128x1 1 := cmpf .olt main_v114 main_v115
  let main_c_45 : IVec S_ 1 := constantI S_ 1 1#1
  let main_v117 : IVec S_ 1 := (fun x v => Host.reduce IntOp.andi x v reducesTo_S128x1_S_d0_1 h_S_) main_v116 main_c_45
  let main_v118 : IVec S_ 1 := andi main_v113 main_v117
  let main_v119 : FVec F S1 .f32 := Host.absf main_arg26
  fn_part7 (F := F) main_arg1 main_v118 main_v119

def fn_part5 {F : FTy → Type} [FloatOps F] (main_arg1 : IVec S200000 32) (main_arg20 : FVec F S128 .f32) (main_arg21 : FVec F S256x128 .f32) (main_arg22 : FVec F S128 .f32) (main_arg23 : FVec F S128x128 .f32) (main_arg24 : FVec F S128 .f32) (main_arg25 : FVec F S128x1 .f32) (main_arg26 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S256x128 .f32 := Host.absf main_arg21
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg1 main_arg23 main_arg24 main_arg25 main_arg26 main_v98 main_v101 main_c_39

def fn_part4 {F : FTy → Type} [FloatOps F] (main_arg1 : IVec S200000 32) (main_arg16 : FVec F S640 .f32) (main_arg17 : FVec F S640x128 .f32) (main_arg18 : FVec F S128 .f32) (main_arg19 : FVec F S128x128 .f32) (main_arg20 : FVec F S128 .f32) (main_arg21 : FVec F S256x128 .f32) (main_arg22 : FVec F S128 .f32) (main_arg23 : FVec F S128x128 .f32) (main_arg24 : FVec F S128 .f32) (main_arg25 : FVec F S128x1 .f32) (main_arg26 : FVec F S1 .f32) (main_v63 : IVec S_ 1) (main_v67 : IVec S_ 1) : IVec S_ 1 :=
  let main_v68 : IVec S_ 1 := andi main_v63 main_v67
  let main_v69 : FVec F S640 .f32 := Host.absf main_arg16
  let main_cst_26 : FVec F S_ .f32 := constant S_ .f32 0x7F800000#32
  let main_v70 : FVec F S640 .f32 := broadcastInDim S640 ![] bcast_S_S640 main_cst_26
  let main_v71 : IVec S640 1 := cmpf .olt main_v69 main_v70
  let main_c_27 : IVec S_ 1 := constantI S_ 1 1#1
  let main_v72 : IVec S_ 1 := (fun x v => Host.reduce IntOp.andi x v reducesTo_S640_S_d0 h_S_) main_v71 main_c_27
  let main_v73 : IVec S_ 1 := andi main_v68 main_v72
  let main_v74 : FVec F S640x128 .f32 := Host.absf main_arg17
  let main_cst_28 : FVec F S_ .f32 := constant S_ .f32 0x7F800000#32
  let main_v75 : FVec F S640x128 .f32 := broadcastInDim S640x128 ![] bcast_S_S640x128 main_cst_28
  let main_v76 : IVec S640x128 1 := cmpf .olt main_v74 main_v75
  let main_c_29 : IVec S_ 1 := constantI S_ 1 1#1
  let main_v77 : IVec S_ 1 := (fun x v => Host.reduce IntOp.andi x v reducesTo_S640x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg1 main_arg20 main_arg21 main_arg22 main_arg23 main_arg24 main_arg25 main_arg26 main_v83 main_v84 main_cst_32

def fn_part3 {F : FTy → Type} [FloatOps F] (main_arg1 : IVec S200000 32) (main_arg13 : FVec F S128x640 .f32) (main_arg14 : FVec F S640 .f32) (main_arg15 : FVec F S768x640 .f32) (main_arg16 : FVec F S640 .f32) (main_arg17 : FVec F S640x128 .f32) (main_arg18 : FVec F S128 .f32) (main_arg19 : FVec F S128x128 .f32) (main_arg20 : FVec F S128 .f32) (main_arg21 : FVec F S256x128 .f32) (main_arg22 : FVec F S128 .f32) (main_arg23 : FVec F S128x128 .f32) (main_arg24 : FVec F S128 .f32) (main_arg25 : FVec F S128x1 .f32) (main_arg26 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x640 .f32 := Host.absf main_arg13
  let main_cst_20 : FVec F S_ .f32 := constant S_ .f32 0x7F800000#32
  let main_v55 : FVec F S128x640 .f32 := broadcastInDim S128x640 ![] bcast_S_S128x640 main_cst_20
  let main_v56 : IVec S128x640 1 := cmpf .olt main_v54 main_v55
  let main_c_21 : IVec S_ 1 := constantI S_ 1 1#1
  let main_v57 : IVec S_ 1 := (fun x v => Host.reduce IntOp.andi x v reducesTo_S128x640_S_d0_1 h_S_) main_v56 main_c_21
  let main_v58 : IVec S_ 1 := andi main_v53 main_v57
  let main_v59 : FVec F S640 .f32 := Host.absf main_arg14
  let main_cst_22 : FVec F S_ .f32 := constant S_ .f32 0x7F800000#32
  let main_v60 : FVec F S640 .f32 := broadcastInDim S640 ![] bcast_S_S640 main_cst_22
  let main_v61 : IVec S640 1 := cmpf .olt main_v59 main_v60
  let main_c_23 : IVec S_ 1 := constantI S_ 1 1#1
  let main_v62 : IVec S_ 1 := (fun x v => Host.reduce IntOp.andi x v reducesTo_S640_S_d0 h_S_) main_v61 main_c_23
  let main_v63 : IVec S_ 1 := andi main_v58 main_v62
  let main_v64 : FVec F S768x640 .f32 := Host.absf main_arg15
  let main_cst_24 : FVec F S_ .f32 := constant S_ .f32 0x7F800000#32
  let main_v65 : FVec F S768x640 .f32 := broadcastInDim S768x640 ![] bcast_S_S768x640 main_cst_24
  let main_v66 : IVec S768x640 1 := cmpf .olt main_v64 main_v65
  let main_c_25 : IVec S_ 1 := constantI S_ 1 1#1
  let main_v67 : IVec S_ 1 := (fun x v => Host.reduce IntOp.andi x v reducesTo_S768x640_S_d0_1 h_S_) main_v66 main_c_25
  fn_part4 (F := F) main_arg1 main_arg16 main_arg17 main_arg18 main_arg19 main_arg20 main_arg21 main_arg22 main_arg23 main_arg24 main_arg25 main_arg26 main_v63 main_v67

def fn_part2 {F : FTy → Type} [FloatOps F] (main_arg1 : IVec S200000 32) (main_arg9 : FVec F S640x128 .f32) (main_arg10 : FVec F S128 .f32) (main_arg11 : FVec F S128x128 .f32) (main_arg12 : FVec F S128 .f32) (main_arg13 : FVec F S128x640 .f32) (main_arg14 : FVec F S640 .f32) (main_arg15 : FVec F S768x640 .f32) (main_arg16 : FVec F S640 .f32) (main_arg17 : FVec F S640x128 .f32) (main_arg18 : FVec F S128 .f32) (main_arg19 : FVec F S128x128 .f32) (main_arg20 : FVec F S128 .f32) (main_arg21 : FVec F S256x128 .f32) (main_arg22 : FVec F S128 .f32) (main_arg23 : FVec F S128x128 .f32) (main_arg24 : FVec F S128 .f32) (main_arg25 : FVec F S128x1 .f32) (main_arg26 : FVec F S1 .f32) (main_v33 : IVec S_ 1) : IVec S_ 1 :=
  let main_v34 : FVec F S640x128 .f32 := Host.absf main_arg9
  let main_cst_12 : FVec F S_ .f32 := constant S_ .f32 0x7F800000#32
  let main_v35 : FVec F S640x128 .f32 := broadcastInDim S640x128 ![] bcast_S_S640x128 main_cst_12
  let main_v36 : IVec S640x128 1 := cmpf .olt main_v34 main_v35
  let main_c_13 : IVec S_ 1 := constantI S_ 1 1#1
  let main_v37 : IVec S_ 1 := (fun x v => Host.reduce IntOp.andi x v reducesTo_S640x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg1 : IVec S200000 32) (main_arg6 : FVec F S640 .f32) (main_arg7 : FVec F S768x640 .f32) (main_arg8 : FVec F S640 .f32) (main_arg9 : FVec F S640x128 .f32) (main_arg10 : FVec F S128 .f32) (main_arg11 : FVec F S128x128 .f32) (main_arg12 : FVec F S128 .f32) (main_arg13 : FVec F S128x640 .f32) (main_arg14 : FVec F S640 .f32) (main_arg15 : FVec F S768x640 .f32) (main_arg16 : FVec F S640 .f32) (main_arg17 : FVec F S640x128 .f32) (main_arg18 : FVec F S128 .f32) (main_arg19 : FVec F S128x128 .f32) (main_arg20 : FVec F S128 .f32) (main_arg21 : FVec F S256x128 .f32) (main_arg22 : FVec F S128 .f32) (main_arg23 : FVec F S128x128 .f32) (main_arg24 : FVec F S128 .f32) (main_arg25 : FVec F S128x1 .f32) (main_arg26 : FVec F S1 .f32) (main_v13 : IVec S_ 1) (main_v16 : IVec S128x640 1) : IVec S_ 1 :=
  let main_c_5 : IVec S_ 1 := constantI S_ 1 1#1
  let main_v17 : IVec S_ 1 := (fun x v => Host.reduce IntOp.andi x v reducesTo_S128x640_S_d0_1 h_S_) main_v16 main_c_5
  let main_v18 : IVec S_ 1 := andi main_v13 main_v17
  let main_v19 : FVec F S640 .f32 := Host.absf main_arg6
  let main_cst_6 : FVec F S_ .f32 := constant S_ .f32 0x7F800000#32
  let main_v20 : FVec F S640 .f32 := broadcastInDim S640 ![] bcast_S_S640 main_cst_6
  let main_v21 : IVec S640 1 := cmpf .olt main_v19 main_v20
  let main_c_7 : IVec S_ 1 := constantI S_ 1 1#1
  let main_v22 : IVec S_ 1 := (fun x v => Host.reduce IntOp.andi x v reducesTo_S640_S_d0 h_S_) main_v21 main_c_7
  let main_v23 : IVec S_ 1 := andi main_v18 main_v22
  let main_v24 : FVec F S768x640 .f32 := Host.absf main_arg7
  let main_cst_8 : FVec F S_ .f32 := constant S_ .f32 0x7F800000#32
  let main_v25 : FVec F S768x640 .f32 := broadcastInDim S768x640 ![] bcast_S_S768x640 main_cst_8
  let main_v26 : IVec S768x640 1 := cmpf .olt main_v24 main_v25
  let main_c_9 : IVec S_ 1 := constantI S_ 1 1#1
  let main_v27 : IVec S_ 1 := (fun x v => Host.reduce IntOp.andi x v reducesTo_S768x640_S_d0_1 h_S_) main_v26 main_c_9
  let main_v28 : IVec S_ 1 := andi main_v23 main_v27
  let main_v29 : FVec F S640 .f32 := Host.absf main_arg8
  let main_cst_10 : FVec F S_ .f32 := constant S_ .f32 0x7F800000#32
  let main_v30 : FVec F S640 .f32 := broadcastInDim S640 ![] bcast_S_S640 main_cst_10
  let main_v31 : IVec S640 1 := cmpf .olt main_v29 main_v30
  let main_c_11 : IVec S_ 1 := constantI S_ 1 1#1
  let main_v32 : IVec S_ 1 := (fun x v => Host.reduce IntOp.andi x v reducesTo_S640_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : IVec S2x200000 32) (main_arg1 : IVec S200000 32) (main_arg2 : FVec F S200000x768 .f32) (main_arg3 : FVec F S100000x128 .f32) (main_arg4 : FVec F S100000x128 .f32) (main_arg5 : FVec F S128x640 .f32) (main_arg6 : FVec F S640 .f32) (main_arg7 : FVec F S768x640 .f32) (main_arg8 : FVec F S640 .f32) (main_arg9 : FVec F S640x128 .f32) (main_arg10 : FVec F S128 .f32) (main_arg11 : FVec F S128x128 .f32) (main_arg12 : FVec F S128 .f32) (main_arg13 : FVec F S128x640 .f32) (main_arg14 : FVec F S640 .f32) (main_arg15 : FVec F S768x640 .f32) (main_arg16 : FVec F S640 .f32) (main_arg17 : FVec F S640x128 .f32) (main_arg18 : FVec F S128 .f32) (main_arg19 : FVec F S128x128 .f32) (main_arg20 : FVec F S128 .f32) (main_arg21 : FVec F S256x128 .f32) (main_arg22 : FVec F S128 .f32) (main_arg23 : FVec F S128x128 .f32) (main_arg24 : FVec F S128 .f32) (main_arg25 : FVec F S128x1 .f32) (main_arg26 : FVec F S1 .f32) : IVec S_ 1 :=
  let main_v0 : FVec F S200000x768 .f32 := Host.absf main_arg2
  let main_cst : FVec F S_ .f32 := constant S_ .f32 0x7F800000#32
  let main_v1 : FVec F S200000x768 .f32 := broadcastInDim S200000x768 ![] bcast_S_S200000x768 main_cst
  let main_v2 : IVec S200000x768 1 := cmpf .olt main_v0 main_v1
  let main_c : IVec S_ 1 := constantI S_ 1 1#1
  let main_v3 : IVec S_ 1 := (fun x v => Host.reduce IntOp.andi x v reducesTo_S200000x768_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg4
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x640 .f32 := Host.absf main_arg5
  let main_cst_4 : FVec F S_ .f32 := constant S_ .f32 0x7F800000#32
  let main_v15 : FVec F S128x640 .f32 := broadcastInDim S128x640 ![] bcast_S_S128x640 main_cst_4
  let main_v16 : IVec S128x640 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S2x200000 : Shape := ⟨2, ![2, 200000]⟩
abbrev S200000 : Shape := ⟨1, ![200000]⟩
abbrev S200000x768 : Shape := ⟨2, ![200000, 768]⟩
abbrev S100000x128 : Shape := ⟨2, ![100000, 128]⟩
abbrev S128x640 : Shape := ⟨2, ![128, 640]⟩
abbrev S640 : Shape := ⟨1, ![640]⟩
abbrev S768x640 : Shape := ⟨2, ![768, 640]⟩
abbrev S640x128 : Shape := ⟨2, ![640, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x200000 : Shape := ⟨2, ![1, 200000]⟩
abbrev S_ : Shape := ⟨0, ![]⟩
abbrev S200000x1 : Shape := ⟨2, ![200000, 1]⟩
abbrev S200000x128 : Shape := ⟨2, ![200000, 128]⟩
abbrev S1600x768 : Shape := ⟨2, ![1600, 768]⟩
abbrev S1600x128 : Shape := ⟨2, ![1600, 128]⟩
abbrev S1600x1 : Shape := ⟨2, ![1600, 1]⟩
abbrev S1600x640 : Shape := ⟨2, ![1600, 640]⟩
abbrev S1x640 : Shape := ⟨2, ![1, 640]⟩
abbrev S1x128 : Shape := ⟨2, ![1, 128]⟩
abbrev S100000 : Shape := ⟨1, ![100000]⟩
abbrev S100000x1 : Shape := ⟨2, ![100000, 1]⟩
abbrev S4000x128 : Shape := ⟨2, ![4000, 128]⟩
abbrev S4000x1 : Shape := ⟨2, ![4000, 1]⟩
abbrev S1x1 : Shape := ⟨2, ![1, 1]⟩

abbrev nBuf : Space → Nat
  | .hbm => 123
  | .vmem => 57
  | .smem => 0
  | _ => 0

abbrev bufTy : (tb : Table) → Fin (tcTables nBuf tb) → BufTy
  | .hbm, ⟨0, _⟩ => ⟨S2x200000, .i32⟩
  | .hbm, ⟨1, _⟩ => ⟨S200000, .i32⟩
  | .hbm, ⟨2, _⟩ => ⟨S200000x768, .f32⟩
  | .hbm, ⟨3, _⟩ => ⟨S100000x128, .f32⟩
  | .hbm, ⟨4, _⟩ => ⟨S100000x128, .f32⟩
  | .hbm, ⟨5, _⟩ => ⟨S128x640, .f32⟩
  | .hbm, ⟨6, _⟩ => ⟨S640, .f32⟩
  | .hbm, ⟨7, _⟩ => ⟨S768x640, .f32⟩
  | .hbm, ⟨8, _⟩ => ⟨S640, .f32⟩
  | .hbm, ⟨9, _⟩ => ⟨S640x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x640, .f32⟩
  | .hbm, ⟨14, _⟩ => ⟨S640, .f32⟩
  | .hbm, ⟨15, _⟩ => ⟨S768x640, .f32⟩
  | .hbm, ⟨16, _⟩ => ⟨S640, .f32⟩
  | .hbm, ⟨17, _⟩ => ⟨S640x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S256x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128x1, .f32⟩
  | .hbm, ⟨26, _⟩ => ⟨S1, .f32⟩
  | .hbm, ⟨27, _⟩ => ⟨S1x200000, .i32⟩
  | .hbm, ⟨28, _⟩ => ⟨S200000, .i32⟩
  | .hbm, ⟨29, _⟩ => ⟨S1x200000, .i32⟩
  | .hbm, ⟨30, _⟩ => ⟨S200000, .i32⟩
  | .hbm, ⟨31, _⟩ => ⟨S_, .i32⟩
  | .hbm, ⟨32, _⟩ => ⟨S200000, .i32⟩
  | .hbm, ⟨33, _⟩ => ⟨S200000, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S_, .i32⟩
  | .hbm, ⟨40, _⟩ => ⟨S200000, .i32⟩
  | .hbm, ⟨41, _⟩ => ⟨S200000, .i32⟩
  | .hbm, ⟨42, _⟩ => ⟨S200000x1, .i32⟩
  | .hbm, ⟨43, _⟩ => ⟨S100000x128, .bf16⟩
  | .hbm, ⟨44, _⟩ => ⟨S100000x128, .bf16⟩
  | .hbm, ⟨45, _⟩ => ⟨S_, .i32⟩
  | .hbm, ⟨46, _⟩ => ⟨S200000, .i32⟩
  | .hbm, ⟨47, _⟩ => ⟨S200000, .i1⟩
  | .hbm, ⟨48, _⟩ => ⟨S_, .i32⟩
  | .hbm, ⟨49, _⟩ => ⟨S200000, .i32⟩
  | .hbm, ⟨50, _⟩ => ⟨S200000, .i32⟩
  | .hbm, ⟨51, _⟩ => ⟨S200000, .i32⟩
  | .hbm, ⟨52, _⟩ => ⟨S200000x1, .i32⟩
  | .hbm, ⟨53, _⟩ => ⟨S200000x128, .bf16⟩
  | .hbm, ⟨54, _⟩ => ⟨S_, .i32⟩
  | .hbm, ⟨55, _⟩ => ⟨S200000, .i32⟩
  | .hbm, ⟨56, _⟩ => ⟨S200000, .i1⟩
  | .hbm, ⟨57, _⟩ => ⟨S_, .i32⟩
  | .hbm, ⟨58, _⟩ => ⟨S200000, .i32⟩
  | .hbm, ⟨59, _⟩ => ⟨S200000, .i32⟩
  | .hbm, ⟨60, _⟩ => ⟨S200000, .i32⟩
  | .hbm, ⟨61, _⟩ => ⟨S200000x1, .i32⟩
  | .hbm, ⟨62, _⟩ => ⟨S200000x128, .bf16⟩
  | .hbm, ⟨63, _⟩ => ⟨S128x640, .bf16⟩
  | .hbm, ⟨64, _⟩ => ⟨S768x640, .bf16⟩
  | .hbm, ⟨65, _⟩ => ⟨S640x128, .bf16⟩
  | .hbm, ⟨66, _⟩ => ⟨S128x640, .bf16⟩
  | .hbm, ⟨67, _⟩ => ⟨S768x640, .bf16⟩
  | .hbm, ⟨68, _⟩ => ⟨S640x128, .bf16⟩
  | .hbm, ⟨69, _⟩ => ⟨S200000x128, .bf16⟩
  | .hbm, ⟨70, _⟩ => ⟨S200000x128, .bf16⟩
  | .hbm, ⟨71, _⟩ => ⟨S200000x128, .f32⟩
  | .hbm, ⟨72, _⟩ => ⟨S_, .f32⟩
  | .hbm, ⟨73, _⟩ => ⟨S100000x128, .f32⟩
  | .hbm, ⟨74, _⟩ => ⟨S200000x1, .i32⟩
  | .hbm, ⟨75, _⟩ => ⟨S100000x128, .f32⟩
  | .hbm, ⟨76, _⟩ => ⟨S_, .f32⟩
  | .hbm, ⟨77, _⟩ => ⟨S200000, .f32⟩
  | .hbm, ⟨78, _⟩ => ⟨S_, .f32⟩
  | .hbm, ⟨79, _⟩ => ⟨S100000, .f32⟩
  | .hbm, ⟨80, _⟩ => ⟨S200000x1, .i32⟩
  | .hbm, ⟨81, _⟩ => ⟨S100000, .f32⟩
  | .hbm, ⟨82, _⟩ => ⟨S100000x1, .f32⟩
  | .hbm, ⟨83, _⟩ => ⟨S200000x128, .f32⟩
  | .hbm, ⟨84, _⟩ => ⟨S_, .f32⟩
  | .hbm, ⟨85, _⟩ => ⟨S100000x128, .f32⟩
  | .hbm, ⟨86, _⟩ => ⟨S200000x1, .i32⟩
  | .hbm, ⟨87, _⟩ => ⟨S100000x128, .f32⟩
  | .hbm, ⟨88, _⟩ => ⟨S_, .f32⟩
  | .hbm, ⟨89, _⟩ => ⟨S200000, .f32⟩
  | .hbm, ⟨90, _⟩ => ⟨S_, .f32⟩
  | .hbm, ⟨91, _⟩ => ⟨S100000, .f32⟩
  | .hbm, ⟨92, _⟩ => ⟨S200000x1, .i32⟩
  | .hbm, ⟨93, _⟩ => ⟨S100000, .f32⟩
  | .hbm, ⟨94, _⟩ => ⟨S100000x1, .f32⟩
  | .hbm, ⟨95, _⟩ => ⟨S128x128, .bf16⟩
  | .hbm, ⟨96, _⟩ => ⟨S128x128, .bf16⟩
  | .hbm, ⟨97, _⟩ => ⟨S100000x128, .bf16⟩
  | .hbm, ⟨98, _⟩ => ⟨S100000x128, .bf16⟩
  | .hbm, ⟨99, _⟩ => ⟨S_, .i32⟩
  | .hbm, ⟨100, _⟩ => ⟨S200000, .i32⟩
  | .hbm, ⟨101, _⟩ => ⟨S200000, .i1⟩
  | .hbm, ⟨102, _⟩ => ⟨S_, .i32⟩
  | .hbm, ⟨103, _⟩ => ⟨S200000, .i32⟩
  | .hbm, ⟨104, _⟩ => ⟨S200000, .i32⟩
  | .hbm, ⟨105, _⟩ => ⟨S200000, .i32⟩
  | .hbm, ⟨106, _⟩ => ⟨S200000x1, .i32⟩
  | .hbm, ⟨107, _⟩ => ⟨S200000x128, .bf16⟩
  | .hbm, ⟨108, _⟩ => ⟨S_, .i32⟩
  | .hbm, ⟨109, _⟩ => ⟨S200000, .i32⟩
  | .hbm, ⟨110, _⟩ => ⟨S200000, .i1⟩
  | .hbm, ⟨111, _⟩ => ⟨S_, .i32⟩
  | .hbm, ⟨112, _⟩ => ⟨S200000, .i32⟩
  | .hbm, ⟨113, _⟩ => ⟨S200000, .i32⟩
  | .hbm, ⟨114, _⟩ => ⟨S200000, .i32⟩
  | .hbm, ⟨115, _⟩ => ⟨S200000x1, .i32⟩
  | .hbm, ⟨116, _⟩ => ⟨S200000x128, .bf16⟩
  | .hbm, ⟨117, _⟩ => ⟨S256x128, .bf16⟩
  | .hbm, ⟨118, _⟩ => ⟨S128x128, .bf16⟩
  | .hbm, ⟨119, _⟩ => ⟨S128x128, .bf16⟩
  | .hbm, ⟨120, _⟩ => ⟨S128x128, .bf16⟩
  | .hbm, ⟨121, _⟩ => ⟨S128x1, .bf16⟩
  | .hbm, ⟨122, _⟩ => ⟨S200000x1, .f32⟩
  | .local _ .vmem, ⟨0, _⟩ => ⟨S1600x768, .f32⟩
  | .local _ .vmem, ⟨1, _⟩ => ⟨S1600x768, .f32⟩
  | .local _ .vmem, ⟨2, _⟩ => ⟨S1600x128, .bf16⟩
  | .local _ .vmem, ⟨3, _⟩ => ⟨S1600x128, .bf16⟩
  | .local _ .vmem, ⟨4, _⟩ => ⟨S1600x128, .bf16⟩
  | .local _ .vmem, ⟨5, _⟩ => ⟨S1600x128, .bf16⟩
  | .local _ .vmem, ⟨6, _⟩ => ⟨S1600x1, .i32⟩
  | .local _ .vmem, ⟨7, _⟩ => ⟨S1600x1, .i32⟩
  | .local _ .vmem, ⟨8, _⟩ => ⟨S128x640, .bf16⟩
  | .local _ .vmem, ⟨9, _⟩ => ⟨S640, .f32⟩
  | .local _ .vmem, ⟨10, _⟩ => ⟨S768x640, .bf16⟩
  | .local _ .vmem, ⟨11, _⟩ => ⟨S640, .f32⟩
  | .local _ .vmem, ⟨12, _⟩ => ⟨S640x128, .bf16⟩
  | .local _ .vmem, ⟨13, _⟩ => ⟨S128, .f32⟩
  | .local _ .vmem, ⟨14, _⟩ => ⟨S128x640, .bf16⟩
  | .local _ .vmem, ⟨15, _⟩ => ⟨S640, .f32⟩
  | .local _ .vmem, ⟨16, _⟩ => ⟨S768x640, .bf16⟩
  | .local _ .vmem, ⟨17, _⟩ => ⟨S640, .f32⟩
  | .local _ .vmem, ⟨18, _⟩ => ⟨S640x128, .bf16⟩
  | .local _ .vmem, ⟨19, _⟩ => ⟨S128, .f32⟩
  | .local _ .vmem, ⟨20, _⟩ => ⟨S1600x128, .bf16⟩
  | .local _ .vmem, ⟨21, _⟩ => ⟨S1600x128, .bf16⟩
  | .local _ .vmem, ⟨22, _⟩ => ⟨S1600x128, .bf16⟩
  | .local _ .vmem, ⟨23, _⟩ => ⟨S1600x128, .bf16⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x1, .f32⟩
  | .local _ .vmem, ⟨33, _⟩ => ⟨S4000x1, .f32⟩
  | .local _ .vmem, ⟨34, _⟩ => ⟨S4000x1, .f32⟩
  | .local _ .vmem, ⟨35, _⟩ => ⟨S4000x1, .f32⟩
  | .local _ .vmem, ⟨36, _⟩ => ⟨S128x128, .bf16⟩
  | .local _ .vmem, ⟨37, _⟩ => ⟨S128, .f32⟩
  | .local _ .vmem, ⟨38, _⟩ => ⟨S128x128, .bf16⟩
  | .local _ .vmem, ⟨39, _⟩ => ⟨S128, .f32⟩
  | .local _ .vmem, ⟨40, _⟩ => ⟨S4000x128, .bf16⟩
  | .local _ .vmem, ⟨41, _⟩ => ⟨S4000x128, .bf16⟩
  | .local _ .vmem, ⟨42, _⟩ => ⟨S4000x128, .bf16⟩
  | .local _ .vmem, ⟨43, _⟩ => ⟨S4000x128, .bf16⟩
  | .local _ .vmem, ⟨44, _⟩ => ⟨S4000x128, .bf16⟩
  | .local _ .vmem, ⟨45, _⟩ => ⟨S4000x128, .bf16⟩
  | .local _ .vmem, ⟨46, _⟩ => ⟨S4000x128, .bf16⟩
  | .local _ .vmem, ⟨47, _⟩ => ⟨S4000x128, .bf16⟩
  | .local _ .vmem, ⟨48, _⟩ => ⟨S128x128, .bf16⟩
  | .local _ .vmem, ⟨49, _⟩ => ⟨S128x128, .bf16⟩
  | .local _ .vmem, ⟨50, _⟩ => ⟨S128, .f32⟩
  | .local _ .vmem, ⟨51, _⟩ => ⟨S128x128, .bf16⟩
  | .local _ .vmem, ⟨52, _⟩ => ⟨S128, .f32⟩
  | .local _ .vmem, ⟨53, _⟩ => ⟨S128x1, .bf16⟩
  | .local _ .vmem, ⟨54, _⟩ => ⟨S1, .f32⟩
  | .local _ .vmem, ⟨55, _⟩ => ⟨S4000x1, .f32⟩
  | .local _ .vmem, ⟨56, _⟩ => ⟨S4000x1, .f32⟩
  | _, _ => ⟨S2x200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_c_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_c_2 : Ref sig .tc := ⟨.hbm, 45, rfl⟩
abbrev main_v10 : Ref sig .tc := ⟨.hbm, 46, rfl⟩
abbrev main_v11 : Ref sig .tc := ⟨.hbm, 47, rfl⟩
abbrev main_c_3 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_c_4 : Ref sig .tc := ⟨.hbm, 54, rfl⟩
abbrev main_v17 : Ref sig .tc := ⟨.hbm, 55, rfl⟩
abbrev main_v18 : Ref sig .tc := ⟨.hbm, 56, rfl⟩
abbrev main_c_5 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30_0 : Ref sig .tc := ⟨.hbm, 69, rfl⟩
abbrev main_v30_1 : Ref sig .tc := ⟨.hbm, 70, rfl⟩
abbrev main_v31 : Ref sig .tc := ⟨.hbm, 71, rfl⟩
abbrev main_cst : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_6 : Ref sig .tc := ⟨.hbm, 76, rfl⟩
abbrev main_v35 : Ref sig .tc := ⟨.hbm, 77, rfl⟩
abbrev main_cst_7 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_8 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_9 : Ref sig .tc := ⟨.hbm, 88, rfl⟩
abbrev main_v44 : Ref sig .tc := ⟨.hbm, 89, rfl⟩
abbrev main_cst_10 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51_0 : Ref sig .tc := ⟨.hbm, 97, rfl⟩
abbrev main_v51_1 : Ref sig .tc := ⟨.hbm, 98, rfl⟩
abbrev main_c_11 : Ref sig .tc := ⟨.hbm, 99, rfl⟩
abbrev main_v52 : Ref sig .tc := ⟨.hbm, 100, rfl⟩
abbrev main_v53 : Ref sig .tc := ⟨.hbm, 101, rfl⟩
abbrev main_c_12 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_c_13 : Ref sig .tc := ⟨.hbm, 108, rfl⟩
abbrev main_v59 : Ref sig .tc := ⟨.hbm, 109, rfl⟩
abbrev main_v60 : Ref sig .tc := ⟨.hbm, 110, rfl⟩
abbrev main_c_14 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg3_0 : Ref sig .tc := ⟨.vmem, 49, rfl⟩
abbrev cc2_stg4_0 : Ref sig .tc := ⟨.vmem, 50, rfl⟩
abbrev cc2_stg5_0 : Ref sig .tc := ⟨.vmem, 51, rfl⟩
abbrev cc2_stg6_0 : Ref sig .tc := ⟨.vmem, 52, rfl⟩
abbrev cc2_stg7_0 : Ref sig .tc := ⟨.vmem, 53, rfl⟩
abbrev cc2_stg8_0 : Ref sig .tc := ⟨.vmem, 54, rfl⟩
abbrev cc2_stg9_0 : Ref sig .tc := ⟨.vmem, 55, rfl⟩
abbrev cc2_stg9_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem7_0 : DmaSem sig := 37
abbrev cc1_sem8_0 : DmaSem sig := 38
abbrev cc1_sem9_0 : DmaSem sig := 39
abbrev cc1_sem10_0 : DmaSem sig := 40
abbrev cc1_sem10_1 : DmaSem sig := 41
abbrev cc1_sem11_0 : DmaSem sig := 42
abbrev cc1_sem11_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem3_0 : DmaSem sig := 49
abbrev cc2_sem4_0 : DmaSem sig := 50
abbrev cc2_sem5_0 : DmaSem sig := 51
abbrev cc2_sem6_0 : DmaSem sig := 52
abbrev cc2_sem7_0 : DmaSem sig := 53
abbrev cc2_sem8_0 : DmaSem sig := 54
abbrev cc2_sem9_0 : DmaSem sig := 55
abbrev cc2_sem9_1 : DmaSem sig := 56

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1600x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S640x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x640 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S640 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x640 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S640 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S640x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1600x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1600x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4000x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  shapeCasts_S200000_S200000x1 : S200000.ShapeCasts S200000x1
  bitsLt_bf16_f32 : FTy.bits .bf16 < FTy.bits .f32
  bcast_S200000_S200000x1_0 : S200000.BroadcastsInDim S200000x1 (![0] : Fin 1 → Fin S200000x1.rank)
  inb_S1600x768_S1600x768_0_0 : ∀ a, (![0, 0] : Fin 2 → Nat) a + S1600x768.size a ≤ S1600x768.size a
  h_S1600x768 : 0 < S1600x768.numel
  inb_S1600x1_S1600x1_0_0 : ∀ a, (![0, 0] : Fin 2 → Nat) a + S1600x1.size a ≤ S1600x1.size a
  h_S1600x1 : 0 < S1600x1.numel
  shapeCasts_S1600x1_S1600x1 : S1600x1.ShapeCasts S1600x1
  natLt_1_32 : 1 < 32
  inb_S768x640_S768x640_0_0 : ∀ a, (![0, 0] : Fin 2 → Nat) a + S768x640.size a ≤ S768x640.size a
  h_S768x640 : 0 < S768x640.numel
  shapeCasts_S768x640_S768x640 : S768x640.ShapeCasts S768x640
  inb_S640_S640_0 : ∀ a, (![0] : Fin 1 → Nat) a + S640.size a ≤ S640.size a
  h_S640 : 0 < S640.numel
  shapeCasts_S640_S1x640 : S640.ShapeCasts S1x640
  broadcasts_S1x640_S1600x640 : S1x640.Broadcasts S1600x640
  inb_S640x128_S640x128_0_0 : ∀ a, (![0, 0] : Fin 2 → Nat) a + S640x128.size a ≤ S640x128.size a
  h_S640x128 : 0 < S640x128.numel
  shapeCasts_S640x128_S640x128 : S640x128.ShapeCasts S640x128
  inb_S128_S128_0 : ∀ a, (![0] : Fin 1 → Nat) a + S128.size a ≤ S128.size a
  h_S128 : 0 < S128.numel
  shapeCasts_S128_S1x128 : S128.ShapeCasts S1x128
  broadcasts_S1x128_S1600x128 : S1x128.Broadcasts S1600x128
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  inb_S128x640_S128x640_0_0 : ∀ a, (![0, 0] : Fin 2 → Nat) a + S128x640.size a ≤ S128x640.size a
  h_S128x640 : 0 < S128x640.numel
  shapeCasts_S128x640_S128x640 : S128x640.ShapeCasts S128x640
  slices_S1600x640_o0_0_S1600x128 : S1600x640.Slices ![0, 0] S1600x128
  broadcasts_S1600x1_S1600x128 : S1600x1.Broadcasts S1600x128
  slices_S1600x640_o0_128_S1600x128 : S1600x640.Slices ![0, 128] S1600x128
  slices_S1600x640_o0_256_S1600x128 : S1600x640.Slices ![0, 256] S1600x128
  slices_S1600x640_o0_384_S1600x128 : S1600x640.Slices ![0, 384] S1600x128
  slices_S1600x640_o0_512_S1600x128 : S1600x640.Slices ![0, 512] S1600x128
  packedbf16_S1600x128_S1600x128_0_0 : (Rect.unit (s := S1600x128) ![0, 0] S1600x128.size inb_S1600x128_S1600x128_0_0).PackedRows (EltTy.packing .bf16)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  shapeCasts_S4000x128_S4000x128 : S4000x128.ShapeCasts S4000x128
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  slices_S256x128_S128x128_0_0 : S256x128.Slices ![0, 0] S128x128
  slices_S256x128_S128x128_128_0 : S256x128.Slices ![128, 0] S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  gather_S100000x128_S200000x1_S200000x128_1_0_n_n_0_1_1128_wf : GatherDims.WF S100000x128 S200000x1 S200000x128 [1] [0] [] [0] [] 1 ![1, 128]
  dot_S1600x768_S768x640_S1600x640_1_0_0_1_n_n_wf : DotDims.WF S1600x768 S768x640 S1600x640 [1] [0] [0] [1] [] []
  dot_S1600x640_S640x128_S1600x128_1_0_0_1_n_n_wf : DotDims.WF S1600x640 S640x128 S1600x128 [1] [0] [0] [1] [] []
  dot_S1600x128_S128x640_S1600x640_1_0_0_1_n_n_wf : DotDims.WF S1600x128 S128x640 S1600x640 [1] [0] [0] [1] [] []
  scatter_S100000x128_S200000x1_S200000x128_1_0_0_1_wf : ScatterDims.WF S100000x128 S200000x1 S200000x128 [1] [0] [0] 1
  scatter_S100000_S200000x1_S200000_n_0_0_1_wf : ScatterDims.WF S100000 S200000x1 S200000 [] [0] [0] 1
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x768.size a ≤ S200000x768.size a
  hwx0_0 : ∀ i : grid0.Coords, EltTy.bits .f32 = 32 ∨ (Rect.block (s := S200000x768) S1600x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S200000x128.size a
  hwx0_1 : ∀ i : grid0.Coords, EltTy.bits .bf16 = 32 ∨ (Rect.block (s := S200000x128) S1600x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x128.size a ≤ S200000x128.size a
  hwx0_2 : ∀ i : grid0.Coords, EltTy.bits .bf16 = 32 ∨ (Rect.block (s := S200000x128) S1600x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1600x1.size a ≤ S200000x1.size a
  hwx0_3 : ∀ i : grid0.Coords, EltTy.bits .i32 = 32 ∨ (Rect.block (s := S200000x1) S1600x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x640.size a ≤ S128x640.size a
  hwx0_4 : ∀ i : grid0.Coords, EltTy.bits .bf16 = 32 ∨ (Rect.block (s := S128x640) S128x640.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640.size a ≤ S640.size a
  hwx0_5 : ∀ i : grid0.Coords, EltTy.bits .f32 = 32 ∨ (Rect.block (s := S640) S640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x640.size a ≤ S768x640.size a
  hwx0_6 : ∀ i : grid0.Coords, EltTy.bits .bf16 = 32 ∨ (Rect.block (s := S768x640) S768x640.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S640.size a ≤ S640.size a
  hwx0_7 : ∀ i : grid0.Coords, EltTy.bits .f32 = 32 ∨ (Rect.block (s := S640) S640.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S640x128.size a ≤ S640x128.size a
  hwx0_8 : ∀ i : grid0.Coords, EltTy.bits .bf16 = 32 ∨ (Rect.block (s := S640x128) S640x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x640.size a ≤ S128x640.size a
  hwx0_10 : ∀ i : grid0.Coords, EltTy.bits .bf16 = 32 ∨ (Rect.block (s := S128x640) S128x640.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S640.size a ≤ S640.size a
  hwx0_11 : ∀ i : grid0.Coords, EltTy.bits .f32 = 32 ∨ (Rect.block (s := S640) S640.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768x640.size a ≤ S768x640.size a
  hwx0_12 : ∀ i : grid0.Coords, EltTy.bits .bf16 = 32 ∨ (Rect.block (s := S768x640) S768x640.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S640.size a ≤ S640.size a
  hwx0_13 : ∀ i : grid0.Coords, EltTy.bits .f32 = 32 ∨ (Rect.block (s := S640) S640.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S640x128.size a ≤ S640x128.size a
  hwx0_14 : ∀ i : grid0.Coords, EltTy.bits .bf16 = 32 ∨ (Rect.block (s := S640x128) S640x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1600x128.size a ≤ S200000x128.size a
  hwx0_16 : ∀ i : grid0.Coords, EltTy.bits .bf16 = 32 ∨ (Rect.block (s := S200000x128) S1600x128.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1600x128.size a ≤ S200000x128.size a
  hwx0_17 : ∀ i : grid0.Coords, EltTy.bits .bf16 = 32 ∨ (Rect.block (s := S200000x128) S1600x128.size (cc0_transform_17 i) (hinb0_17 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x1.size a ≤ S100000x1.size a
  hwx1_5 : ∀ i : grid1.Coords, EltTy.bits .f32 = 32 ∨ (Rect.block (s := S100000x1) S4000x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S100000x128.size a
  hwx1_10 : ∀ i : grid1.Coords, EltTy.bits .bf16 = 32 ∨ (Rect.block (s := S100000x128) S4000x128.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x128.size a ≤ S100000x128.size a
  hwx1_11 : ∀ i : grid1.Coords, EltTy.bits .bf16 = 32 ∨ (Rect.block (s := S100000x128) S4000x128.size (cc1_transform_11 i) (hinb1_11 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .bf16 = 32 ∨ (Rect.block (s := S200000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .bf16 = 32 ∨ (Rect.block (s := S200000x128) S4000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .bf16 = 32 ∨ (Rect.block (s := S128x1) S128x1.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1.size a ≤ S1.size a
  hwx2_8 : ∀ i : grid2.Coords, EltTy.bits .f32 = 32 ∨ (Rect.block (s := S1) S1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x1.size a ≤ S200000x1.size a
  hwx2_9 : ∀ i : grid2.Coords, EltTy.bits .f32 = 32 ∨ (Rect.block (s := S200000x1) S4000x1.size (cc2_transform_9 i) (hinb2_9 i)).WholeWords (EltTy.packing .f32)

variable [Facts₀]

def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S1600x768_S768x640_S1600x640_1_0_0_1_n_n : DotDims S1600x768 S768x640 S1600x640 where
  lhsContracting := [1]
  rhsContracting := [0]
  lhsNonContracting := [0]
  rhsNonContracting := [1]
  lhsBatch := []
  rhsBatch := []
  wf := dot_S1600x768_S768x640_S1600x640_1_0_0_1_n_n_wf
def dot_S1600x640_S640x128_S1600x128_1_0_0_1_n_n : DotDims S1600x640 S640x128 S1600x128 where
  lhsContracting := [1]
  rhsContracting := [0]
  lhsNonContracting := [0]
  rhsNonContracting := [1]
  lhsBatch := []
  rhsBatch := []
  wf := dot_S1600x640_S640x128_S1600x128_1_0_0_1_n_n_wf
def dot_S1600x128_S128x640_S1600x640_1_0_0_1_n_n : DotDims S1600x128 S128x640 S1600x640 where
  lhsContracting := [1]
  rhsContracting := [0]
  lhsNonContracting := [0]
  rhsNonContracting := [1]
  lhsBatch := []
  rhsBatch := []
  wf := dot_S1600x128_S128x640_S1600x640_1_0_0_1_n_n_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg2) S1600x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1600x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1600x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S768x640.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S640.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S640x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S128x640.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S640.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S768x640.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S640.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v29) S640x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg18) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v30_0) S1600x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v30_1) S1600x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_arg3) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48) S4000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v49) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg20) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v51_0) S4000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v51_1) S4000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v58) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg24) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg26) S1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v71) S4000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S2x200000 : Shape := ⟨2, ![2, 200000]⟩
abbrev S200000 : Shape := ⟨1, ![200000]⟩
abbrev S200000x768 : Shape := ⟨2, ![200000, 768]⟩
abbrev S100000x128 : Shape := ⟨2, ![100000, 128]⟩
abbrev S128x640 : Shape := ⟨2, ![128, 640]⟩
abbrev S640 : Shape := ⟨1, ![640]⟩
abbrev S768x640 : Shape := ⟨2, ![768, 640]⟩
abbrev S640x128 : Shape := ⟨2, ![640, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x200000 : Shape := ⟨2, ![1, 200000]⟩
abbrev S100000x640 : Shape := ⟨2, ![100000, 640]⟩
abbrev S1x640 : Shape := ⟨2, ![1, 640]⟩
abbrev S100000x5x128 : Shape := ⟨3, ![100000, 5, 128]⟩
abbrev S_ : Shape := ⟨0, ![]⟩
abbrev S200000x1 : Shape := ⟨2, ![200000, 1]⟩
abbrev S200000x2 : Shape := ⟨2, ![200000, 2]⟩
abbrev S200000x128 : Shape := ⟨2, ![200000, 128]⟩
abbrev S200000x640 : Shape := ⟨2, ![200000, 640]⟩
abbrev S1x128 : Shape := ⟨2, ![1, 128]⟩
abbrev S100000 : Shape := ⟨1, ![100000]⟩
abbrev S100000x1 : Shape := ⟨2, ![100000, 1]⟩
abbrev S200000x256 : Shape := ⟨2, ![200000, 256]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S2x200000, .i32⟩
  | 1 => ⟨S200000, .i32⟩
  | 2 => ⟨S200000x768, .f32⟩
  | 3 => ⟨S100000x128, .f32⟩
  | 4 => ⟨S100000x128, .f32⟩
  | 5 => ⟨S128x640, .f32⟩
  | 6 => ⟨S640, .f32⟩
  | 7 => ⟨S768x640, .f32⟩
  | 8 => ⟨S640, .f32⟩
  | 9 => ⟨S640x128, .f32⟩
  | 10 => ⟨S128, .f32⟩
  | 11 => ⟨S128x128, .f32⟩
  | 12 => ⟨S128, .f32⟩
  | 13 => ⟨S128x640, .f32⟩
  | 14 => ⟨S640, .f32⟩
  | 15 => ⟨S768x640, .f32⟩
  | 16 => ⟨S640, .f32⟩
  | 17 => ⟨S640x128, .f32⟩
  | 18 => ⟨S128, .f32⟩
  | 19 => ⟨S128x128, .f32⟩
  | 20 => ⟨S128, .f32⟩
  | 21 => ⟨S256x128, .f32⟩
  | 22 => ⟨S128, .f32⟩
  | 23 => ⟨S128x128, .f32⟩
  | 24 => ⟨S128, .f32⟩
  | 25 => ⟨S128x1, .f32⟩
  | 26 => ⟨S1, .f32⟩
  | 27 => ⟨S1x200000, .i32⟩
  | 28 => ⟨S200000, .i32⟩
  | 29 => ⟨S1x200000, .i32⟩
  | 30 => ⟨S200000, .i32⟩
  | 31 => ⟨S100000x640, .f32⟩
  | 32 => ⟨S1x640, .f32⟩
  | 33 => ⟨S100000x640, .f32⟩
  | 34 => ⟨S100000x640, .f32⟩
  | 35 => ⟨S100000x5x128, .f32⟩
  | 36 => ⟨S_, .i32⟩
  | 37 => ⟨S200000, .i32⟩
  | 38 => ⟨S200000, .i32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S200000x1, .i32⟩
  | 55 => ⟨S200000x2, .i32⟩
  | 56 => ⟨S200000x128, .f32⟩
  | 57 => ⟨S200000x640, .f32⟩
  | 58 => ⟨S1x640, .f32⟩
  | 59 => ⟨S200000x640, .f32⟩
  | 60 => ⟨S200000x640, .f32⟩
  | 61 => ⟨S_, .f32⟩
  | 62 => ⟨S200000x640, .f32⟩
  | 63 => ⟨S200000x640, .f32⟩
  | 64 => ⟨S200000x128, .f32⟩
  | 65 => ⟨S1x128, .f32⟩
  | 66 => ⟨S200000x128, .f32⟩
  | 67 => ⟨S200000x128, .f32⟩
  | 68 => ⟨S_, .f32⟩
  | 69 => ⟨S200000x128, .f32⟩
  | 70 => ⟨S200000x128, .f32⟩
  | 71 => ⟨S200000x128, .f32⟩
  | 72 => ⟨S_, .f32⟩
  | 73 => ⟨S100000x128, .f32⟩
  | 74 => ⟨S200000x1, .i32⟩
  | 75 => ⟨S100000x128, .f32⟩
  | 76 => ⟨S_, .f32⟩
  | 77 => ⟨S200000, .f32⟩
  | 78 => ⟨S_, .f32⟩
  | 79 => ⟨S100000, .f32⟩
  | 80 => ⟨S200000x1, .i32⟩
  | 81 => ⟨S100000, .f32⟩
  | 82 => ⟨S_, .f32⟩
  | 83 => ⟨S100000, .f32⟩
  | 84 => ⟨S100000, .f32⟩
  | 85 => ⟨S100000x1, .f32⟩
  | 86 => ⟨S100000x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x640, .f32⟩
  | 97 => ⟨S1x640, .f32⟩
  | 98 => ⟨S100000x640, .f32⟩
  | 99 => ⟨S100000x640, .f32⟩
  | 100 => ⟨S100000x5x128, .f32⟩
  | 101 => ⟨S_, .i32⟩
  | 102 => ⟨S200000, .i32⟩
  | 103 => ⟨S200000, .i32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S_, .i32⟩
  | 112 => ⟨S200000, .i32⟩
  | 113 => ⟨S200000, .i1⟩
  | 114 => ⟨S_, .i32⟩
  | 115 => ⟨S200000, .i32⟩
  | 116 => ⟨S200000, .i32⟩
  | 117 => ⟨S200000, .i32⟩
  | 118 => ⟨S200000x1, .i32⟩
  | 119 => ⟨S200000x1, .i32⟩
  | 120 => ⟨S200000x2, .i32⟩
  | 121 => ⟨S200000x128, .f32⟩
  | 122 => ⟨S200000x640, .f32⟩
  | 123 => ⟨S1x640, .f32⟩
  | 124 => ⟨S200000x640, .f32⟩
  | 125 => ⟨S200000x640, .f32⟩
  | 126 => ⟨S_, .f32⟩
  | 127 => ⟨S200000x640, .f32⟩
  | _ => ⟨S2x200000, .i32⟩

abbrev hbmTy0_1 (i : Nat) : BufTy := match i % 128 with
  | 0 => ⟨S200000x640, .f32⟩
  | 1 => ⟨S200000x128, .f32⟩
  | 2 => ⟨S1x128, .f32⟩
  | 3 => ⟨S200000x128, .f32⟩
  | 4 => ⟨S200000x128, .f32⟩
  | 5 => ⟨S_, .f32⟩
  | 6 => ⟨S200000x128, .f32⟩
  | 7 => ⟨S200000x128, .f32⟩
  | 8 => ⟨S200000x128, .f32⟩
  | 9 => ⟨S_, .f32⟩
  | 10 => ⟨S100000x128, .f32⟩
  | 11 => ⟨S200000x1, .i32⟩
  | 12 => ⟨S100000x128, .f32⟩
  | 13 => ⟨S_, .f32⟩
  | 14 => ⟨S200000, .f32⟩
  | 15 => ⟨S_, .f32⟩
  | 16 => ⟨S100000, .f32⟩
  | 17 => ⟨S200000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x128, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x128, .f32⟩
  | 51 => ⟨S200000x256, .f32⟩
  | 52 => ⟨S200000x128, .f32⟩
  | 53 => ⟨S1x128, .f32⟩
  | 54 => ⟨S200000x128, .f32⟩
  | 55 => ⟨S200000x128, .f32⟩
  | 56 => ⟨S_, .f32⟩
  | 57 => ⟨S200000x128, .f32⟩
  | 58 => ⟨S200000x128, .f32⟩
  | 59 => ⟨S200000x128, .f32⟩
  | 60 => ⟨S1x128, .f32⟩
  | 61 => ⟨S200000x128, .f32⟩
  | 62 => ⟨S200000x128, .f32⟩
  | 63 => ⟨S_, .f32⟩
  | 64 => ⟨S200000x128, .f32⟩
  | 65 => ⟨S200000x128, .f32⟩
  | 66 => ⟨S200000x1, .f32⟩
  | 67 => ⟨S1x1, .f32⟩
  | 68 => ⟨S200000x1, .f32⟩
  | 69 => ⟨S200000x1, .f32⟩
  | 70 => ⟨S200000x1, .f32⟩
  | 71 => ⟨S200000x1, .f32⟩
  | 72 => ⟨S_, .f32⟩
  | 73 => ⟨S200000x1, .f32⟩
  | 74 => ⟨S200000x1, .f32⟩
  | 75 => ⟨S_, .f32⟩
  | 76 => ⟨S200000x1, .f32⟩
  | 77 => ⟨S200000x1, .f32⟩
  | 78 => ⟨S_, .f32⟩
  | 79 => ⟨S200000x1, .f32⟩
  | 80 => ⟨S200000x1, .f32⟩
  | 81 => ⟨S_, .f32⟩
  | 82 => ⟨S200000x1, .f32⟩
  | 83 => ⟨S200000x1, .f32⟩
  | _ => ⟨S2x200000, .i32⟩

abbrev hbmTy (i : Nat) : BufTy := match i / 128 with
  | 0 => hbmTy0_0 i
  | 1 => hbmTy0_1 i
  | _ => ⟨S2x200000, .i32⟩

abbrev bufTy : (tb : Table) → Fin (tcTables nBuf tb) → BufTy
  | .hbm, ⟨i, _⟩ => hbmTy i
  | _, _ => ⟨S2x200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_v10 : Ref sig .tc := ⟨.hbm, 38, rfl⟩
abbrev main_c_0 : Ref sig .tc := ⟨.hbm, 39, rfl⟩
abbrev main_v11 : Ref sig .tc := ⟨.hbm, 40, rfl⟩
abbrev main_v12 : Ref sig .tc := ⟨.hbm, 41, rfl⟩
abbrev main_c_1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_2 : Ref sig .tc := ⟨.hbm, 46, rfl⟩
abbrev main_v16 : Ref sig .tc := ⟨.hbm, 47, rfl⟩
abbrev main_v17 : Ref sig .tc := ⟨.hbm, 48, rfl⟩
abbrev main_c_3 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call0_cst : Ref sig .tc := ⟨.hbm, 61, rfl⟩
abbrev main_call0_v0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_call1_cst : Ref sig .tc := ⟨.hbm, 68, rfl⟩
abbrev main_call1_v0 : Ref sig .tc := ⟨.hbm, 69, rfl⟩
abbrev main_v34 : Ref sig .tc := ⟨.hbm, 70, rfl⟩
abbrev main_v35 : Ref sig .tc := ⟨.hbm, 71, rfl⟩
abbrev main_cst : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_4 : Ref sig .tc := ⟨.hbm, 76, rfl⟩
abbrev main_v39 : Ref sig .tc := ⟨.hbm, 77, rfl⟩
abbrev main_cst_5 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_6 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_call2_cst : Ref sig .tc := ⟨.hbm, 93, rfl⟩
abbrev main_call2_v0 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_c_7 : Ref sig .tc := ⟨.hbm, 101, rfl⟩
abbrev main_v59 : Ref sig .tc := ⟨.hbm, 102, rfl⟩
abbrev main_v60 : Ref sig .tc := ⟨.hbm, 103, rfl⟩
abbrev main_c_8 : Ref sig .tc := ⟨.hbm, 104, rfl⟩
abbrev main_v61 : Ref sig .tc := ⟨.hbm, 105, rfl⟩
abbrev main_v62 : Ref sig .tc := ⟨.hbm, 106, rfl⟩
abbrev main_c_9 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_10 : Ref sig .tc := ⟨.hbm, 111, rfl⟩
abbrev main_v66 : Ref sig .tc := ⟨.hbm, 112, rfl⟩
abbrev main_v67 : Ref sig .tc := ⟨.hbm, 113, rfl⟩
abbrev main_c_11 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_call3_cst : Ref sig .tc := ⟨.hbm, 126, rfl⟩
abbrev main_call3_v0 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_call4_cst : Ref sig .tc := ⟨.hbm, 133, rfl⟩
abbrev main_call4_v0 : Ref sig .tc := ⟨.hbm, 134, rfl⟩
abbrev main_v84 : Ref sig .tc := ⟨.hbm, 135, rfl⟩
abbrev main_v85 : Ref sig .tc := ⟨.hbm, 136, rfl⟩
abbrev main_cst_12 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_13 : Ref sig .tc := ⟨.hbm, 141, rfl⟩
abbrev main_v89 : Ref sig .tc := ⟨.hbm, 142, rfl⟩
abbrev main_cst_14 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_15 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_call5_cst : Ref sig .tc := ⟨.hbm, 158, rfl⟩
abbrev main_call5_v0 : Ref sig .tc := ⟨.hbm, 159, rfl⟩
abbrev main_v103 : Ref sig .tc := ⟨.hbm, 160, rfl⟩
abbrev main_c_16 : Ref sig .tc := ⟨.hbm, 161, rfl⟩
abbrev main_v104 : Ref sig .tc := ⟨.hbm, 162, rfl⟩
abbrev main_v105 : Ref sig .tc := ⟨.hbm, 163, rfl⟩
abbrev main_c_17 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_c_18 : Ref sig .tc := ⟨.hbm, 170, rfl⟩
abbrev main_v111 : Ref sig .tc := ⟨.hbm, 171, rfl⟩
abbrev main_v112 : Ref sig .tc := ⟨.hbm, 172, rfl⟩
abbrev main_c_19 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_call6_cst : Ref sig .tc := ⟨.hbm, 184, rfl⟩
abbrev main_call6_v0 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_call7_cst : Ref sig .tc := ⟨.hbm, 191, rfl⟩
abbrev main_call7_v0 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_cst_20 : Ref sig .tc := ⟨.hbm, 200, rfl⟩
abbrev main_v135 : Ref sig .tc := ⟨.hbm, 201, rfl⟩
abbrev main_v136 : Ref sig .tc := ⟨.hbm, 202, rfl⟩
abbrev main_cst_21 : Ref sig .tc := ⟨.hbm, 203, rfl⟩
abbrev main_v137 : Ref sig .tc := ⟨.hbm, 204, rfl⟩
abbrev main_v138 : Ref sig .tc := ⟨.hbm, 205, rfl⟩
abbrev main_cst_22 : Ref sig .tc := ⟨.hbm, 206, rfl⟩
abbrev main_v139 : Ref sig .tc := ⟨.hbm, 207, rfl⟩
abbrev main_v140 : Ref sig .tc := ⟨.hbm, 208, rfl⟩
abbrev main_cst_23 : Ref sig .tc := ⟨.hbm, 209, rfl⟩
abbrev main_v141 : Ref sig .tc := ⟨.hbm, 210, rfl⟩
abbrev main_v142 : Ref sig .tc := ⟨.hbm, 211, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S640_S1x640_1 : S640.BroadcastsInDim S1x640 (![1] : Fin 1 → Fin S1x640.rank)
  bcast_S1x640_S100000x640_0_1 : S1x640.BroadcastsInDim S100000x640 (![0, 1] : Fin 2 → Fin S100000x640.rank)
  shapeCasts_S100000x640_S100000x5x128 : S100000x640.ShapeCasts S100000x5x128
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bcast_S1x640_S200000x640_0_1 : S1x640.BroadcastsInDim S200000x640 (![0, 1] : Fin 2 → Fin S200000x640.rank)
  bcast_S_S200000x640 : S_.BroadcastsInDim S200000x640 (![] : Fin 0 → Fin S200000x640.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  concatenates_S200000x128_S200000x128_S200000x256_d1 : Shape.Concatenates [S200000x128, S200000x128] S200000x256 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  dot_S100000x128_S128x640_S100000x640_1_0_0_1_n_n_wf : DotDims.WF S100000x128 S128x640 S100000x640 [1] [0] [0] [1] [] []
  gather_S100000x5x128_S200000x2_S200000x128_1_01_n_n_01_1_11128_wf : GatherDims.WF S100000x5x128 S200000x2 S200000x128 [1] [0, 1] [] [0, 1] [] 1 ![1, 1, 128]
  dot_S200000x768_S768x640_S200000x640_1_0_0_1_n_n_wf : DotDims.WF S200000x768 S768x640 S200000x640 [1] [0] [0] [1] [] []
  dot_S200000x640_S640x128_S200000x128_1_0_0_1_n_n_wf : DotDims.WF S200000x640 S640x128 S200000x128 [1] [0] [0] [1] [] []
  scatter_S100000x128_S200000x1_S200000x128_1_0_0_1_wf : ScatterDims.WF S100000x128 S200000x1 S200000x128 [1] [0] [0] 1
  scatter_S100000_S200000x1_S200000_n_0_0_1_wf : ScatterDims.WF S100000 S200000x1 S200000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x128_S200000x128_1_0_0_1_n_n_wf : DotDims.WF S200000x128 S128x128 S200000x128 [1] [0] [0] [1] [] []
  dot_S200000x128_S128x1_S200000x1_1_0_0_1_n_n_wf : DotDims.WF S200000x128 S128x1 S200000x1 [1] [0] [0] [1] [] []

variable [Facts₀]

def dot_S100000x128_S128x640_S100000x640_1_0_0_1_n_n : DotDims S100000x128 S128x640 S100000x640 where
  lhsContracting := [1]
  rhsContracting := [0]
  lhsNonContracting := [0]
  rhsNonContracting := [1]
  lhsBatch := []
  rhsBatch := []
  wf := dot_S100000x128_S128x640_S100000x640_1_0_0_1_n_n_wf
def gather_S100000x5x128_S200000x2_S200000x128_1_01_n_n_01_1_11128 : GatherDims S100000x5x128 S200000x2 S200000x128 where
  offsetDims := [1]
  collapsedSliceDims := [0, 1]
  operandBatchingDims := []
  startIndicesBatchingDims := []
  startIndexMap := [0, 1]
  indexVectorDim := 1
  sliceSizes := ![1, 1, 128]
  wf := gather_S100000x5x128_S200000x2_S200000x128_1_01_n_n_01_1_11128_wf
def dot_S200000x768_S768x640_S200000x640_1_0_0_1_n_n : DotDims S200000x768 S768x640 S200000x640 where
  lhsContracting := [1]
  rhsContracting := [0]
  lhsNonContracting := [0]
  rhsNonContracting := [1]
  lhsBatch := []
  rhsBatch := []
  wf := dot_S200000x768_S768x640_S200000x640_1_0_0_1_n_n_wf
def dot_S200000x640_S640x128_S200000x128_1_0_0_1_n_n : DotDims S200000x640 S640x128 S200000x128 where
  lhsContracting := [1]
  rhsContracting := [0]
  lhsNonContracting := [0]
  rhsNonContracting := [1]
  lhsBatch := []
  rhsBatch := []
  wf := dot_S200000x640_S640x128_S200000x128_1_0_0_1_n_n_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.PreDecode.lean ====
/-
  What the precondition says of the type words.

  The precondition is a conjunction whose last conjunct is "every type word is at least 1 and at most 5",
  printed as a reduction by "and" of the elementwise conjunction of two signed comparisons. When the whole
  predicate is 1, that last reduction is 1, so both comparisons hold at every edge.
-/
import proofs.«409393_j55679956025643_3_alg».proof.Pre_finite_inputs
import Idealize.ShloMosaic.Lib.ReduceAll
import Idealize.ShloMosaic.Lib.ValueIdx

noncomputable section

namespace Cert.PreDecode

open Idealize.ShloMosaic Cert.Pre_finite_inputs

variable {F : FTy → Type} [FloatOps F] [Cert.Pre_finite_inputs.Facts]

instance : Subsingleton S_.Idx := ⟨fun a b => funext fun d => d.elim0⟩

/-- Under the precondition every type word, read signed, lies in 1, …, 5. -/
theorem types_in_range (a0 : IVec S2x200000 32) (a1 : IVec S200000 32) (a2 : FVec F S200000x768 .f32) (a3 : FVec F S100000x128 .f32) (a4 : FVec F S100000x128 .f32) (a5 : FVec F S128x640 .f32) (a6 : FVec F S640 .f32) (a7 : FVec F S768x640 .f32) (a8 : FVec F S640 .f32) (a9 : FVec F S640x128 .f32) (a10 : FVec F S128 .f32) (a11 : FVec F S128x128 .f32) (a12 : FVec F S128 .f32) (a13 : FVec F S128x640 .f32) (a14 : FVec F S640 .f32) (a15 : FVec F S768x640 .f32) (a16 : FVec F S640 .f32) (a17 : FVec F S640x128 .f32) (a18 : FVec F S128 .f32) (a19 : FVec F S128x128 .f32) (a20 : FVec F S128 .f32) (a21 : FVec F S256x128 .f32) (a22 : FVec F S128 .f32) (a23 : FVec F S128x128 .f32) (a24 : FVec F S128 .f32) (a25 : FVec F S128x1 .f32) (a26 : FVec F S1 .f32)
    (h : Cert.Pre_finite_inputs.fn (F := F) a0 a1 a2 a3 a4 a5 a6 a7 a8 a9 a10 a11 a12 a13 a14 a15 a16 a17 a18 a19 a20 a21 a22 a23 a24 a25 a26 = fun _ => 1#1) (e : S200000.Idx) :
    1 ≤ (a1 e).toInt ∧ (a1 e).toInt ≤ 5 := by
  have h0 := congrFun h ValueIdx.ix0
  dsimp only [fn, fn_part1, fn_part2, fn_part3, fn_part4, fn_part5, fn_part6, fn_part7] at h0
  have h1 := (IntOp.andi_eq_one.1 h0).2
  have h2 := Host.reduce_andi_all _ _ _ _ ValueIdx.ix0 h1 e
  have h3 := IntOp.andi_eq_one.1 h2
  have hge := IntOp.cmpi_sge.1 h3.1
  have hle := IntOp.cmpi_sle.1 h3.2
  exact ⟨hge, hle⟩

end Cert.PreDecode

end
-- ==== Proof.LibLayout.lean ====
/-
  Three small layout facts read at an index.

  A vector laid out as a one-column matrix, by broadcasting or by reshaping, holds at (p, 0) what the vector
  holds at p. Row r of a matrix, sliced out as a one-row matrix and flattened, holds at e what the matrix holds
  at (r, e). And a matrix sliced out of the rows of a taller one holds at (l, k) what that one holds at
  (first row + l, k).
-/
import Idealize.ShloMosaic.PureOps.Ideal
import Idealize.ShloMosaic.Lib.Pipeline.Value
import Idealize.ShloMosaic.Lib.ValueIdx

noncomputable section

namespace Cert.LibLayout

open Idealize.ShloMosaic Idealize.ShloMosaic.ValueIdx

/-- A vector broadcast into a column, read at (p, q): q can only be 0. -/
theorem bcast_col_apply {α : Type} {n : Nat} (h : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A vector reshaped into a column, read at (p, q). -/
theorem reshape_col_apply {α : Type} {n : Nat} (v : (⟨1, ![n]⟩ : Shape).Idx → α)
    (h : (⟨1, ![n]⟩ : Shape).ShapeCasts ⟨2, ![n, 1]⟩) (p : Fin n) (q : Fin 1) :
    shapeCast ⟨2, ![n, 1]⟩ v h (ix2 p q) = v (ix1 p) := by
  refine shapeCast_apply v h (ix2 p q) (ix1 p) ?_
  rw [Shape.rowMajor_val_one, Shape.rowMajor_val_two]
  show p.val = p.val * 1 + q.val
  have := q.isLt
  omega

/-- A column reshaped into a vector, read at p. -/
theorem reshape_vec_apply {α : Type} {n : Nat} (v : (⟨2, ![n, 1]⟩ : Shape).Idx → α)
    (h : (⟨2, ![n, 1]⟩ : Shape).ShapeCasts ⟨1, ![n]⟩) (p : Fin n) :
    shapeCast ⟨1, ![n]⟩ v h (ix1 p) = v (ix2 p 0) := by
  refine shapeCast_apply v h (ix1 p) (ix2 p 0) ?_
  rw [Shape.rowMajor_val_one, Shape.rowMajor_val_two]
  show p.val * 1 + 0 = p.val
  omega

/-- Row r of an R-row matrix, sliced out and flattened, read at e. -/
theorem row_apply {α : Type} {R E : Nat} (r : Nat) (hr : r < R) (x : (⟨2, ![R, E]⟩ : Shape).Idx → α)
    (hs : (⟨2, ![R, E]⟩ : Shape).Slices ![r, 0] ⟨2, ![1, E]⟩) (hc : (⟨2, ![1, E]⟩ : Shape).ShapeCasts ⟨1, ![E]⟩) (e : Fin E) :
    shapeCast ⟨1, ![E]⟩ (extractStridedSlice ⟨2, ![1, E]⟩ ![r, 0] x hs) hc (ix1 e) = x (ix2 ⟨r, hr⟩ e) := by
  refine (shapeCast_apply _ hc (ix1 e) (ix2 0 e) ?_).trans ?_
  · rw [Shape.rowMajor_val_one, Shape.rowMajor_val_two]
    show 0 * E + e.val = e.val
    omega
  · unfold extractStridedSlice
    congr 1
    funext a
    apply Fin.ext
    match a with
    | ⟨0, _⟩ => show r + 0 = r; omega
    | ⟨1, _⟩ => show 0 + e.val = e.val; omega

/-- Rows r, r + 1, … of a taller matrix, sliced out as an L-row matrix, read at (l, k). -/
theorem rows_apply {α : Type} {R L C : Nat} (r : Nat) (x : (⟨2, ![R, C]⟩ : Shape).Idx → α)
    (hs : (⟨2, ![R, C]⟩ : Shape).Slices ![r, 0] ⟨2, ![L, C]⟩) (l : Fin L) (k : Fin C) (hl : r + l.val < R) :
    extractStridedSlice ⟨2, ![L, C]⟩ ![r, 0] x hs (ix2 l k) = x (ix2 ⟨r + l.val, hl⟩ k) := by
  unfold extractStridedSlice
  congr 1
  funext a
  apply Fin.ext
  match a with
  | ⟨0, _⟩ => rfl
  | ⟨1, _⟩ => show 0 + k.val = k.val; omega

end Cert.LibLayout

end
-- ==== Proof.HostK.lean ====
/-
  What the three launches find in their operand buffers.

  Between the launches the program runs plain array operations: it cuts the two index rows out of the index
  array, moves negative index words up by the table's extent and lays them out as columns, gathers the source
  rows of every edge, clips the shifted type words, narrows every weight matrix (a change of format, the
  identity on the values), sums the messages and counts the edges per destination node, gathers the updated rows of every
  edge's two end points, and cuts the first rating matrix into its two halves. Here each operand buffer of
  each launch, at that launch's entry, is stated as one such term of the argument arrays (and, after the first
  and the second launch, of the arrays those launches leave), and the small terms are read at an index.
-/
import proofs.«409393_j55679956025643_3_alg».proof.Proof.Gen.KernelIdeal.Frame
import proofs.«409393_j55679956025643_3_alg».proof.Proof.LibLayout
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.ShloMosaic.ValueIdx Idealize.ShloMosaic.StableHlo

namespace Cert.KernelIdeal.HostK

open Cert.KernelIdeal Cert.KernelIdeal.Gen

variable (m : (ℓ : Loc nD τ sig) → Buf (Elt Ideal) ℓ) (ρ : Dev nD → PrngReg)

/-! ## The host values the launches read, as terms of the argument arrays -/

/-- The first index row, flattened. -/
def idxRow0 (a0 : IVec S2x200000 32) : IVec S200000 32 :=
  shapeCast S200000 (extractStridedSlice S1x200000 ![0, 0] a0 slices_S2x200000_S1x200000_0_0) shapeCasts_S1x200000_S200000
/-- The second index row, flattened. -/
def idxRow1 (a0 : IVec S2x200000 32) : IVec S200000 32 :=
  shapeCast S200000 (extractStridedSlice S1x200000 ![1, 0] a0 slices_S2x200000_S1x200000_1_0) shapeCasts_S1x200000_S200000
/-- An index vector with its negative words moved up by 100000, as a column. -/
def wrapCol (v : IVec S200000 32) : IVec S200000x1 32 :=
  broadcastInDim S200000x1 ![0] bcast_S200000_S200000x1_0
    (select (cmpi .slt v (broadcastInDim S200000 ![] bcast_S_S200000 (constantI S_ 32 0#32)))
      (addi v (broadcastInDim S200000 ![] bcast_S_S200000 (constantI S_ 32 100000#32))) v)
/-- An index vector as a column, as it is. -/
def rawCol (v : IVec S200000 32) : IVec S200000x1 32 := broadcastInDim S200000x1 ![0] bcast_S200000_S200000x1_0 v
/-- The shifted type words clipped into [0, 4], as a column. -/
def clipCol (a1 : IVec S200000 32) : IVec S200000x1 32 :=
  shapeCast S200000x1
    (minsi (broadcastInDim S200000 ![] bcast_S_S200000 (constantI S_ 32 4#32))
      (maxsi (broadcastInDim S200000 ![] bcast_S_S200000 (constantI S_ 32 0#32))
        (subi a1 (broadcastInDim S200000 ![] bcast_S_S200000 (constantI S_ 32 1#32)))))
    shapeCasts_S200000_S200000x1

theorem idxRow0_apply (a0 : IVec S2x200000 32) (e : Fin 200000) : idxRow0 a0 (ix1 e) = a0 (ix2 0 e) :=
  Cert.LibLayout.row_apply 0 (by decide) a0 _ _ e
theorem idxRow1_apply (a0 : IVec S2x200000 32) (e : Fin 200000) : idxRow1 a0 (ix1 e) = a0 (ix2 1 e) :=
  Cert.LibLayout.row_apply 1 (by decide) a0 _ _ e
theorem wrapCol_apply (v : IVec S200000 32) (e : Fin 200000) (q : Fin 1) :
    wrapCol v (ix2 e q) = Scalar.select (IntOp.cmpi .slt (v (ix1 e)) 0#32) (IntOp.addi (v (ix1 e)) 100000#32) (v (ix1 e)) :=
  Cert.LibLayout.bcast_col_apply _ _ e q
theorem rawCol_apply (v : IVec S200000 32) (e : Fin 200000) (q : Fin 1) : rawCol v (ix2 e q) = v (ix1 e) :=
  Cert.LibLayout.bcast_col_apply _ _ e q
theorem clipCol_apply (a1 : IVec S200000 32) (e : Fin 200000) (q : Fin 1) :
    clipCol a1 (ix2 e q) = IntOp.minsi 4#32 (IntOp.maxsi 0#32 (IntOp.subi (a1 (ix1 e)) 1#32)) :=
  Cert.LibLayout.reshape_col_apply _ _ e q

/-! ## Region 0's operands at its entry -/

theorem v3_ea (c : Dev nD) : V3 m ρ c (Pipeline.arrRef spec0 0) = (m ((c : Thread nD τ).loc main_arg2)) := by
  show W3 m ρ c (Proc.devRef .tc main_arg2) = _
  after_results_simp
theorem v3_xgu (c : Dev nD) : V3 m ρ c (Pipeline.arrRef spec0 1)
    = Host.gather gather_S100000x128_S200000x1_S200000x128_1_0_n_n_0_1_1128 (truncf .bf16 (m ((c : Thread nD τ).loc main_arg4)) bitsLt_bf16_f32 : FVec Ideal S100000x128 .bf16) (wrapCol (idxRow1 (m ((c : Thread nD τ).loc main_arg0)))) := by
  show W3 m ρ c (Proc.devRef .tc main_v16) = _
  after_results_simp <;> rfl
theorem v3_xgi (c : Dev nD) : V3 m ρ c (Pipeline.arrRef spec0 2)
    = Host.gather gather_S100000x128_S200000x1_S200000x128_1_0_n_n_0_1_1128 (truncf .bf16 (m ((c : Thread nD τ).loc main_arg3)) bitsLt_bf16_f32 : FVec Ideal S100000x128 .bf16) (wrapCol (idxRow0 (m ((c : Thread nD τ).loc main_arg0)))) := by
  show W3 m ρ c (Proc.devRef .tc main_v23) = _
  after_results_simp <;> rfl
theorem v3_et (c : Dev nD) : V3 m ρ c (Pipeline.arrRef spec0 3) = clipCol (m ((c : Thread nD τ).loc main_arg1)) := by
  show W3 m ρ c (Proc.devRef .tc main_v7) = _
  after_results_simp <;> rfl
theorem v3_wju (c : Dev nD) : V3 m ρ c (Pipeline.arrRef spec0 4) = (truncf .bf16 (m ((c : Thread nD τ).loc main_arg5)) bitsLt_bf16_f32 : FVec Ideal S128x640 .bf16) := by
  show W3 m ρ c (Proc.devRef .tc main_v24) = _
  after_results_simp <;> rfl
theorem v3_bju (c : Dev nD) : V3 m ρ c (Pipeline.arrRef spec0 5) = (m ((c : Thread nD τ).loc main_arg6)) := by
  show W3 m ρ c (Proc.devRef .tc main_arg6) = _
  after_results_simp
theorem v3_we1u (c : Dev nD) : V3 m ρ c (Pipeline.arrRef spec0 6) = (truncf .bf16 (m ((c : Thread nD τ).loc main_arg7)) bitsLt_bf16_f32 : FVec Ideal S768x640 .bf16) := by
  show W3 m ρ c (Proc.devRef .tc main_v25) = _
  after_results_simp <;> rfl
theorem v3_be1u (c : Dev nD) : V3 m ρ c (Pipeline.arrRef spec0 7) = (m ((c : Thread nD τ).loc main_arg8)) := by
  show W3 m ρ c (Proc.devRef .tc main_arg8) = _
  after_results_simp
theorem v3_we2u (c : Dev nD) : V3 m ρ c (Pipeline.arrRef spec0 8) = (truncf .bf16 (m ((c : Thread nD τ).loc main_arg9)) bitsLt_bf16_f32 : FVec Ideal S640x128 .bf16) := by
  show W3 m ρ c (Proc.devRef .tc main_v26) = _
  after_results_simp <;> rfl
theorem v3_be2u (c : Dev nD) : V3 m ρ c (Pipeline.arrRef spec0 9) = (m ((c : Thread nD τ).loc main_arg10)) := by
  show W3 m ρ c (Proc.devRef .tc main_arg10) = _
  after_results_simp
theorem v3_wji (c : Dev nD) : V3 m ρ c (Pipeline.arrRef spec0 10) = (truncf .bf16 (m ((c : Thread nD τ).loc main_arg13)) bitsLt_bf16_f32 : FVec Ideal S128x640 .bf16) := by
  show W3 m ρ c (Proc.devRef .tc main_v27) = _
  after_results_simp <;> rfl
theorem v3_bji (c : Dev nD) : V3 m ρ c (Pipeline.arrRef spec0 11) = (m ((c : Thread nD τ).loc main_arg14)) := by
  show W3 m ρ c (Proc.devRef .tc main_arg14) = _
  after_results_simp
theorem v3_we1i (c : Dev nD) : V3 m ρ c (Pipeline.arrRef spec0 12) = (truncf .bf16 (m ((c : Thread nD τ).loc main_arg15)) bitsLt_bf16_f32 : FVec Ideal S768x640 .bf16) := by
  show W3 m ρ c (Proc.devRef .tc main_v28) = _
  after_results_simp <;> rfl
theorem v3_be1i (c : Dev nD) : V3 m ρ c (Pipeline.arrRef spec0 13) = (m ((c : Thread nD τ).loc main_arg16)) := by
  show W3 m ρ c (Proc.devRef .tc main_arg16) = _
  after_results_simp
theorem v3_we2i (c : Dev nD) : V3 m ρ c (Pipeline.arrRef spec0 14) = (truncf .bf16 (m ((c : Thread nD τ).loc main_arg17)) bitsLt_bf16_f32 : FVec Ideal S640x128 .bf16) := by
  show W3 m ρ c (Proc.devRef .tc main_v29) = _
  after_results_simp <;> rfl
theorem v3_be2i (c : Dev nD) : V3 m ρ c (Pipeline.arrRef spec0 15) = (m ((c : Thread nD τ).loc main_arg18)) := by
  show W3 m ρ c (Proc.devRef .tc main_arg18) = _
  after_results_simp
/-! ## What the first launch leaves, and region 1's operands at its entry -/

/-- The user-side message array the first launch leaves. -/
abbrev msgU (c : Dev nD) : Vec Ideal S200000x128 .bf16 := (dat0 (V3 m ρ) c).arrAt 16 cfg0.N
/-- The item-side message array the first launch leaves. -/
abbrev msgI (c : Dev nD) : Vec Ideal S200000x128 .bf16 := (dat0 (V3 m ρ) c).arrAt 17 cfg0.N

theorem w4_arg3 (c : Dev nD) : W4 m ρ c (Proc.devRef .tc main_arg3) = (m ((c : Thread nD τ).loc main_arg3)) := by
  rw [W4_of_ne m ρ c main_arg3 (by decide)]
  show W3 m ρ c (Proc.devRef .tc main_arg3) = _
  after_results_simp
theorem w4_arg4 (c : Dev nD) : W4 m ρ c (Proc.devRef .tc main_arg4) = (m ((c : Thread nD τ).loc main_arg4)) := by
  rw [W4_of_ne m ρ c main_arg4 (by decide)]
  show W3 m ρ c (Proc.devRef .tc main_arg4) = _
  after_results_simp
theorem w4_arg11 (c : Dev nD) : W4 m ρ c (Proc.devRef .tc main_arg11) = (m ((c : Thread nD τ).loc main_arg11)) := by
  rw [W4_of_ne m ρ c main_arg11 (by decide)]
  show W3 m ρ c (Proc.devRef .tc main_arg11) = _
  after_results_simp
theorem w4_arg12 (c : Dev nD) : W4 m ρ c (Proc.devRef .tc main_arg12) = (m ((c : Thread nD τ).loc main_arg12)) := by
  rw [W4_of_ne m ρ c main_arg12 (by decide)]
  show W3 m ρ c (Proc.devRef .tc main_arg12) = _
  after_results_simp
theorem w4_arg19 (c : Dev nD) : W4 m ρ c (Proc.devRef .tc main_arg19) = (m ((c : Thread nD τ).loc main_arg19)) := by
  rw [W4_of_ne m ρ c main_arg19 (by decide)]
  show W3 m ρ c (Proc.devRef .tc main_arg19) = _
  after_results_simp
theorem w4_arg20 (c : Dev nD) : W4 m ρ c (Proc.devRef .tc main_arg20) = (m ((c : Thread nD τ).loc main_arg20)) := by
  rw [W4_of_ne m ρ c main_arg20 (by decide)]
  show W3 m ρ c (Proc.devRef .tc main_arg20) = _
  after_results_simp
theorem w4_arg21 (c : Dev nD) : W4 m ρ c (Proc.devRef .tc main_arg21) = (m ((c : Thread nD τ).loc main_arg21)) := by
  rw [W4_of_ne m ρ c main_arg21 (by decide)]
  show W3 m ρ c (Proc.devRef .tc main_arg21) = _
  after_results_simp
theorem w4_arg22 (c : Dev nD) : W4 m ρ c (Proc.devRef .tc main_arg22) = (m ((c : Thread nD τ).loc main_arg22)) := by
  rw [W4_of_ne m ρ c main_arg22 (by decide)]
  show W3 m ρ c (Proc.devRef .tc main_arg22) = _
  after_results_simp
theorem w4_arg23 (c : Dev nD) : W4 m ρ c (Proc.devRef .tc main_arg23) = (m ((c : Thread nD τ).loc main_arg23)) := by
  rw [W4_of_ne m ρ c main_arg23 (by decide)]
  show W3 m ρ c (Proc.devRef .tc main_arg23) = _
  after_results_simp
theorem w4_arg24 (c : Dev nD) : W4 m ρ c (Proc.devRef .tc main_arg24) = (m ((c : Thread nD τ).loc main_arg24)) := by
  rw [W4_of_ne m ρ c main_arg24 (by decide)]
  show W3 m ρ c (Proc.devRef .tc main_arg24) = _
  after_results_simp
theorem w4_arg25 (c : Dev nD) : W4 m ρ c (Proc.devRef .tc main_arg25) = (m ((c : Thread nD τ).loc main_arg25)) := by
  rw [W4_of_ne m ρ c main_arg25 (by decide)]
  show W3 m ρ c (Proc.devRef .tc main_arg25) = _
  after_results_simp
theorem w4_arg26 (c : Dev nD) : W4 m ρ c (Proc.devRef .tc main_arg26) = (m ((c : Thread nD τ).loc main_arg26)) := by
  rw [W4_of_ne m ρ c main_arg26 (by decide)]
  show W3 m ρ c (Proc.devRef .tc main_arg26) = _
  after_results_simp
theorem w4_v1 (c : Dev nD) : W4 m ρ c (Proc.devRef .tc main_v1) = idxRow0 (m ((c : Thread nD τ).loc main_arg0)) := by
  rw [W4_of_ne m ρ c main_v1 (by decide)]
  show W3 m ρ c (Proc.devRef .tc main_v1) = _
  after_results_simp <;> rfl
theorem w4_v3 (c : Dev nD) : W4 m ρ c (Proc.devRef .tc main_v3) = idxRow1 (m ((c : Thread nD τ).loc main_arg0)) := by
  rw [W4_of_ne m ρ c main_v3 (by decide)]
  show W3 m ρ c (Proc.devRef .tc main_v3) = _
  after_results_simp <;> rfl
theorem w4_msgu (c : Dev nD) : W4 m ρ c (Proc.devRef .tc main_v30_0) = msgU m ρ c := W4_arr m ρ c 16
theorem w4_msgi (c : Dev nD) : W4 m ρ c (Proc.devRef .tc main_v30_1) = msgI m ρ c := W4_arr m ρ c 17

/-- The sums of a message array's rows per destination node: an accumulating scatter into zeros. -/
def aggOf (idx : IVec S200000 32) (msg : FVec Ideal S200000x128 .bf16) : FVec Ideal S100000x128 .f32 :=
  Host.scatterAdd scatter_S100000x128_S200000x1_S200000x128_1_0_0_1
    (broadcastInDim S100000x128 ![] bcast_S_S100000x128 (constant S_ .f32 0x00000000#32))
    (rawCol idx) (extf .f32 msg bitsLt_bf16_f32)
/-- The number of edges per destination node, as a column: an accumulating scatter of ones into zeros. -/
def cntOf (idx : IVec S200000 32) : FVec Ideal S100000x1 .f32 :=
  shapeCast S100000x1
    (Host.scatterAdd scatter_S100000_S200000x1_S200000_n_0_0_1
      (broadcastInDim S100000 ![] bcast_S_S100000 (constant S_ .f32 0x00000000#32))
      (rawCol idx) (broadcastInDim S200000 ![] bcast_S_S200000 (constant S_ .f32 0x3F800000#32)))
    shapeCasts_S100000_S100000x1

theorem v5_embu (c : Dev nD) : V5 m ρ c (Pipeline.arrRef spec1 0) = (m ((c : Thread nD τ).loc main_arg3)) := by
  show W5 m ρ c (Proc.devRef .tc main_arg3) = _
  after_results_simp
  exact w4_arg3 m ρ c
theorem v5_embi (c : Dev nD) : V5 m ρ c (Pipeline.arrRef spec1 1) = (m ((c : Thread nD τ).loc main_arg4)) := by
  show W5 m ρ c (Proc.devRef .tc main_arg4) = _
  after_results_simp
  exact w4_arg4 m ρ c
theorem v5_aggu (c : Dev nD) : V5 m ρ c (Pipeline.arrRef spec1 2) = aggOf (idxRow0 (m ((c : Thread nD τ).loc main_arg0))) (msgU m ρ c) := by
  show W5 m ρ c (Proc.devRef .tc main_v34) = _
  after_results_simp
  rw [w4_v1, w4_msgu] <;> rfl
theorem v5_aggi (c : Dev nD) : V5 m ρ c (Pipeline.arrRef spec1 3) = aggOf (idxRow1 (m ((c : Thread nD τ).loc main_arg0))) (msgI m ρ c) := by
  show W5 m ρ c (Proc.devRef .tc main_v43) = _
  after_results_simp
  rw [w4_v3, w4_msgi] <;> rfl
theorem v5_cntu (c : Dev nD) : V5 m ρ c (Pipeline.arrRef spec1 4) = cntOf (idxRow0 (m ((c : Thread nD τ).loc main_arg0))) := by
  show W5 m ρ c (Proc.devRef .tc main_v39) = _
  after_results_simp
  rw [w4_v1] <;> rfl
theorem v5_cnti (c : Dev nD) : V5 m ρ c (Pipeline.arrRef spec1 5) = cntOf (idxRow1 (m ((c : Thread nD τ).loc main_arg0))) := by
  show W5 m ρ c (Proc.devRef .tc main_v48) = _
  after_results_simp
  rw [w4_v3] <;> rfl
theorem v5_wiu (c : Dev nD) : V5 m ρ c (Pipeline.arrRef spec1 6) = (truncf .bf16 (m ((c : Thread nD τ).loc main_arg11)) bitsLt_bf16_f32 : FVec Ideal S128x128 .bf16) := by
  show W5 m ρ c (Proc.devRef .tc main_v49) = _
  after_results_simp
  rw [w4_arg11] <;> rfl
theorem v5_biu (c : Dev nD) : V5 m ρ c (Pipeline.arrRef spec1 7) = (m ((c : Thread nD τ).loc main_arg12)) := by
  show W5 m ρ c (Proc.devRef .tc main_arg12) = _
  after_results_simp
  exact w4_arg12 m ρ c
theorem v5_wii (c : Dev nD) : V5 m ρ c (Pipeline.arrRef spec1 8) = (truncf .bf16 (m ((c : Thread nD τ).loc main_arg19)) bitsLt_bf16_f32 : FVec Ideal S128x128 .bf16) := by
  show W5 m ρ c (Proc.devRef .tc main_v50) = _
  after_results_simp
  rw [w4_arg19] <;> rfl
theorem v5_bii (c : Dev nD) : V5 m ρ c (Pipeline.arrRef spec1 9) = (m ((c : Thread nD τ).loc main_arg20)) := by
  show W5 m ρ c (Proc.devRef .tc main_arg20) = _
  after_results_simp
  exact w4_arg20 m ρ c

/-! ## What the second launch leaves, and region 2's operands at its entry -/

/-- The updated user rows the second launch leaves. -/
abbrev xsK (c : Dev nD) : Vec Ideal S100000x128 .bf16 := (dat1 (V5 m ρ) c).arrAt 10 cfg1.N
/-- The updated item rows the second launch leaves. -/
abbrev xtK (c : Dev nD) : Vec Ideal S100000x128 .bf16 := (dat1 (V5 m ρ) c).arrAt 11 cfg1.N

theorem w6_arg21 (c : Dev nD) : W6 m ρ c (Proc.devRef .tc main_arg21) = (m ((c : Thread nD τ).loc main_arg21)) := by
  rw [W6_of_ne m ρ c main_arg21 (by decide)]
  show W5 m ρ c (Proc.devRef .tc main_arg21) = _
  after_results_simp
  exact w4_arg21 m ρ c
theorem w6_arg22 (c : Dev nD) : W6 m ρ c (Proc.devRef .tc main_arg22) = (m ((c : Thread nD τ).loc main_arg22)) := by
  rw [W6_of_ne m ρ c main_arg22 (by decide)]
  show W5 m ρ c (Proc.devRef .tc main_arg22) = _
  after_results_simp
  exact w4_arg22 m ρ c
theorem w6_arg23 (c : Dev nD) : W6 m ρ c (Proc.devRef .tc main_arg23) = (m ((c : Thread nD τ).loc main_arg23)) := by
  rw [W6_of_ne m ρ c main_arg23 (by decide)]
  show W5 m ρ c (Proc.devRef .tc main_arg23) = _
  after_results_simp
  exact w4_arg23 m ρ c
theorem w6_arg24 (c : Dev nD) : W6 m ρ c (Proc.devRef .tc main_arg24) = (m ((c : Thread nD τ).loc main_arg24)) := by
  rw [W6_of_ne m ρ c main_arg24 (by decide)]
  show W5 m ρ c (Proc.devRef .tc main_arg24) = _
  after_results_simp
  exact w4_arg24 m ρ c
theorem w6_arg25 (c : Dev nD) : W6 m ρ c (Proc.devRef .tc main_arg25) = (m ((c : Thread nD τ).loc main_arg25)) := by
  rw [W6_of_ne m ρ c main_arg25 (by decide)]
  show W5 m ρ c (Proc.devRef .tc main_arg25) = _
  after_results_simp
  exact w4_arg25 m ρ c
theorem w6_arg26 (c : Dev nD) : W6 m ρ c (Proc.devRef .tc main_arg26) = (m ((c : Thread nD τ).loc main_arg26)) := by
  rw [W6_of_ne m ρ c main_arg26 (by decide)]
  show W5 m ρ c (Proc.devRef .tc main_arg26) = _
  after_results_simp
  exact w4_arg26 m ρ c
theorem w6_v1 (c : Dev nD) : W6 m ρ c (Proc.devRef .tc main_v1) = idxRow0 (m ((c : Thread nD τ).loc main_arg0)) := by
  rw [W6_of_ne m ρ c main_v1 (by decide)]
  show W5 m ρ c (Proc.devRef .tc main_v1) = _
  after_results_simp
  exact w4_v1 m ρ c
theorem w6_v3 (c : Dev nD) : W6 m ρ c (Proc.devRef .tc main_v3) = idxRow1 (m ((c : Thread nD τ).loc main_arg0)) := by
  rw [W6_of_ne m ρ c main_v3 (by decide)]
  show W5 m ρ c (Proc.devRef .tc main_v3) = _
  after_results_simp
  exact w4_v3 m ρ c
theorem w6_xs (c : Dev nD) : W6 m ρ c (Proc.devRef .tc main_v51_0) = xsK m ρ c := W6_arr m ρ c 10
theorem w6_xt (c : Dev nD) : W6 m ρ c (Proc.devRef .tc main_v51_1) = xtK m ρ c := W6_arr m ρ c 11

theorem v7_xs (c : Dev nD) : V7 m ρ c (Pipeline.arrRef spec2 0)
    = Host.gather gather_S100000x128_S200000x1_S200000x128_1_0_n_n_0_1_1128 (xsK m ρ c) (wrapCol (idxRow0 (m ((c : Thread nD τ).loc main_arg0)))) := by
  show W7 m ρ c (Proc.devRef .tc main_v58) = _
  after_results_simp
  rw [w6_v1, w6_xs] <;> rfl
theorem v7_xt (c : Dev nD) : V7 m ρ c (Pipeline.arrRef spec2 1)
    = Host.gather gather_S100000x128_S200000x1_S200000x128_1_0_n_n_0_1_1128 (xtK m ρ c) (wrapCol (idxRow1 (m ((c : Thread nD τ).loc main_arg0)))) := by
  show W7 m ρ c (Proc.devRef .tc main_v65) = _
  after_results_simp
  rw [w6_v3, w6_xt] <;> rfl
theorem v7_w1a (c : Dev nD) : V7 m ρ c (Pipeline.arrRef spec2 2)
    = (extractStridedSlice S128x128 ![0, 0] (truncf .bf16 (m ((c : Thread nD τ).loc main_arg21)) bitsLt_bf16_f32 : FVec Ideal S256x128 .bf16) slices_S256x128_S128x128_0_0 : FVec Ideal S128x128 .bf16) := by
  show W7 m ρ c (Proc.devRef .tc main_v67) = _
  after_results_simp
  rw [w6_arg21] <;> rfl
theorem v7_w1b (c : Dev nD) : V7 m ρ c (Pipeline.arrRef spec2 3)
    = (extractStridedSlice S128x128 ![128, 0] (truncf .bf16 (m ((c : Thread nD τ).loc main_arg21)) bitsLt_bf16_f32 : FVec Ideal S256x128 .bf16) slices_S256x128_S128x128_128_0 : FVec Ideal S128x128 .bf16) := by
  show W7 m ρ c (Proc.devRef .tc main_v68) = _
  after_results_simp
  rw [w6_arg21] <;> rfl
theorem v7_b1 (c : Dev nD) : V7 m ρ c (Pipeline.arrRef spec2 4) = (m ((c : Thread nD τ).loc main_arg22)) := by
  show W7 m ρ c (Proc.devRef .tc main_arg22) = _
  after_results_simp
  exact w6_arg22 m ρ c
theorem v7_w2 (c : Dev nD) : V7 m ρ c (Pipeline.arrRef spec2 5) = (truncf .bf16 (m ((c : Thread nD τ).loc main_arg23)) bitsLt_bf16_f32 : FVec Ideal S128x128 .bf16) := by
  show W7 m ρ c (Proc.devRef .tc main_v69) = _
  after_results_simp
  rw [w6_arg23] <;> rfl
theorem v7_b2 (c : Dev nD) : V7 m ρ c (Pipeline.arrRef spec2 6) = (m ((c : Thread nD τ).loc main_arg24)) := by
  show W7 m ρ c (Proc.devRef .tc main_arg24) = _
  after_results_simp
  exact w6_arg24 m ρ c
theorem v7_w3 (c : Dev nD) : V7 m ρ c (Pipeline.arrRef spec2 7) = (truncf .bf16 (m ((c : Thread nD τ).loc main_arg25)) bitsLt_bf16_f32 : FVec Ideal S128x1 .bf16) := by
  show W7 m ρ c (Proc.devRef .tc main_v70) = _
  after_results_simp
  rw [w6_arg25] <;> rfl
theorem v7_b3 (c : Dev nD) : V7 m ρ c (Pipeline.arrRef spec2 8) = (m ((c : Thread nD τ).loc main_arg26)) := by
  show W7 m ρ c (Proc.devRef .tc main_arg26) = _
  after_results_simp
  exact w6_arg26 m ρ c

/-- The result buffer ends at what the third launch leaves in its output window. -/
theorem w8_out (c : Dev nD) : W8 m ρ c (Proc.devRef .tc main_v71) = (dat2 (V7 m ρ) c).arrAt 9 cfg2.N := W8_arr m ρ c 9

end Cert.KernelIdeal.HostK

end
-- ==== Proof.Spec.lean ====
/-
  The functions the three launches compute, row by row, over the extended reals.

  An edge e carries a feature row (768 entries), a source-node embedding row (128 entries) and a type word.
  Its message is the chunk of the source row's 640-wide linear image that the type word selects, plus a
  two-layer rectified perceptron of the feature row. A node's update is its own 128-wide linear image plus
  the mean of the messages that reached it, rectified. An edge's rating is a three-layer perceptron of the two
  updated end-point rows, squashed by the logistic function into (1, 5).

  Every function here is stated over plain coordinates, so it is neutral between the two programs' names for
  the same shapes. The chunk selection is stated twice: as the sum of five masked chunks (one mask per
  candidate type, each mask 1 where the clipped type word equals the candidate and 0 elsewhere), and as the
  single chunk at the selected position; `maskedChunks_eq` joins them when the clipped word is below 5.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The zero word of the 32-bit float format, read over the extended reals. -/
abbrev z : EReal := Ideal.ofBits .f32 0x00000000#32
/-- The word of 1.0. -/
abbrev one : EReal := Ideal.ofBits .f32 0x3F800000#32
/-- The word of 4.0. -/
abbrev four : EReal := Ideal.ofBits .f32 0x40800000#32

/-- A row times a matrix column, plus that column's bias. -/
def lin {K C : Nat} (x : Fin K → EReal) (w : Fin K → Fin C → EReal) (b : Fin C → EReal) (c : Fin C) : EReal :=
  (∑ k, x k * w k c) + b c

/-- The mask of candidate type t at type word w: 1 where they are equal, 0 elsewhere. -/
def mask (w t : BitVec 32) : EReal :=
  FloatOps.sitofp (F := Ideal) .f32 ((IntOp.cmpi .eq w t).setWidth 32)

/-- Position j of chunk t of a 640-wide row. -/
def chunkPos (t : Fin 5) (j : Fin 128) : Fin 640 := ⟨128 * t.val + j.val, by have := t.isLt; have := j.isLt; omega⟩

/-- The sum of the five masked chunks of a 640-wide row, in the order the launch adds them, from zero. -/
def maskedChunks (w : BitVec 32) (y : Fin 640 → EReal) (j : Fin 128) : EReal :=
  ((((z + mask w 0#32 * y (chunkPos 0 j)) + mask w 1#32 * y (chunkPos 1 j)) + mask w 2#32 * y (chunkPos 2 j))
    + mask w 3#32 * y (chunkPos 3 j)) + mask w 4#32 * y (chunkPos 4 j)

/-- The two-layer rectified perceptron of an edge's feature row. -/
def edgeMlp (ea : Fin 768 → EReal) (we1 : Fin 768 → Fin 640 → EReal) (be1 : Fin 640 → EReal)
    (we2 : Fin 640 → Fin 128 → EReal) (be2 : Fin 128 → EReal) (j : Fin 128) : EReal :=
  max (lin (fun k => max (lin ea we1 be1 k) z) we2 be2 j) z

/-- An edge's message as the first launch forms it: masked chunks of the source row's image, plus the perceptron. -/
def msgMasked (ea : Fin 768 → EReal) (xg : Fin 128 → EReal) (w : BitVec 32)
    (wj : Fin 128 → Fin 640 → EReal) (bj : Fin 640 → EReal)
    (we1 : Fin 768 → Fin 640 → EReal) (be1 : Fin 640 → EReal) (we2 : Fin 640 → Fin 128 → EReal) (be2 : Fin 128 → EReal)
    (j : Fin 128) : EReal :=
  maskedChunks w (lin xg wj bj) j + edgeMlp ea we1 be1 we2 be2 j

/-- An edge's message as the reference forms it: the one chunk at position t, plus the perceptron. -/
def msgChunk (ea : Fin 768 → EReal) (xg : Fin 128 → EReal) (t : Fin 5)
    (wj : Fin 128 → Fin 640 → EReal) (bj : Fin 640 → EReal)
    (we1 : Fin 768 → Fin 640 → EReal) (be1 : Fin 640 → EReal) (we2 : Fin 640 → Fin 128 → EReal) (be2 : Fin 128 → EReal)
    (j : Fin 128) : EReal :=
  lin xg wj bj (chunkPos t j) + edgeMlp ea we1 be1 we2 be2 j

/-- A node's update: its linear image plus the sum of its messages over the rectified count, rectified. -/
def upd (emb : Fin 128 → EReal) (wi : Fin 128 → Fin 128 → EReal) (bi : Fin 128 → EReal)
    (agg : Fin 128 → EReal) (cnt : EReal) (j : Fin 128) : EReal :=
  max (lin emb wi bi j + Ideal.div (agg j) (max cnt one)) z

/-- The first rating layer over the two end-point rows, with the weight matrix in two halves. -/
def rate1 (xs xt : Fin 128 → EReal) (w1a w1b : Fin 128 → Fin 128 → EReal) (b1 : Fin 128 → EReal) (k : Fin 128) : EReal :=
  max (((∑ l, xs l * w1a l k) + (∑ l, xt l * w1b l k)) + b1 k) z

/-- An edge's rating from its first-layer row: two more layers, the logistic function, then 4·x + 1. -/
def rateTail (h1 : Fin 128 → EReal) (w2 : Fin 128 → Fin 128 → EReal) (b2 : Fin 128 → EReal)
    (w3 : Fin 128 → Fin 1 → EReal) (b3 : Fin 1 → EReal) : EReal :=
  Ideal.logistic (lin (fun k => max (lin h1 w2 b2 k) z) w3 b3 0) * four + one

/-- An edge's rating as the third launch forms it. -/
def rate (xs xt : Fin 128 → EReal) (w1a w1b : Fin 128 → Fin 128 → EReal) (b1 : Fin 128 → EReal)
    (w2 : Fin 128 → Fin 128 → EReal) (b2 : Fin 128 → EReal) (w3 : Fin 128 → Fin 1 → EReal) (b3 : Fin 1 → EReal) : EReal :=
  rateTail (rate1 xs xt w1a w1b b1) w2 b2 w3 b3

end Cert.Spec

end
-- ==== Proof.Region0.lean ====
/-
  The first launch: what its two output arrays hold after the last grid point and why.
-/
import proofs.«409393_j55679956025643_3_alg».proof.Proof.Gen.KernelIdeal.Frame
import proofs.«409393_j55679956025643_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.ShloMosaic.Pipeline

namespace Cert.KernelIdeal.Region0

open Cert.KernelIdeal Cert.KernelIdeal.Gen

variable (V : (c : Dev nD) → (b : Ref sig .tc) → Buf (Elt Ideal) ((c : Thread nD τ).loc b))

/-! ## Layout: a column spread along a new trailing axis -/

/-- A column of shape [a, 1] spread to [a, b] reads, at (p, q), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A bias row of length b, viewed as [1, b] and spread over a rows, reads at (p, q) its entry q. -/
theorem biasRow_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-! ## The three matrix products of the launch, at an entry

Each product contracts the left operand's columns with the right operand's rows into a zero accumulator, so an
entry is the plain sum over the contracted index. -/

theorem lhsA_0 (i : S1600x640.Idx) (q : dot_S1600x768_S768x640_S1600x640_1_0_0_1_n_n.contr.Idx) :
    (dot_S1600x768_S768x640_S1600x640_1_0_0_1_n_n.lhsIdx i q 0).val = (i 0).val := by
  unfold DotDims.lhsIdx
  rw [dif_neg (show ¬(0 : Fin S1600x768.rank) ∈ dot_S1600x768_S768x640_S1600x640_1_0_0_1_n_n.lhsBatch by decide), dif_pos (show (0 : Fin S1600x768.rank) ∈ dot_S1600x768_S768x640_S1600x640_1_0_0_1_n_n.lhsNonContracting by decide)]
  rfl
theorem lhsA_1 (i : S1600x640.Idx) (q : dot_S1600x768_S768x640_S1600x640_1_0_0_1_n_n.contr.Idx) :
    (dot_S1600x768_S768x640_S1600x640_1_0_0_1_n_n.lhsIdx i q 1).val = (q ⟨0, by decide⟩).val :=
  dot_S1600x768_S768x640_S1600x640_1_0_0_1_n_n.lhsIdx_val_of_single rfl i q
theorem rhsA_0 (i : S1600x640.Idx) (q : dot_S1600x768_S768x640_S1600x640_1_0_0_1_n_n.contr.Idx) :
    (dot_S1600x768_S768x640_S1600x640_1_0_0_1_n_n.rhsIdx i q 0).val = (q ⟨0, by decide⟩).val :=
  dot_S1600x768_S768x640_S1600x640_1_0_0_1_n_n.rhsIdx_val_of_single rfl i q
theorem rhsA_1 (i : S1600x640.Idx) (q : dot_S1600x768_S768x640_S1600x640_1_0_0_1_n_n.contr.Idx) :
    (dot_S1600x768_S768x640_S1600x640_1_0_0_1_n_n.rhsIdx i q 1).val = (i 1).val := by
  unfold DotDims.rhsIdx
  rw [dif_neg (show ¬(1 : Fin S768x640.rank) ∈ dot_S1600x768_S768x640_S1600x640_1_0_0_1_n_n.rhsBatch by decide), dif_pos (show (1 : Fin S768x640.rank) ∈ dot_S1600x768_S768x640_S1600x640_1_0_0_1_n_n.rhsNonContracting by decide)]
  rfl

/-- The feature product [1600, 768] × [768, 640] at (p, q). -/
theorem matmulA_apply {φ₁ φ₂ : FTy} (x : FVec Ideal S1600x768 φ₁) (w : FVec Ideal S768x640 φ₂) (p : Fin 1600) (q : Fin 640) :
    matmul dot_S1600x768_S768x640_S1600x640_1_0_0_1_n_n none x w (constant (F := Ideal) S1600x640 .f32 0x00000000#32) (ix2 p q)
      = ∑ k : Fin 768, x (ix2 p k) * w (ix2 k q) := by
  simp only [matmul]
  rw [Ideal.matmul_constant_zero_apply, ← Equiv.sum_comp (ValueIdx.contrEquiv1 dot_S1600x768_S768x640_S1600x640_1_0_0_1_n_n 768 rfl rfl).symm]
  refine Finset.sum_congr rfl fun k _ => ?_
  have hk := ValueIdx.contrEquiv1_symm_val dot_S1600x768_S768x640_S1600x640_1_0_0_1_n_n 768 rfl rfl k
  have el : dot_S1600x768_S768x640_S1600x640_1_0_0_1_n_n.lhsIdx (ix2 p q) ((ValueIdx.contrEquiv1 dot_S1600x768_S768x640_S1600x640_1_0_0_1_n_n 768 rfl rfl).symm k) = ix2 p k := funext fun a => Fin.ext (by
    match a with
    | ⟨0, _⟩ => exact lhsA_0 _ _
    | ⟨1, _⟩ => exact (lhsA_1 _ _).trans hk)
  have er : dot_S1600x768_S768x640_S1600x640_1_0_0_1_n_n.rhsIdx (ix2 p q) ((ValueIdx.contrEquiv1 dot_S1600x768_S768x640_S1600x640_1_0_0_1_n_n 768 rfl rfl).symm k) = ix2 k q := funext fun a => Fin.ext (by
    match a with
    | ⟨0, _⟩ => exact (rhsA_0 _ _).trans hk
    | ⟨1, _⟩ => exact rhsA_1 _ _)
  rw [el, er]

theorem lhsB_0 (i : S1600x128.Idx) (q : dot_S1600x640_S640x128_S1600x128_1_0_0_1_n_n.contr.Idx) :
    (dot_S1600x640_S640x128_S1600x128_1_0_0_1_n_n.lhsIdx i q 0).val = (i 0).val := by
  unfold DotDims.lhsIdx
  rw [dif_neg (show ¬(0 : Fin S1600x640.rank) ∈ dot_S1600x640_S640x128_S1600x128_1_0_0_1_n_n.lhsBatch by decide), dif_pos (show (0 : Fin S1600x640.rank) ∈ dot_S1600x640_S640x128_S1600x128_1_0_0_1_n_n.lhsNonContracting by decide)]
  rfl
theorem lhsB_1 (i : S1600x128.Idx) (q : dot_S1600x640_S640x128_S1600x128_1_0_0_1_n_n.contr.Idx) :
    (dot_S1600x640_S640x128_S1600x128_1_0_0_1_n_n.lhsIdx i q 1).val = (q ⟨0, by decide⟩).val :=
  dot_S1600x640_S640x128_S1600x128_1_0_0_1_n_n.lhsIdx_val_of_single rfl i q
theorem rhsB_0 (i : S1600x128.Idx) (q : dot_S1600x640_S640x128_S1600x128_1_0_0_1_n_n.contr.Idx) :
    (dot_S1600x640_S640x128_S1600x128_1_0_0_1_n_n.rhsIdx i q 0).val = (q ⟨0, by decide⟩).val :=
  dot_S1600x640_S640x128_S1600x128_1_0_0_1_n_n.rhsIdx_val_of_single rfl i q
theorem rhsB_1 (i : S1600x128.Idx) (q : dot_S1600x640_S640x128_S1600x128_1_0_0_1_n_n.contr.Idx) :
    (dot_S1600x640_S640x128_S1600x128_1_0_0_1_n_n.rhsIdx i q 1).val = (i 1).val := by
  unfold DotDims.rhsIdx
  rw [dif_neg (show ¬(1 : Fin S640x128.rank) ∈ dot_S1600x640_S640x128_S1600x128_1_0_0_1_n_n.rhsBatch by decide), dif_pos (show (1 : Fin S640x128.rank) ∈ dot_S1600x640_S640x128_S1600x128_1_0_0_1_n_n.rhsNonContracting by decide)]
  rfl

/-- The hidden-layer product [1600, 640] × [640, 128] at (p, q). -/
theorem matmulB_apply {φ₁ φ₂ : FTy} (x : FVec Ideal S1600x640 φ₁) (w : FVec Ideal S640x128 φ₂) (p : Fin 1600) (q : Fin 128) :
    matmul dot_S1600x640_S640x128_S1600x128_1_0_0_1_n_n none x w (constant (F := Ideal) S1600x128 .f32 0x00000000#32) (ix2 p q)
      = ∑ k : Fin 640, x (ix2 p k) * w (ix2 k q) := by
  simp only [matmul]
  rw [Ideal.matmul_constant_zero_apply, ← Equiv.sum_comp (ValueIdx.contrEquiv1 dot_S1600x640_S640x128_S1600x128_1_0_0_1_n_n 640 rfl rfl).symm]
  refine Finset.sum_congr rfl fun k _ => ?_
  have hk := ValueIdx.contrEquiv1_symm_val dot_S1600x640_S640x128_S1600x128_1_0_0_1_n_n 640 rfl rfl k
  have el : dot_S1600x640_S640x128_S1600x128_1_0_0_1_n_n.lhsIdx (ix2 p q) ((ValueIdx.contrEquiv1 dot_S1600x640_S640x128_S1600x128_1_0_0_1_n_n 640 rfl rfl).symm k) = ix2 p k := funext fun a => Fin.ext (by
    match a with
    | ⟨0, _⟩ => exact lhsB_0 _ _
    | ⟨1, _⟩ => exact (lhsB_1 _ _).trans hk)
  have er : dot_S1600x640_S640x128_S1600x128_1_0_0_1_n_n.rhsIdx (ix2 p q) ((ValueIdx.contrEquiv1 dot_S1600x640_S640x128_S1600x128_1_0_0_1_n_n 640 rfl rfl).symm k) = ix2 k q := funext fun a => Fin.ext (by
    match a with
    | ⟨0, _⟩ => exact (rhsB_0 _ _).trans hk
    | ⟨1, _⟩ => exact rhsB_1 _ _)
  rw [el, er]

theorem lhsC_0 (i : S1600x640.Idx) (q : dot_S1600x128_S128x640_S1600x640_1_0_0_1_n_n.contr.Idx) :
    (dot_S1600x128_S128x640_S1600x640_1_0_0_1_n_n.lhsIdx i q 0).val = (i 0).val := by
  unfold DotDims.lhsIdx
  rw [dif_neg (show ¬(0 : Fin S1600x128.rank) ∈ dot_S1600x128_S128x640_S1600x640_1_0_0_1_n_n.lhsBatch by decide), dif_pos (show (0 : Fin S1600x128.rank) ∈ dot_S1600x128_S128x640_S1600x640_1_0_0_1_n_n.lhsNonContracting by decide)]
  rfl
theorem lhsC_1 (i : S1600x640.Idx) (q : dot_S1600x128_S128x640_S1600x640_1_0_0_1_n_n.contr.Idx) :
    (dot_S1600x128_S128x640_S1600x640_1_0_0_1_n_n.lhsIdx i q 1).val = (q ⟨0, by decide⟩).val :=
  dot_S1600x128_S128x640_S1600x640_1_0_0_1_n_n.lhsIdx_val_of_single rfl i q
theorem rhsC_0 (i : S1600x640.Idx) (q : dot_S1600x128_S128x640_S1600x640_1_0_0_1_n_n.contr.Idx) :
    (dot_S1600x128_S128x640_S1600x640_1_0_0_1_n_n.rhsIdx i q 0).val = (q ⟨0, by decide⟩).val :=
  dot_S1600x128_S128x640_S1600x640_1_0_0_1_n_n.rhsIdx_val_of_single rfl i q
theorem rhsC_1 (i : S1600x640.Idx) (q : dot_S1600x128_S128x640_S1600x640_1_0_0_1_n_n.contr.Idx) :
    (dot_S1600x128_S128x640_S1600x640_1_0_0_1_n_n.rhsIdx i q 1).val = (i 1).val := by
  unfold DotDims.rhsIdx
  rw [dif_neg (show ¬(1 : Fin S128x640.rank) ∈ dot_S1600x128_S128x640_S1600x640_1_0_0_1_n_n.rhsBatch by decide), dif_pos (show (1 : Fin S128x640.rank) ∈ dot_S1600x128_S128x640_S1600x640_1_0_0_1_n_n.rhsNonContracting by decide)]
  rfl

/-- The source-row product [1600, 128] × [128, 640] at (p, q). -/
theorem matmulC_apply {φ₁ φ₂ : FTy} (x : FVec Ideal S1600x128 φ₁) (w : FVec Ideal S128x640 φ₂) (p : Fin 1600) (q : Fin 640) :
    matmul dot_S1600x128_S128x640_S1600x640_1_0_0_1_n_n none x w (constant (F := Ideal) S1600x640 .f32 0x00000000#32) (ix2 p q)
      = ∑ k : Fin 128, x (ix2 p k) * w (ix2 k q) := by
  simp only [matmul]
  rw [Ideal.matmul_constant_zero_apply, ← Equiv.sum_comp (ValueIdx.contrEquiv1 dot_S1600x128_S128x640_S1600x640_1_0_0_1_n_n 128 rfl rfl).symm]
  refine Finset.sum_congr rfl fun k _ => ?_
  have hk := ValueIdx.contrEquiv1_symm_val dot_S1600x128_S128x640_S1600x640_1_0_0_1_n_n 128 rfl rfl k
  have el : dot_S1600x128_S128x640_S1600x640_1_0_0_1_n_n.lhsIdx (ix2 p q) ((ValueIdx.contrEquiv1 dot_S1600x128_S128x640_S1600x640_1_0_0_1_n_n 128 rfl rfl).symm k) = ix2 p k := funext fun a => Fin.ext (by
    match a with
    | ⟨0, _⟩ => exact lhsC_0 _ _
    | ⟨1, _⟩ => exact (lhsC_1 _ _).trans hk)
  have er : dot_S1600x128_S128x640_S1600x640_1_0_0_1_n_n.rhsIdx (ix2 p q) ((ValueIdx.contrEquiv1 dot_S1600x128_S128x640_S1600x640_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ## The launch's computed blocks at an entry

Over the extended reals a change of format is the identity, a same-shape reshaping is the identity, and each
product is the plain sum above; so every computed block, read at one entry, is the corresponding row function. -/

/-- The type-word block passes through its reshaping unchanged. -/
theorem pay2_eq (v2 : IVec S1600x1 32) : k0_pay2 (F := Ideal) v2 = v2 := by
  unfold k0_pay2; exact shapeCast_self _ _

/-- The five masks of a type-word block: at a row, the mask of that row's word. -/
theorem pay3_apply (v2 : IVec S1600x1 32) (i : S1600x1.Idx) : k0_pay3 (F := Ideal) v2 i = Cert.Spec.mask (v2 i) 0#32 := by
  unfold k0_pay3; rw [pay2_eq]; rfl
theorem pay4_apply (v2 : IVec S1600x1 32) (i : S1600x1.Idx) : k0_pay4 (F := Ideal) v2 i = Cert.Spec.mask (v2 i) 1#32 := by
  unfold k0_pay4; rw [pay2_eq]; rfl
theorem pay5_apply (v2 : IVec S1600x1 32) (i : S1600x1.Idx) : k0_pay5 (F := Ideal) v2 i = Cert.Spec.mask (v2 i) 2#32 := by
  unfold k0_pay5; rw [pay2_eq]; rfl
theorem pay6_apply (v2 : IVec S1600x1 32) (i : S1600x1.Idx) : k0_pay6 (F := Ideal) v2 i = Cert.Spec.mask (v2 i) 3#32 := by
  unfold k0_pay6; rw [pay2_eq]; rfl
theorem pay7_apply (v2 : IVec S1600x1 32) (i : S1600x1.Idx) : k0_pay7 (F := Ideal) v2 i = Cert.Spec.mask (v2 i) 4#32 := by
  unfold k0_pay7; rw [pay2_eq]; rfl

/-- The first perceptron layer of a feature block, rectified, at (p, k). -/
theorem hidden_apply {φ : FTy} (x : FVec Ideal S1600x768 φ) (w1 : FVec Ideal S768x640 .bf16) (b1 : FVec Ideal S640 .f32)
    (p : Fin 1600) (k : Fin 640) :
    maximumf (addf (matmul dot_S1600x768_S768x640_S1600x640_1_0_0_1_n_n none x w1 (constant (F := Ideal) S1600x640 .f32 0x00000000#32))
        (broadcastTo S1600x640 (shapeCast S1x640 b1 shapeCasts_S640_S1x640) broadcasts_S1x640_S1600x640))
      (broadcast S1600x640 (Scalar.ofBits (F := Ideal) .f32 0x00000000#32)) (ix2 p k)
      = max (Cert.Spec.lin (fun l => x (ix2 p l)) (fun l k => w1 (ix2 l k)) (fun k => b1 (ix1 k)) k) Cert.Spec.z := by
  rw [maximumf_apply, addf_apply, matmulA_apply, biasRow_apply, broadcast_apply]
  rfl

/-- The second perceptron layer before its rectification, from the rectified first layer, at (p, j). -/
theorem second_apply {φ : FTy} (h : FVec Ideal S1600x640 φ) (w2 : FVec Ideal S640x128 .bf16) (b2 : FVec Ideal S128 .f32)
    (p : Fin 1600) (j : Fin 128) :
    addf (matmul dot_S1600x640_S640x128_S1600x128_1_0_0_1_n_n none h w2 (constant (F := Ideal) S1600x128 .f32 0x00000000#32))
        (broadcastTo S1600x128 (shapeCast S1x128 b2 shapeCasts_S128_S1x128) broadcasts_S1x128_S1600x128) (ix2 p j)
      = Cert.Spec.lin (fun k => h (ix2 p k)) (fun k j => w2 (ix2 k j)) (fun j => b2 (ix1 j)) j := by
  rw [addf_apply, matmulB_apply, biasRow_apply]
  rfl

/-- The perceptron of a feature block before its last rectification (user side), at (p, j). -/
theorem pay8_apply (v0 : FVec Ideal S1600x768 .f32) (v24 : FVec Ideal S768x640 .bf16) (v27 : FVec Ideal S640 .f32)
    (v34 : FVec Ideal S640x128 .bf16) (v37 : FVec Ideal S128 .f32) (p : Fin 1600) (j : Fin 128) :
    k0_pay8 (F := Ideal) v0 v24 v27 v34 v37 (ix2 p j)
      = Cert.Spec.lin (fun k => max (Cert.Spec.lin (fun l => v0 (ix2 p l)) (fun l k => v24 (ix2 l k)) (fun k => v27 (ix1 k)) k) Cert.Spec.z)
          (fun k j => v34 (ix2 k j)) (fun j => v37 (ix1 j)) j := by
  simp only [k0_pay8, k0_pay1, shapeCast_self]
  refine (second_apply _ v34 v37 p j).trans ?_
  unfold Cert.Spec.lin
  refine congrArg (· + _) (Finset.sum_congr rfl fun k _ => ?_)
  exact congrArg (· * _) (hidden_apply (truncf .bf16 v0 bitsLt_bf16_f32) v24 v27 p k)

/-- The source rows' 640-wide linear image, at (p, q). -/
theorem image_apply {φ : FTy} (x : FVec Ideal S1600x128 φ) (wj : FVec Ideal S128x640 .bf16) (bj : FVec Ideal S640 .f32)
    (p : Fin 1600) (q : Fin 640) :
    addf (matmul dot_S1600x128_S128x640_S1600x640_1_0_0_1_n_n none x wj (constant (F := Ideal) S1600x640 .f32 0x00000000#32))
        (broadcastTo S1600x640 (shapeCast S1x640 bj shapeCasts_S640_S1x640) broadcasts_S1x640_S1600x640) (ix2 p q)
      = Cert.Spec.lin (fun k => x (ix2 p k)) (fun k c => wj (ix2 k c)) (fun c => bj (ix1 c)) q := by
  rw [addf_apply, matmulC_apply, biasRow_apply]
  rfl

/-- One masked chunk: the mask column spread over the 128 lanes, times the chunk cut at column offset 128·t. -/
theorem maskedChunk_apply (m : FVec Ideal S1600x1 .f32) (y : FVec Ideal S1600x640 .f32) (o : Nat)
    (h : S1600x640.Slices ![0, o] S1600x128) (t : Fin 5) (ho : o = 128 * t.val) (p : Fin 1600) (j : Fin 128) :
    mulf (broadcastTo S1600x128 m broadcasts_S1600x1_S1600x128) (extractStridedSlice S1600x128 ![0, o] y h) (ix2 p j)
      = m (ix2 p (0 : Fin 1)) * y (ix2 p (Cert.Spec.chunkPos t j)) := by
  rw [mulf_apply, broadcastTo_a1_ab_apply, slice2_axis1_apply o y h p j (Cert.Spec.chunkPos t j) (by subst ho; rfl)]

/-- The user-side stored block: the five masked chunks of the image added from zero in order, plus the rectified
    perceptron value, at (p, j). -/
theorem pay9_apply (v7 v11 v15 v19 v23 : FVec Ideal S1600x1 .f32) (v40 : FVec Ideal S1600x128 .f32)
    (v43 : FVec Ideal S1600x128 .bf16) (v45 : FVec Ideal S128x640 .bf16) (v48 : FVec Ideal S640 .f32) (p : Fin 1600) (j : Fin 128) :
    k0_pay9 (F := Ideal) v7 v11 v15 v19 v23 v40 v43 v45 v48 (ix2 p j)
      = (((((Cert.Spec.z
          + v7 (ix2 p (0 : Fin 1)) * Cert.Spec.lin (fun k => v43 (ix2 p k)) (fun k c => v45 (ix2 k c)) (fun c => v48 (ix1 c)) (Cert.Spec.chunkPos 0 j))
          + v11 (ix2 p (0 : Fin 1)) * Cert.Spec.lin (fun k => v43 (ix2 p k)) (fun k c => v45 (ix2 k c)) (fun c => v48 (ix1 c)) (Cert.Spec.chunkPos 1 j))
          + v15 (ix2 p (0 : Fin 1)) * Cert.Spec.lin (fun k => v43 (ix2 p k)) (fun k c => v45 (ix2 k c)) (fun c => v48 (ix1 c)) (Cert.Spec.chunkPos 2 j))
          + v19 (ix2 p (0 : Fin 1)) * Cert.Spec.lin (fun k => v43 (ix2 p k)) (fun k c => v45 (ix2 k c)) (fun c => v48 (ix1 c)) (Cert.Spec.chunkPos 3 j))
          + v23 (ix2 p (0 : Fin 1)) * Cert.Spec.lin (fun k => v43 (ix2 p k)) (fun k c => v45 (ix2 k c)) (fun c => v48 (ix1 c)) (Cert.Spec.chunkPos 4 j))
        + max (v40 (ix2 p j)) Cert.Spec.z := by
  simp only [k0_pay9, shapeCast_self]
  rw [truncf_apply, addf_apply, addf_apply, addf_apply, addf_apply, addf_apply, addf_apply, maximumf_apply, broadcast_apply,
    maskedChunk_apply v7 _ 0 _ 0 rfl, maskedChunk_apply v11 _ 128 _ 1 rfl, maskedChunk_apply v15 _ 256 _ 2 rfl,
    maskedChunk_apply v19 _ 384 _ 3 rfl, maskedChunk_apply v23 _ 512 _ 4 rfl,
    image_apply, image_apply, image_apply, image_apply, image_apply]
  rfl

/-- The user-side stored block, entry by entry, is the message function of the loaded blocks' rows. -/
theorem stored_u_apply (x0 : FVec Ideal S1600x768 .f32) (x1 : FVec Ideal S1600x128 .bf16) (x3 : IVec S1600x1 32)
    (x4 : FVec Ideal S128x640 .bf16) (x5 : FVec Ideal S640 .f32) (x6 : FVec Ideal S768x640 .bf16) (x7 : FVec Ideal S640 .f32)
    (x8 : FVec Ideal S640x128 .bf16) (x9 : FVec Ideal S128 .f32) (p : Fin 1600) (j : Fin 128) :
    k0_pay9 (F := Ideal) (k0_pay3 x3) (k0_pay4 x3) (k0_pay5 x3) (k0_pay6 x3) (k0_pay7 x3) (k0_pay8 x0 x6 x7 x8 x9) x1 x4 x5 (ix2 p j)
      = Cert.Spec.msgMasked (fun l => x0 (ix2 p l)) (fun k => x1 (ix2 p k)) (x3 (ix2 p (0 : Fin 1)))
          (fun k c' => x4 (ix2 k c')) (fun c' => x5 (ix1 c')) (fun l k => x6 (ix2 l k)) (fun k => x7 (ix1 k))
          (fun k j => x8 (ix2 k j)) (fun j => x9 (ix1 j)) j := by
  rw [pay9_apply, pay8_apply, pay3_apply, pay4_apply, pay5_apply, pay6_apply, pay7_apply]
  rfl

/-- The same as an equation of blocks. -/
theorem stored_u_eq (x0 : FVec Ideal S1600x768 .f32) (x1 : FVec Ideal S1600x128 .bf16) (x3 : IVec S1600x1 32)
    (x4 : FVec Ideal S128x640 .bf16) (x5 : FVec Ideal S640 .f32) (x6 : FVec Ideal S768x640 .bf16) (x7 : FVec Ideal S640 .f32)
    (x8 : FVec Ideal S640x128 .bf16) (x9 : FVec Ideal S128 .f32) :
    k0_pay9 (F := Ideal) (k0_pay3 x3) (k0_pay4 x3) (k0_pay5 x3) (k0_pay6 x3) (k0_pay7 x3) (k0_pay8 x0 x6 x7 x8 x9) x1 x4 x5
      = fun y : S1600x128.Idx => Cert.Spec.msgMasked (fun l => x0 (ix2 (y 0) l)) (fun k => x1 (ix2 (y 0) k)) (x3 (ix2 (y 0) (0 : Fin 1)))
          (fun k c' => x4 (ix2 k c')) (fun c' => x5 (ix1 c')) (fun l k => x6 (ix2 l k)) (fun k => x7 (ix1 k))
          (fun k j => x8 (ix2 k j)) (fun j => x9 (ix1 j)) (y 1) := by
  funext y
  obtain ⟨p, j, rfl⟩ : ∃ (p : Fin 1600) (j : Fin 128), y = ix2 p j := ⟨y 0, y 1, eq_ix2 y⟩
  exact stored_u_apply x0 x1 x3 x4 x5 x6 x7 x8 x9 p j

/-! ## Where the blocks of a grid point lie

Point t reads and writes rows 1600·t … 1600·t + 1599 of the row-blocked arrays; the weights and biases have a
single block, the whole array, at every point. -/

theorem hz2 : (![0, 0] : Fin 2 → Nat) = fun _ => 0 := funext fun a => match a with | ⟨0, _⟩ => rfl | ⟨1, _⟩ => rfl
theorem hz1 : (![0] : Fin 1 → Nat) = fun _ => 0 := funext fun a => match a with | ⟨0, _⟩ => rfl

/-- The block indices of the row-blocked windows, decided over the grid. -/
theorem idx_rows : ∀ t : Fin cfg0.N,
    win0_16.index t (0 : Fin 2) = t.val ∧ win0_16.index t (1 : Fin 2) = 0
    ∧ win0_17.index t (0 : Fin 2) = t.val ∧ win0_17.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block indices of the resident windows: zero at every point. -/
theorem idx_res : ∀ t : Fin cfg0.N,
    win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0
    ∧ win0_10.index t (0 : Fin 2) = 0 ∧ win0_10.index t (1 : Fin 2) = 0 ∧ win0_11.index t (0 : Fin 1) = 0
    ∧ win0_12.index t (0 : Fin 2) = 0 ∧ win0_12.index t (1 : Fin 2) = 0 ∧ win0_13.index t (0 : Fin 1) = 0
    ∧ win0_14.index t (0 : Fin 2) = 0 ∧ win0_14.index t (1 : Fin 2) = 0 ∧ win0_15.index t (0 : Fin 1) = 0 :=
  (by decide +kernel : ∀ t : Fin grid0.N, _)

/-! ## The loaded blocks, read off the arrays -/

/-- Feature block of point t: row p is row 1600·t + p of the feature array. -/
theorem read_w0 (c : Dev nD) (t : Fin cfg0.N) (A : Vec Ideal S200000x768 .f32) (hA : V c (Pipeline.arrRef spec0 0) = A)
    (p : Fin 1600) (l : Fin 768) (r : Fin 200000) (hr : r.val = t.val * 1600 + p.val) :
    iblk0 V c 0 t (ix2 p l) = A (ix2 r l) := by
  obtain ⟨-, -, -, -, e0, e1, -⟩ := idx_rows t
  unfold iblk0
  rw [hA]
  show A (((cfg0.win 0).blk t).view.emb (ix2 p l)) = A (ix2 r l)
  refine congrArg A (funext fun a => Fin.ext ?_)
  match a with
  | ⟨0, _⟩ => show win0_0.index t (0 : Fin 2) * 1600 + 1 * p.val = r.val; omega
  | ⟨1, _⟩ => show win0_0.index t (1 : Fin 2) * 768 + 1 * l.val = l.val; omega

/-- User-side source-row block of point t. -/
theorem read_w1 (c : Dev nD) (t : Fin cfg0.N) (A : Vec Ideal S200000x128 .bf16) (hA : V c (Pipeline.arrRef spec0 1) = A)
    (p : Fin 1600) (l : Fin 128) (r : Fin 200000) (hr : r.val = t.val * 1600 + p.val) :
    iblk0 V c 1 t (ix2 p l) = A (ix2 r l) := by
  obtain ⟨-, -, -, -, -, -, e0, e1, -⟩ := idx_rows t
  unfold iblk0
  rw [hA]
  show A (((cfg0.win 1).blk t).view.emb (ix2 p l)) = A (ix2 r l)
  refine congrArg A (funext fun a => Fin.ext ?_)
  match a with
  | ⟨0, _⟩ => show win0_1.index t (0 : Fin 2) * 1600 + 1 * p.val = r.val; omega
  | ⟨1, _⟩ => show win0_1.index t (1 : Fin 2) * 128 + 1 * l.val = l.val; omega

/-- Item-side source-row block of point t. -/
theorem read_w2 (c : Dev nD) (t : Fin cfg0.N) (A : Vec Ideal S200000x128 .bf16) (hA : V c (Pipeline.arrRef spec0 2) = A)
    (p : Fin 1600) (l : Fin 128) (r : Fin 200000) (hr : r.val = t.val * 1600 + p.val) :
    iblk0 V c 2 t (ix2 p l) = A (ix2 r l) := by
  obtain ⟨-, -, -, -, -, -, -, -, e0, e1, -⟩ := idx_rows t
  unfold iblk0
  rw [hA]
  show A (((cfg0.win 2).blk t).view.emb (ix2 p l)) = A (ix2 r l)
  refine congrArg A (funext fun a => Fin.ext ?_)
  match a with
  | ⟨0, _⟩ => show win0_2.index t (0 : Fin 2) * 1600 + 1 * p.val = r.val; omega
  | ⟨1, _⟩ => show win0_2.index t (1 : Fin 2) * 128 + 1 * l.val = l.val; omega

/-- Type-word block of point t. -/
theorem read_w3 (c : Dev nD) (t : Fin cfg0.N) (A : Vec Ideal S200000x1 .i32) (hA : V c (Pipeline.arrRef spec0 3) = A)
    (p : Fin 1600) (l : Fin 1) (r : Fin 200000) (hr : r.val = t.val * 1600 + p.val) :
    iblk0 V c 3 t (ix2 p l) = A (ix2 r l) := by
  obtain ⟨-, -, -, -, -, -, -, -, -, -, e0, e1⟩ := idx_rows t
  unfold iblk0
  rw [hA]
  show A (((cfg0.win 3).blk t).view.emb (ix2 p l)) = A (ix2 r l)
  refine congrArg A (funext fun a => Fin.ext ?_)
  match a with
  | ⟨0, _⟩ => show win0_3.index t (0 : Fin 2) * 1600 + 1 * p.val = r.val; omega
  | ⟨1, _⟩ => show win0_3.index t (1 : Fin 2) * 1 + 1 * l.val = l.val; omega

/-- The user-side chunk matrix is resident: its one block is the whole array. -/
theorem read_w4 (c : Dev nD) (t : Fin cfg0.N) (A : Vec Ideal S128x640 .bf16) (hA : V c (Pipeline.arrRef spec0 4) = A)
    (k : Fin 128) (q : Fin 640) : iblk0 V c 4 t (ix2 k q) = A (ix2 k q) := by
  obtain ⟨e0, e1, -⟩ := idx_res t
  unfold iblk0
  rw [hA]
  show A (((cfg0.win 4).blk t).view.emb (ix2 k q)) = A (ix2 k q)
  refine congrArg A (funext fun a => Fin.ext ?_)
  match a with
  | ⟨0, _⟩ => show win0_4.index t (0 : Fin 2) * 128 + 1 * k.val = k.val; omega
  | ⟨1, _⟩ => show win0_4.index t (1 : Fin 2) * 640 + 1 * q.val = q.val; omega

/-- The user-side chunk bias, resident. -/
theorem read_w5 (c : Dev nD) (t : Fin cfg0.N) (A : Vec Ideal S640 .f32) (hA : V c (Pipeline.arrRef spec0 5) = A)
    (q : Fin 640) : iblk0 V c 5 t (ix1 q) = A (ix1 q) := by
  obtain ⟨-, -, e0, -⟩ := idx_res t
  unfold iblk0
  rw [hA]
  show A (((cfg0.win 5).blk t).view.emb (ix1 q)) = A (ix1 q)
  refine congrArg A (funext fun a => Fin.ext ?_)
  match a with
  | ⟨0, _⟩ => show win0_5.index t (0 : Fin 1) * 640 + 1 * q.val = q.val; omega

/-- The user-side first perceptron matrix, resident. -/
theorem read_w6 (c : Dev nD) (t : Fin cfg0.N) (A : Vec Ideal S768x640 .bf16) (hA : V c (Pipeline.arrRef spec0 6) = A)
    (k : Fin 768) (q : Fin 640) : iblk0 V c 6 t (ix2 k q) = A (ix2 k q) := by
  obtain ⟨-, -, -, e0, e1, -⟩ := idx_res t
  unfold iblk0
  rw [hA]
  show A (((cfg0.win 6).blk t).view.emb (ix2 k q)) = A (ix2 k q)
  refine congrArg A (funext fun a => Fin.ext ?_)
  match a with
  | ⟨0, _⟩ => show win0_6.index t (0 : Fin 2) * 768 + 1 * k.val = k.val; omega
  | ⟨1, _⟩ => show win0_6.index t (1 : Fin 2) * 640 + 1 * q.val = q.val; omega

/-- The user-side first perceptron bias, resident. -/
theorem read_w7 (c : Dev nD) (t : Fin cfg0.N) (A : Vec Ideal S640 .f32) (hA : V c (Pipeline.arrRef spec0 7) = A)
    (q : Fin 640) : iblk0 V c 7 t (ix1 q) = A (ix1 q) := by
  obtain ⟨-, -, -, -, -, e0, -⟩ := idx_res t
  unfold iblk0
  rw [hA]
  show A (((cfg0.win 7).blk t).view.emb (ix1 q)) = A (ix1 q)
  refine congrArg A (funext fun a => Fin.ext ?_)
  match a with
  | ⟨0, _⟩ => show win0_7.index t (0 : Fin 1) * 640 + 1 * q.val = q.val; omega

/-- The user-side second perceptron matrix, resident. -/
theorem read_w8 (c : Dev nD) (t : Fin cfg0.N) (A : Vec Ideal S640x128 .bf16) (hA : V c (Pipeline.arrRef spec0 8) = A)
    (k : Fin 640) (q : Fin 128) : iblk0 V c 8 t (ix2 k q) = A (ix2 k q) := by
  obtain ⟨-, -, -, -, -, -, e0, e1, -⟩ := idx_res t
  unfold iblk0
  rw [hA]
  show A (((cfg0.win 8).blk t).view.emb (ix2 k q)) = A (ix2 k q)
  refine congrArg A (funext fun a => Fin.ext ?_)
  match a with
  | ⟨0, _⟩ => show win0_8.index t (0 : Fin 2) * 640 + 1 * k.val = k.val; omega
  | ⟨1, _⟩ => show win0_8.index t (1 : Fin 2) * 128 + 1 * q.val = q.val; omega

/-- The user-side second perceptron bias, resident. -/
theorem read_w9 (c : Dev nD) (t : Fin cfg0.N) (A : Vec Ideal S128 .f32) (hA : V c (Pipeline.arrRef spec0 9) = A)
    (q : Fin 128) : iblk0 V c 9 t (ix1 q) = A (ix1 q) := by
  obtain ⟨-, -, -, -, -, -, -, -, e0, -⟩ := idx_res t
  unfold iblk0
  rw [hA]
  show A (((cfg0.win 9).blk t).view.emb (ix1 q)) = A (ix1 q)
  refine congrArg A (funext fun a => Fin.ext ?_)
  match a with
  | ⟨0, _⟩ => show win0_9.index t (0 : Fin 1) * 128 + 1 * q.val = q.val; omega

/-- The item-side chunk matrix, resident. -/
theorem read_w10 (c : Dev nD) (t : Fin cfg0.N) (A : Vec Ideal S128x640 .bf16) (hA : V c (Pipeline.arrRef spec0 10) = A)
    (k : Fin 128) (q : Fin 640) : iblk0 V c 10 t (ix2 k q) = A (ix2 k q) := by
  obtain ⟨-, -, -, -, -, -, -, -, -, e0, e1, -⟩ := idx_res t
  unfold iblk0
  rw [hA]
  show A (((cfg0.win 10).blk t).view.emb (ix2 k q)) = A (ix2 k q)
  refine congrArg A (funext fun a => Fin.ext ?_)
  match a with
  | ⟨0, _⟩ => show win0_10.index t (0 : Fin 2) * 128 + 1 * k.val = k.val; omega
  | ⟨1, _⟩ => show win0_10.index t (1 : Fin 2) * 640 + 1 * q.val = q.val; omega

/-- The item-side chunk bias, resident. -/
theorem read_w11 (c : Dev nD) (t : Fin cfg0.N) (A : Vec Ideal S640 .f32) (hA : V c (Pipeline.arrRef spec0 11) = A)
    (q : Fin 640) : iblk0 V c 11 t (ix1 q) = A (ix1 q) := by
  obtain ⟨-, -, -, -, -, -, -, -, -, -, -, e0, -⟩ := idx_res t
  unfold iblk0
  rw [hA]
  show A (((cfg0.win 11).blk t).view.emb (ix1 q)) = A (ix1 q)
  refine congrArg A (funext fun a => Fin.ext ?_)
  match a with
  | ⟨0, _⟩ => show win0_11.index t (0 : Fin 1) * 640 + 1 * q.val = q.val; omega

/-- The item-side first perceptron matrix, resident. -/
theorem read_w12 (c : Dev nD) (t : Fin cfg0.N) (A : Vec Ideal S768x640 .bf16) (hA : V c (Pipeline.arrRef spec0 12) = A)
    (k : Fin 768) (q : Fin 640) : iblk0 V c 12 t (ix2 k q) = A (ix2 k q) := by
  obtain ⟨-, -, -, -, -, -, -, -, -, -, -, -, e0, e1, -⟩ := idx_res t
  unfold iblk0
  rw [hA]
  show A (((cfg0.win 12).blk t).view.emb (ix2 k q)) = A (ix2 k q)
  refine congrArg A (funext fun a => Fin.ext ?_)
  match a with
  | ⟨0, _⟩ => show win0_12.index t (0 : Fin 2) * 768 + 1 * k.val = k.val; omega
  | ⟨1, _⟩ => show win0_12.index t (1 : Fin 2) * 640 + 1 * q.val = q.val; omega

/-- The item-side first perceptron bias, resident. -/
theorem read_w13 (c : Dev nD) (t : Fin cfg0.N) (A : Vec Ideal S640 .f32) (hA : V c (Pipeline.arrRef spec0 13) = A)
    (q : Fin 640) : iblk0 V c 13 t (ix1 q) = A (ix1 q) := by
  obtain ⟨-, -, -, -, -, -, -, -, -, -, -, -, -, -, e0, -⟩ := idx_res t
  unfold iblk0
  rw [hA]
  show A (((cfg0.win 13).blk t).view.emb (ix1 q)) = A (ix1 q)
  refine congrArg A (funext fun a => Fin.ext ?_)
  match a with
  | ⟨0, _⟩ => show win0_13.index t (0 : Fin 1) * 640 + 1 * q.val = q.val; omega

/-- The item-side second perceptron matrix, resident. -/
theorem read_w14 (c : Dev nD) (t : Fin cfg0.N) (A : Vec Ideal S640x128 .bf16) (hA : V c (Pipeline.arrRef spec0 14) = A)
    (k : Fin 640) (q : Fin 128) : iblk0 V c 14 t (ix2 k q) = A (ix2 k q) := by
  obtain ⟨-, -, -, -, -, -, -, -, -, -, -, -, -, -, -, e0, e1, -⟩ := idx_res t
  unfold iblk0
  rw [hA]
  show A (((cfg0.win 14).blk t).view.emb (ix2 k q)) = A (ix2 k q)
  refine congrArg A (funext fun a => Fin.ext ?_)
  match a with
  | ⟨0, _⟩ => show win0_14.index t (0 : Fin 2) * 640 + 1 * k.val = k.val; omega
  | ⟨1, _⟩ => show win0_14.index t (1 : Fin 2) * 128 + 1 * q.val = q.val; omega

/-- The item-side second perceptron bias, resident. -/
theorem read_w15 (c : Dev nD) (t : Fin cfg0.N) (A : Vec Ideal S128 .f32) (hA : V c (Pipeline.arrRef spec0 15) = A)
    (q : Fin 128) : iblk0 V c 15 t (ix1 q) = A (ix1 q) := by
  obtain ⟨-, -, -, -, -, -, -, -, -, -, -, -, -, -, -, -, -, e0⟩ := idx_res t
  unfold iblk0
  rw [hA]
  show A (((cfg0.win 15).blk t).view.emb (ix1 q)) = A (ix1 q)
  refine congrArg A (funext fun a => Fin.ext ?_)
  match a with
  | ⟨0, _⟩ => show win0_15.index t (0 : Fin 1) * 128 + 1 * q.val = q.val; omega

/-! ## The user-side array -/

/-- Row p of point t's blocks gives the message of row 1600·t + p of the arrays. -/
theorem row_u (c : Dev nD)
    (ea : Vec Ideal S200000x768 .f32) (xg : Vec Ideal S200000x128 .bf16) (et : Vec Ideal S200000x1 .i32)
    (wj : Vec Ideal S128x640 .bf16) (bj : Vec Ideal S640 .f32) (we1 : Vec Ideal S768x640 .bf16) (be1 : Vec Ideal S640 .f32)
    (we2 : Vec Ideal S640x128 .bf16) (be2 : Vec Ideal S128 .f32)
    (h0 : V c (Pipeline.arrRef spec0 0) = ea) (h1 : V c (Pipeline.arrRef spec0 1) = xg) (h3 : V c (Pipeline.arrRef spec0 3) = et)
    (h4 : V c (Pipeline.arrRef spec0 4) = wj) (h5 : V c (Pipeline.arrRef spec0 5) = bj) (h6 : V c (Pipeline.arrRef spec0 6) = we1)
    (h7 : V c (Pipeline.arrRef spec0 7) = be1) (h8 : V c (Pipeline.arrRef spec0 8) = we2) (h9 : V c (Pipeline.arrRef spec0 9) = be2)
    (t : Fin cfg0.N) (p : Fin 1600) (j : Fin 128) (r : Fin 200000) (j' : Fin 128)
    (hr : r.val = win0_16.index t (0 : Fin 2) * 1600 + 1 * p.val) (hj : j'.val = win0_16.index t (1 : Fin 2) * 128 + 1 * j.val) :
    Cert.Spec.msgMasked (fun l => iblk0 V c 0 t (ix2 p l)) (fun k => iblk0 V c 1 t (ix2 p k)) (iblk0 V c 3 t (ix2 p (0 : Fin 1)))
        (fun k c' => iblk0 V c 4 t (ix2 k c')) (fun c' => iblk0 V c 5 t (ix1 c')) (fun l k => iblk0 V c 6 t (ix2 l k))
        (fun k => iblk0 V c 7 t (ix1 k)) (fun k j => iblk0 V c 8 t (ix2 k j)) (fun j => iblk0 V c 9 t (ix1 j)) j
      = Cert.Spec.msgMasked (fun l => ea (ix2 r l)) (fun k => xg (ix2 r k)) (et (ix2 r (0 : Fin 1)))
        (fun k c' => wj (ix2 k c')) (fun c' => bj (ix1 c')) (fun l k => we1 (ix2 l k)) (fun k => be1 (ix1 k))
        (fun k j => we2 (ix2 k j)) (fun j => be2 (ix1 j)) j' := by
  obtain ⟨e0, e1, -⟩ := idx_rows t
  have hr' : r.val = t.val * 1600 + p.val := by omega
  have hjj : j' = j := Fin.ext (by omega)
  subst hjj
  have a0 : (fun l => iblk0 V c 0 t (ix2 p l)) = fun l => ea (ix2 r l) := funext fun l => read_w0 V c t ea h0 p l r hr'
  have a1 : (fun k => iblk0 V c 1 t (ix2 p k)) = fun k => xg (ix2 r k) := funext fun k => read_w1 V c t xg h1 p k r hr'
  have a3 : iblk0 V c 3 t (ix2 p (0 : Fin 1)) = et (ix2 r (0 : Fin 1)) := read_w3 V c t et h3 p 0 r hr'
  have a4 : (fun k c' => iblk0 V c 4 t (ix2 k c')) = fun k c' => wj (ix2 k c') := funext fun k => funext fun c' => read_w4 V c t wj h4 k c'
  have a5 : (fun c' => iblk0 V c 5 t (ix1 c')) = fun c' => bj (ix1 c') := funext fun c' => read_w5 V c t bj h5 c'
  have a6 : (fun l k => iblk0 V c 6 t (ix2 l k)) = fun l k => we1 (ix2 l k) := funext fun l => funext fun k => read_w6 V c t we1 h6 l k
  have a7 : (fun k => iblk0 V c 7 t (ix1 k)) = fun k => be1 (ix1 k) := funext fun k => read_w7 V c t be1 h7 k
  have a8 : (fun k j => iblk0 V c 8 t (ix2 k j)) = fun k j => we2 (ix2 k j) := funext fun k => funext fun j => read_w8 V c t we2 h8 k j
  have a9 : (fun j => iblk0 V c 9 t (ix1 j)) = fun j => be2 (ix1 j) := funext fun j => read_w9 V c t be2 h9 j
  rw [a0, a1, a3, a4, a5, a6, a7, a8, a9]

/-- What point t writes back to the user-side array is its block of the array of messages. -/
theorem flushed_u (c : Dev nD)
    (ea : Vec Ideal S200000x768 .f32) (xg : Vec Ideal S200000x128 .bf16) (et : Vec Ideal S200000x1 .i32)
    (wj : Vec Ideal S128x640 .bf16) (bj : Vec Ideal S640 .f32) (we1 : Vec Ideal S768x640 .bf16) (be1 : Vec Ideal S640 .f32)
    (we2 : Vec Ideal S640x128 .bf16) (be2 : Vec Ideal S128 .f32)
    (h0 : V c (Pipeline.arrRef spec0 0) = ea) (h1 : V c (Pipeline.arrRef spec0 1) = xg) (h3 : V c (Pipeline.arrRef spec0 3) = et)
    (h4 : V c (Pipeline.arrRef spec0 4) = wj) (h5 : V c (Pipeline.arrRef spec0 5) = bj) (h6 : V c (Pipeline.arrRef spec0 6) = we1)
    (h7 : V c (Pipeline.arrRef spec0 7) = be1) (h8 : V c (Pipeline.arrRef spec0 8) = we2) (h9 : V c (Pipeline.arrRef spec0 9) = be2)
    (t : Fin cfg0.N) :
    (dat0 (F := Ideal) V c).flushed 16 t = ((cfg0.win 16).blk t).view.read (Elt Ideal) (fun i : S200000x128.Idx =>
      Cert.Spec.msgMasked (fun l => ea (ix2 (i 0) l)) (fun k => xg (ix2 (i 0) k)) (et (ix2 (i 0) (0 : Fin 1)))
        (fun k c' => wj (ix2 k c')) (fun c' => bj (ix1 c')) (fun l k => we1 (ix2 l k)) (fun k => be1 (ix1 k))
        (fun k j => we2 (ix2 k j)) (fun j => be2 (ix1 j)) (i 1)) := by
  show (cfg0.win 16).cut (grid0.coords t) ((dat0 V c).after 16 t) = _
  rw [after0_16]
  unfold out0_16
  rw [View.canon_unit_zero hz2]
  simp only [View.ld_unit_zero (S := S1600x768) hz2, View.ld_unit_zero (S := S1600x1) hz2, View.ld_unit_zero (S := S768x640) hz2,
    View.ld_unit_zero (S := S640) hz1, View.ld_unit_zero (S := S640x128) hz2, View.ld_unit_zero (S := S128) hz1,
    View.ld_unit_zero (S := S1600x128) hz2, View.ld_unit_zero (S := S128x640) hz2]
  rw [stored_u_eq (iblk0 V c 0 t) (iblk0 V c 1 t) (iblk0 V c 3 t) (iblk0 V c 4 t) (iblk0 V c 5 t) (iblk0 V c 6 t) (iblk0 V c 7 t)
    (iblk0 V c 8 t) (iblk0 V c 9 t)]
  funext y
  exact row_u V c ea xg et wj bj we1 be1 we2 be2 h0 h1 h3 h4 h5 h6 h7 h8 h9 t _ _ _ _ rfl rfl

/-- An index of the user-side array is in point t's block iff each coordinate is in the block's range on its axis. -/
theorem mem_blk_u (t : Fin cfg0.N) (i : S200000x128.Idx) :
    i ∈ ((cfg0.win 16).blk t).view.set ↔ ∀ a : Fin 2, win0_16.index t a * S1600x128.size a ≤ (i a).val ∧ (i a).val < win0_16.index t a * S1600x128.size a + S1600x128.size a := by
  show i ∈ ((View.whole main_v30_0).slice (win0_16.rect t)).set ↔ _
  rw [View.set_slice_whole, Rect.mem_set_unit]
  exact Iff.rfl

/-- Every row lies in the block of the point numbered by its quotient by 1600 (125 · 1600 = 200000). -/
theorem cover_u (i : S200000x128.Idx) : ∃ t : Fin cfg0.N, (cfg0.win 16).flush t = true ∧ i ∈ ((cfg0.win 16).blk t).view.set := by
  have hi0 : (i 0).val < 200000 := (i 0).isLt
  have hi1 : (i 1).val < 128 := (i 1).isLt
  obtain ⟨t, ht⟩ : ∃ t : Fin cfg0.N, t.val = (i 0).val / 1600 := ⟨⟨(i 0).val / 1600, by show _ < 125; omega⟩, rfl⟩
  obtain ⟨e0, e1, -⟩ := idx_rows t
  refine ⟨t, flush0_16 t, ?_⟩
  rw [mem_blk_u]
  intro a
  match a with
  | ⟨0, _⟩ => show win0_16.index t (0 : Fin 2) * 1600 ≤ (i 0).val ∧ (i 0).val < win0_16.index t (0 : Fin 2) * 1600 + 1600; omega
  | ⟨1, _⟩ => show win0_16.index t (1 : Fin 2) * 128 ≤ (i 1).val ∧ (i 1).val < win0_16.index t (1 : Fin 2) * 128 + 128; omega

/-! ## The item side: the same launch over the item-side operands -/

/-- The item side's rectified first perceptron layer, at (p, k). -/
theorem pay10_apply {φ : FTy} (v1 : FVec Ideal S1600x768 φ) (v76 : FVec Ideal S768x640 .bf16) (v79 : FVec Ideal S640 .f32)
    (p : Fin 1600) (k : Fin 640) :
    k0_pay10 (F := Ideal) v1 v76 v79 (ix2 p k)
      = max (Cert.Spec.lin (fun l => v1 (ix2 p l)) (fun l k => v76 (ix2 l k)) (fun k => v79 (ix1 k)) k) Cert.Spec.z := by
  simp only [k0_pay10, shapeCast_self]
  exact hidden_apply v1 v76 v79 p k

/-- The item-side stored block: the five masked chunks added from zero in order, plus the second perceptron
    layer of the rectified first layer, rectified, at (p, j). -/
theorem pay11_apply (v7 v11 v15 v19 v23 : FVec Ideal S1600x1 .f32) (v84 : FVec Ideal S1600x640 .f32)
    (v86 : FVec Ideal S640x128 .bf16) (v89 : FVec Ideal S128 .f32)
    (v95 : FVec Ideal S1600x128 .bf16) (v97 : FVec Ideal S128x640 .bf16) (v100 : FVec Ideal S640 .f32) (p : Fin 1600) (j : Fin 128) :
    k0_pay11 (F := Ideal) v7 v11 v15 v19 v23 v84 v86 v89 v95 v97 v100 (ix2 p j)
      = (((((Cert.Spec.z
          + v7 (ix2 p (0 : Fin 1)) * Cert.Spec.lin (fun k => v95 (ix2 p k)) (fun k c => v97 (ix2 k c)) (fun c => v100 (ix1 c)) (Cert.Spec.chunkPos 0 j))
          + v11 (ix2 p (0 : Fin 1)) * Cert.Spec.lin (fun k => v95 (ix2 p k)) (fun k c => v97 (ix2 k c)) (fun c => v100 (ix1 c)) (Cert.Spec.chunkPos 1 j))
          + v15 (ix2 p (0 : Fin 1)) * Cert.Spec.lin (fun k => v95 (ix2 p k)) (fun k c => v97 (ix2 k c)) (fun c => v100 (ix1 c)) (Cert.Spec.chunkPos 2 j))
          + v19 (ix2 p (0 : Fin 1)) * Cert.Spec.lin (fun k => v95 (ix2 p k)) (fun k c => v97 (ix2 k c)) (fun c => v100 (ix1 c)) (Cert.Spec.chunkPos 3 j))
          + v23 (ix2 p (0 : Fin 1)) * Cert.Spec.lin (fun k => v95 (ix2 p k)) (fun k c => v97 (ix2 k c)) (fun c => v100 (ix1 c)) (Cert.Spec.chunkPos 4 j))
        + max (Cert.Spec.lin (fun k => v84 (ix2 p k)) (fun k j => v86 (ix2 k j)) (fun j => v89 (ix1 j)) j) Cert.Spec.z := by
  simp only [k0_pay11, shapeCast_self]
  rw [truncf_apply, addf_apply, maximumf_apply, second_apply, broadcast_apply,
    addf_apply, addf_apply, addf_apply, addf_apply, addf_apply,
    maskedChunk_apply v7 _ 0 _ 0 rfl, maskedChunk_apply v11 _ 128 _ 1 rfl, maskedChunk_apply v15 _ 256 _ 2 rfl,
    maskedChunk_apply v19 _ 384 _ 3 rfl, maskedChunk_apply v23 _ 512 _ 4 rfl,
    image_apply, image_apply, image_apply, image_apply, image_apply]
  rfl

/-- The item-side stored block, entry by entry, is the message function of the loaded blocks' rows. -/
theorem stored_i_apply (x0 : FVec Ideal S1600x768 .f32) (x2 : FVec Ideal S1600x128 .bf16) (x3 : IVec S1600x1 32)
    (x10 : FVec Ideal S128x640 .bf16) (x11 : FVec Ideal S640 .f32) (x12 : FVec Ideal S768x640 .bf16) (x13 : FVec Ideal S640 .f32)
    (x14 : FVec Ideal S640x128 .bf16) (x15 : FVec Ideal S128 .f32) (p : Fin 1600) (j : Fin 128) :
    k0_pay11 (F := Ideal) (k0_pay3 x3) (k0_pay4 x3) (k0_pay5 x3) (k0_pay6 x3) (k0_pay7 x3) (k0_pay10 (k0_pay1 x0) x12 x13) x14 x15 x2 x10 x11 (ix2 p j)
      = Cert.Spec.msgMasked (fun l => x0 (ix2 p l)) (fun k => x2 (ix2 p k)) (x3 (ix2 p (0 : Fin 1)))
          (fun k c' => x10 (ix2 k c')) (fun c' => x11 (ix1 c')) (fun l k => x12 (ix2 l k)) (fun k => x13 (ix1 k))
          (fun k j => x14 (ix2 k j)) (fun j => x15 (ix1 j)) j := by
  have e : (fun k : Fin 640 => k0_pay10 (F := Ideal) (k0_pay1 x0) x12 x13 (ix2 p k))
      = fun k => max (Cert.Spec.lin (fun l => x0 (ix2 p l)) (fun l k => x12 (ix2 l k)) (fun k => x13 (ix1 k)) k) Cert.Spec.z :=
    funext fun k => pay10_apply (k0_pay1 x0) x12 x13 p k
  rw [pay11_apply, e, pay3_apply, pay4_apply, pay5_apply, pay6_apply, pay7_apply]
  rfl

/-- The same as an equation of blocks. -/
theorem stored_i_eq (x0 : FVec Ideal S1600x768 .f32) (x2 : FVec Ideal S1600x128 .bf16) (x3 : IVec S1600x1 32)
    (x10 : FVec Ideal S128x640 .bf16) (x11 : FVec Ideal S640 .f32) (x12 : FVec Ideal S768x640 .bf16) (x13 : FVec Ideal S640 .f32)
    (x14 : FVec Ideal S640x128 .bf16) (x15 : FVec Ideal S128 .f32) :
    k0_pay11 (F := Ideal) (k0_pay3 x3) (k0_pay4 x3) (k0_pay5 x3) (k0_pay6 x3) (k0_pay7 x3) (k0_pay10 (k0_pay1 x0) x12 x13) x14 x15 x2 x10 x11
      = fun y : S1600x128.Idx => Cert.Spec.msgMasked (fun l => x0 (ix2 (y 0) l)) (fun k => x2 (ix2 (y 0) k)) (x3 (ix2 (y 0) (0 : Fin 1)))
          (fun k c' => x10 (ix2 k c')) (fun c' => x11 (ix1 c')) (fun l k => x12 (ix2 l k)) (fun k => x13 (ix1 k))
          (fun k j => x14 (ix2 k j)) (fun j => x15 (ix1 j)) (y 1) := by
  funext y
  obtain ⟨p, j, rfl⟩ : ∃ (p : Fin 1600) (j : Fin 128), y = ix2 p j := ⟨y 0, y 1, eq_ix2 y⟩
  exact stored_i_apply x0 x2 x3 x10 x11 x12 x13 x14 x15 p j

/-! ## The item-side array -/

/-- Row p of point t's blocks gives the message of row 1600·t + p of the arrays. -/
theorem row_i (c : Dev nD)
    (ea : Vec Ideal S200000x768 .f32) (xg : Vec Ideal S200000x128 .bf16) (et : Vec Ideal S200000x1 .i32)
    (wj : Vec Ideal S128x640 .bf16) (bj : Vec Ideal S640 .f32) (we1 : Vec Ideal S768x640 .bf16) (be1 : Vec Ideal S640 .f32)
    (we2 : Vec Ideal S640x128 .bf16) (be2 : Vec Ideal S128 .f32)
    (h0 : V c (Pipeline.arrRef spec0 0) = ea) (h2 : V c (Pipeline.arrRef spec0 2) = xg) (h3 : V c (Pipeline.arrRef spec0 3) = et)
    (h10 : V c (Pipeline.arrRef spec0 10) = wj) (h11 : V c (Pipeline.arrRef spec0 11) = bj) (h12 : V c (Pipeline.arrRef spec0 12) = we1)
    (h13 : V c (Pipeline.arrRef spec0 13) = be1) (h14 : V c (Pipeline.arrRef spec0 14) = we2) (h15 : V c (Pipeline.arrRef spec0 15) = be2)
    (t : Fin cfg0.N) (p : Fin 1600) (j : Fin 128) (r : Fin 200000) (j' : Fin 128)
    (hr : r.val = win0_17.index t (0 : Fin 2) * 1600 + 1 * p.val) (hj : j'.val = win0_17.index t (1 : Fin 2) * 128 + 1 * j.val) :
    Cert.Spec.msgMasked (fun l => iblk0 V c 0 t (ix2 p l)) (fun k => iblk0 V c 2 t (ix2 p k)) (iblk0 V c 3 t (ix2 p (0 : Fin 1)))
        (fun k c' => iblk0 V c 10 t (ix2 k c')) (fun c' => iblk0 V c 11 t (ix1 c')) (fun l k => iblk0 V c 12 t (ix2 l k))
        (fun k => iblk0 V c 13 t (ix1 k)) (fun k j => iblk0 V c 14 t (ix2 k j)) (fun j => iblk0 V c 15 t (ix1 j)) j
      = Cert.Spec.msgMasked (fun l => ea (ix2 r l)) (fun k => xg (ix2 r k)) (et (ix2 r (0 : Fin 1)))
        (fun k c' => wj (ix2 k c')) (fun c' => bj (ix1 c')) (fun l k => we1 (ix2 l k)) (fun k => be1 (ix1 k))
        (fun k j => we2 (ix2 k j)) (fun j => be2 (ix1 j)) j' := by
  obtain ⟨-, -, e0, e1, -⟩ := idx_rows t
  have hr' : r.val = t.val * 1600 + p.val := by omega
  have hjj : j' = j := Fin.ext (by omega)
  subst hjj
  have a0 : (fun l => iblk0 V c 0 t (ix2 p l)) = fun l => ea (ix2 r l) := funext fun l => read_w0 V c t ea h0 p l r hr'
  have a2 : (fun k => iblk0 V c 2 t (ix2 p k)) = fun k => xg (ix2 r k) := funext fun k => read_w2 V c t xg h2 p k r hr'
  have a3 : iblk0 V c 3 t (ix2 p (0 : Fin 1)) = et (ix2 r (0 : Fin 1)) := read_w3 V c t et h3 p 0 r hr'
  have a10 : (fun k c' => iblk0 V c 10 t (ix2 k c')) = fun k c' => wj (ix2 k c') := funext fun k => funext fun c' => read_w10 V c t wj h10 k c'
  have a11 : (fun c' => iblk0 V c 11 t (ix1 c')) = fun c' => bj (ix1 c') := funext fun c' => read_w11 V c t bj h11 c'
  have a12 : (fun l k => iblk0 V c 12 t (ix2 l k)) = fun l k => we1 (ix2 l k) := funext fun l => funext fun k => read_w12 V c t we1 h12 l k
  have a13 : (fun k => iblk0 V c 13 t (ix1 k)) = fun k => be1 (ix1 k) := funext fun k => read_w13 V c t be1 h13 k
  have a14 : (fun k j => iblk0 V c 14 t (ix2 k j)) = fun k j => we2 (ix2 k j) := funext fun k => funext fun j => read_w14 V c t we2 h14 k j
  have a15 : (fun j => iblk0 V c 15 t (ix1 j)) = fun j => be2 (ix1 j) := funext fun j => read_w15 V c t be2 h15 j
  rw [a0, a2, a3, a10, a11, a12, a13, a14, a15]

/-- What point t writes back to the item-side array is its block of the array of messages. -/
theorem flushed_i (c : Dev nD)
    (ea : Vec Ideal S200000x768 .f32) (xg : Vec Ideal S200000x128 .bf16) (et : Vec Ideal S200000x1 .i32)
    (wj : Vec Ideal S128x640 .bf16) (bj : Vec Ideal S640 .f32) (we1 : Vec Ideal S768x640 .bf16) (be1 : Vec Ideal S640 .f32)
    (we2 : Vec Ideal S640x128 .bf16) (be2 : Vec Ideal S128 .f32)
    (h0 : V c (Pipeline.arrRef spec0 0) = ea) (h2 : V c (Pipeline.arrRef spec0 2) = xg) (h3 : V c (Pipeline.arrRef spec0 3) = et)
    (h10 : V c (Pipeline.arrRef spec0 10) = wj) (h11 : V c (Pipeline.arrRef spec0 11) = bj) (h12 : V c (Pipeline.arrRef spec0 12) = we1)
    (h13 : V c (Pipeline.arrRef spec0 13) = be1) (h14 : V c (Pipeline.arrRef spec0 14) = we2) (h15 : V c (Pipeline.arrRef spec0 15) = be2)
    (t : Fin cfg0.N) :
    (dat0 (F := Ideal) V c).flushed 17 t = ((cfg0.win 17).blk t).view.read (Elt Ideal) (fun i : S200000x128.Idx =>
      Cert.Spec.msgMasked (fun l => ea (ix2 (i 0) l)) (fun k => xg (ix2 (i 0) k)) (et (ix2 (i 0) (0 : Fin 1)))
        (fun k c' => wj (ix2 k c')) (fun c' => bj (ix1 c')) (fun l k => we1 (ix2 l k)) (fun k => be1 (ix1 k))
        (fun k j => we2 (ix2 k j)) (fun j => be2 (ix1 j)) (i 1)) := by
  show (cfg0.win 17).cut (grid0.coords t) ((dat0 V c).after 17 t) = _
  rw [after0_17]
  unfold out0_17
  rw [View.canon_unit_zero hz2]
  simp only [View.ld_unit_zero (S := S1600x768) hz2, View.ld_unit_zero (S := S1600x1) hz2, View.ld_unit_zero (S := S768x640) hz2,
    View.ld_unit_zero (S := S640) hz1, View.ld_unit_zero (S := S640x128) hz2, View.ld_unit_zero (S := S128) hz1,
    View.ld_unit_zero (S := S1600x128) hz2, View.ld_unit_zero (S := S128x640) hz2]
  rw [stored_i_eq (iblk0 V c 0 t) (iblk0 V c 2 t) (iblk0 V c 3 t) (iblk0 V c 10 t) (iblk0 V c 11 t) (iblk0 V c 12 t) (iblk0 V c 13 t)
    (iblk0 V c 14 t) (iblk0 V c 15 t)]
  funext y
  exact row_i V c ea xg et wj bj we1 be1 we2 be2 h0 h2 h3 h10 h11 h12 h13 h14 h15 t _ _ _ _ rfl rfl

/-- An index of the item-side array is in point t's block iff each coordinate is in the block's range on its axis. -/
theorem mem_blk_i (t : Fin cfg0.N) (i : S200000x128.Idx) :
    i ∈ ((cfg0.win 17).blk t).view.set ↔ ∀ a : Fin 2, win0_17.index t a * S1600x128.size a ≤ (i a).val ∧ (i a).val < win0_17.index t a * S1600x128.size a + S1600x128.size a := by
  show i ∈ ((View.whole main_v30_1).slice (win0_17.rect t)).set ↔ _
  rw [View.set_slice_whole, Rect.mem_set_unit]
  exact Iff.rfl

/-- Every row lies in the block of the point numbered by its quotient by 1600 (125 · 1600 = 200000). -/
theorem cover_i (i : S200000x128.Idx) : ∃ t : Fin cfg0.N, (cfg0.win 17).flush t = true ∧ i ∈ ((cfg0.win 17).blk t).view.set := by
  have hi0 : (i 0).val < 200000 := (i 0).isLt
  have hi1 : (i 1).val < 128 := (i 1).isLt
  obtain ⟨t, ht⟩ : ∃ t : Fin cfg0.N, t.val = (i 0).val / 1600 := ⟨⟨(i 0).val / 1600, by show _ < 125; omega⟩, rfl⟩
  obtain ⟨-, -, e0, e1, -⟩ := idx_rows t
  refine ⟨t, flush0_17 t, ?_⟩
  rw [mem_blk_i]
  intro a
  match a with
  | ⟨0, _⟩ => show win0_17.index t (0 : Fin 2) * 1600 ≤ (i 0).val ∧ (i 0).val < win0_17.index t (0 : Fin 2) * 1600 + 1600; omega
  | ⟨1, _⟩ => show win0_17.index t (1 : Fin 2) * 128 ≤ (i 1).val ∧ (i 1).val < win0_17.index t (1 : Fin 2) * 128 + 128; omega

/-- The user-side message array: row e is the masked-chunk message of edge e. -/
theorem final_u (c : Dev nD)
    (ea : Vec Ideal S200000x768 .f32) (xg : Vec Ideal S200000x128 .bf16) (et : Vec Ideal S200000x1 .i32)
    (wj : Vec Ideal S128x640 .bf16) (bj : Vec Ideal S640 .f32) (we1 : Vec Ideal S768x640 .bf16) (be1 : Vec Ideal S640 .f32)
    (we2 : Vec Ideal S640x128 .bf16) (be2 : Vec Ideal S128 .f32)
    (h0 : V c (Pipeline.arrRef spec0 0) = ea) (h1 : V c (Pipeline.arrRef spec0 1) = xg) (h3 : V c (Pipeline.arrRef spec0 3) = et)
    (h4 : V c (Pipeline.arrRef spec0 4) = wj) (h5 : V c (Pipeline.arrRef spec0 5) = bj) (h6 : V c (Pipeline.arrRef spec0 6) = we1)
    (h7 : V c (Pipeline.arrRef spec0 7) = be1) (h8 : V c (Pipeline.arrRef spec0 8) = we2) (h9 : V c (Pipeline.arrRef spec0 9) = be2) :
    (dat0 (F := Ideal) V c).arrAt 16 cfg0.N = fun i =>
      Cert.Spec.msgMasked (fun l => ea (ix2 (i 0) l)) (fun k => xg (ix2 (i 0) k)) (et (ix2 (i 0) 0))
        (fun k c' => wj (ix2 k c')) (fun c' => bj (ix1 c')) (fun l k => we1 (ix2 l k)) (fun k => be1 (ix1 k))
        (fun k j => we2 (ix2 k j)) (fun j => be2 (ix1 j)) (i 1) :=
  (dat0 (F := Ideal) V c).arrAt_eq_of_cover 16 _
    (fun t _ => flushed_u V c ea xg et wj bj we1 be1 we2 be2 h0 h1 h3 h4 h5 h6 h7 h8 h9 t) cover_u

/-- The item-side message array: the same function of the item-side operands. -/
theorem final_i (c : Dev nD)
    (ea : Vec Ideal S200000x768 .f32) (xg : Vec Ideal S200000x128 .bf16) (et : Vec Ideal S200000x1 .i32)
    (wj : Vec Ideal S128x640 .bf16) (bj : Vec Ideal S640 .f32) (we1 : Vec Ideal S768x640 .bf16) (be1 : Vec Ideal S640 .f32)
    (we2 : Vec Ideal S640x128 .bf16) (be2 : Vec Ideal S128 .f32)
    (h0 : V c (Pipeline.arrRef spec0 0) = ea) (h2 : V c (Pipeline.arrRef spec0 2) = xg) (h3 : V c (Pipeline.arrRef spec0 3) = et)
    (h10 : V c (Pipeline.arrRef spec0 10) = wj) (h11 : V c (Pipeline.arrRef spec0 11) = bj) (h12 : V c (Pipeline.arrRef spec0 12) = we1)
    (h13 : V c (Pipeline.arrRef spec0 13) = be1) (h14 : V c (Pipeline.arrRef spec0 14) = we2) (h15 : V c (Pipeline.arrRef spec0 15) = be2) :
    (dat0 (F := Ideal) V c).arrAt 17 cfg0.N = fun i =>
      Cert.Spec.msgMasked (fun l => ea (ix2 (i 0) l)) (fun k => xg (ix2 (i 0) k)) (et (ix2 (i 0) 0))
        (fun k c' => wj (ix2 k c')) (fun c' => bj (ix1 c')) (fun l k => we1 (ix2 l k)) (fun k => be1 (ix1 k))
        (fun k j => we2 (ix2 k j)) (fun j => be2 (ix1 j)) (i 1) :=
  (dat0 (F := Ideal) V c).arrAt_eq_of_cover 17 _
    (fun t _ => flushed_i V c ea xg et wj bj we1 be1 we2 be2 h0 h2 h3 h10 h11 h12 h13 h14 h15 t) cover_i

end Cert.KernelIdeal.Region0

end
-- ==== Proof.Region1.lean ====
/-
  The second launch: what its two output arrays hold after the last grid point.

  Each grid point takes a block of 4000 rows of the embeddings, the summed messages and the counts, with the whole
  weight matrix and bias, and writes back the block of updated rows. Read at one position, the block written is the
  node update of that row; the 25 blocks tile the 100000 rows, so each output array ends as the row-wise update of
  the arrays the launch found. The item side is the same computation over the item-side windows.
-/
import proofs.«409393_j55679956025643_3_alg».proof.Proof.Gen.KernelIdeal.Frame
import proofs.«409393_j55679956025643_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.ShloMosaic.Pipeline

namespace Cert.KernelIdeal.Region1

open Cert.KernelIdeal Cert.KernelIdeal.Gen

variable (V : (c : Dev nD) → (b : Ref sig .tc) → Buf (Elt Ideal) ((c : Thread nD τ).loc b))

/-! ## The block payloads read at one position -/

/-- The left operand of the block's matrix product is read on the result's row. -/
theorem prodLeft_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- and at the contracted position along the row. -/
theorem prodLeft_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand is read at the contracted position down the column, -/
theorem prodRight_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- on the result's column. -/
theorem prodRight_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block of rows times the weight matrix, from a zero accumulator: entry (p, q) is row p against column q. -/
theorem prod_at (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  refine (Ideal.matmul_constant_zero_apply dot_S4000x128_S128x128_S4000x128_1_0_0_1_n_n none a b (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact prodLeft_row _ _
    | ⟨1, _⟩ => exact (prodLeft_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (prodRight_row _ _).trans hk
    | ⟨1, _⟩ => exact prodRight_col _ _)
  rw [el, er]

/-- One column spread over the row: entry (p, c) of the spread is the column's entry p. -/
theorem spreadCol_at {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The update payload of a block of rows, read at row p and column q, is the node update of that row's operands. -/
theorem updBlock_at (x0 : Vec Ideal S4000x128 .f32) (x6 : Vec Ideal S128x128 .bf16) (x7 : Vec Ideal S128 .f32)
    (x4 : Vec Ideal S4000x1 .f32) (x2 : Vec Ideal S4000x128 .f32) (p : Fin 4000) (q : Fin 128) :
    k1_pay2 x0 x6 x7 x4 x2 (ix2 p q) =
      Cert.Spec.upd (fun k => x0 (ix2 p k)) (fun k j => x6 (ix2 k j)) (fun j => x7 (ix1 j)) (fun j => x2 (ix2 p j)) (x4 (ix2 p 0)) q := by
  unfold k1_pay2 Cert.Spec.upd Cert.Spec.lin
  simp only [truncf_apply, maximumf_apply, addf_apply, divf_apply, broadcast_apply, shapeCast_self]
  have e1 := prod_at (truncf .bf16 x0 bitsLt_bf16_f32) x6 p q
  have e2 : broadcastTo S4000x128 (shapeCast S1x128 x7 shapeCasts_S128_S1x128) broadcasts_S1x128_S4000x128 (ix2 p q) = x7 (ix1 q) :=
    (broadcastTo_1b_ab_apply _ _ p q).trans (shapeCast_a_1a_apply x7 _ 0 q)
  have e3 : broadcastTo S4000x128 (maximumf x4 (broadcast S4000x1 (FloatOps.ofBits (F := Ideal) .f32 0x3F800000#32))) broadcasts_S4000x1_S4000x128 (ix2 p q)
      = max (x4 (ix2 p 0)) Cert.Spec.one := spreadCol_at _ _ p q
  rw [e1, e2, e3]
  rfl

/-! ## What a grid point writes back -/

theorem origin2 : (![0, 0] : Fin 2 → Nat) = fun _ => 0 := funext fun a => by fin_cases a <;> rfl
theorem origin1 : (![0] : Fin 1 → Nat) = fun _ => 0 := funext fun a => by fin_cases a <;> rfl

/-- The update of every node from whole arrays: row n from row n of the embeddings and sums and entry n of the counts. -/
abbrev updRows (emb agg : Vec Ideal S100000x128 .f32) (cnt : Vec Ideal S100000x1 .f32)
    (wi : Vec Ideal S128x128 .bf16) (bi : Vec Ideal S128 .f32) : Vec Ideal S100000x128 .bf16 := fun i =>
  Cert.Spec.upd (fun k => emb (ix2 (i 0) k)) (fun k j => wi (ix2 k j)) (fun j => bi (ix1 j))
    (fun j => agg (ix2 (i 0) j)) (cnt (ix2 (i 0) 0)) (i 1)

/-- The block positions over the grid: the row-blocked windows move with the output's row block, stay on the one
    column block, the weight windows stay put, and the output's row block stays below 25. -/
theorem blockPos_s : ∀ t : Fin cfg1.N,
    win1_0.index t (0 : Fin 2) = win1_10.index t (0 : Fin 2) ∧ win1_0.index t (1 : Fin 2) = 0
    ∧ win1_2.index t (0 : Fin 2) = win1_10.index t (0 : Fin 2) ∧ win1_2.index t (1 : Fin 2) = 0
    ∧ win1_4.index t (0 : Fin 2) = win1_10.index t (0 : Fin 2) ∧ win1_4.index t (1 : Fin 2) = 0
    ∧ win1_6.index t (0 : Fin 2) = 0 ∧ win1_6.index t (1 : Fin 2) = 0
    ∧ win1_7.index t (0 : Fin 1) = 0
    ∧ win1_10.index t (0 : Fin 2) ≤ 24 ∧ win1_10.index t (1 : Fin 2) = 0 :=
  (by decide +kernel : ∀ t : Fin grid1.N, _)

/-- Row p of the embedding block at a point is the array's row at the output block's row p. -/
theorem embBlock_at (c : Dev nD) (emb : Vec Ideal S100000x128 .f32) (h0 : V c (Pipeline.arrRef spec1 0) = emb)
    (t : Fin cfg1.N) (p : Fin 4000) (k q : Fin 128) :
    iblk1 V c 0 t (ix2 p k) = emb (ix2 ((((cfg1.win 10).blk t).view.emb (ix2 p q)) 0) k) := by
  unfold iblk1
  rw [h0]
  show emb (((cfg1.win 0).blk t).view.emb (ix2 p k)) = _
  obtain ⟨e0, e1, -⟩ := blockPos_s t
  refine congrArg emb (funext fun a => Fin.ext ?_)
  match a with
  | ⟨0, _⟩ => show win1_0.index t (0 : Fin 2) * 4000 + 1 * p.val = win1_10.index t (0 : Fin 2) * 4000 + 1 * p.val; omega
  | ⟨1, _⟩ => show win1_0.index t (1 : Fin 2) * 128 + 1 * k.val = k.val; omega

/-- The same for the block of summed messages. -/
theorem aggBlock_at (c : Dev nD) (agg : Vec Ideal S100000x128 .f32) (h2 : V c (Pipeline.arrRef spec1 2) = agg)
    (t : Fin cfg1.N) (p : Fin 4000) (k q : Fin 128) :
    iblk1 V c 2 t (ix2 p k) = agg (ix2 ((((cfg1.win 10).blk t).view.emb (ix2 p q)) 0) k) := by
  unfold iblk1
  rw [h2]
  show agg (((cfg1.win 2).blk t).view.emb (ix2 p k)) = _
  obtain ⟨-, -, e0, e1, -⟩ := blockPos_s t
  refine congrArg agg (funext fun a => Fin.ext ?_)
  match a with
  | ⟨0, _⟩ => show win1_2.index t (0 : Fin 2) * 4000 + 1 * p.val = win1_10.index t (0 : Fin 2) * 4000 + 1 * p.val; omega
  | ⟨1, _⟩ => show win1_2.index t (1 : Fin 2) * 128 + 1 * k.val = k.val; omega

/-- Entry p of the count block is the array's entry at the output block's row p. -/
theorem cntBlock_at (c : Dev nD) (cnt : Vec Ideal S100000x1 .f32) (h4 : V c (Pipeline.arrRef spec1 4) = cnt)
    (t : Fin cfg1.N) (p : Fin 4000) (q : Fin 128) :
    iblk1 V c 4 t (ix2 p 0) = cnt (ix2 ((((cfg1.win 10).blk t).view.emb (ix2 p q)) 0) 0) := by
  unfold iblk1
  rw [h4]
  show cnt (((cfg1.win 4).blk t).view.emb (ix2 p 0)) = _
  obtain ⟨-, -, -, -, e0, e1, -⟩ := blockPos_s t
  refine congrArg cnt (funext fun a => Fin.ext ?_)
  match a with
  | ⟨0, _⟩ => show win1_4.index t (0 : Fin 2) * 4000 + 1 * p.val = win1_10.index t (0 : Fin 2) * 4000 + 1 * p.val; omega
  | ⟨1, _⟩ => show win1_4.index t (1 : Fin 2) * 1 + 1 * 0 = 0; omega

/-- The weight window holds the whole matrix at every point. -/
theorem wBlock_at (c : Dev nD) (wi : Vec Ideal S128x128 .bf16) (h6 : V c (Pipeline.arrRef spec1 6) = wi)
    (t : Fin cfg1.N) (k j : Fin 128) : iblk1 V c 6 t (ix2 k j) = wi (ix2 k j) := by
  unfold iblk1
  rw [h6]
  show wi (((cfg1.win 6).blk t).view.emb (ix2 k j)) = _
  obtain ⟨-, -, -, -, -, -, e0, e1, -⟩ := blockPos_s t
  refine congrArg wi (funext fun a => Fin.ext ?_)
  match a with
  | ⟨0, _⟩ => show win1_6.index t (0 : Fin 2) * 128 + 1 * k.val = k.val; omega
  | ⟨1, _⟩ => show win1_6.index t (1 : Fin 2) * 128 + 1 * j.val = j.val; omega

/-- The bias window holds the whole vector at every point. -/
theorem bBlock_at (c : Dev nD) (bi : Vec Ideal S128 .f32) (h7 : V c (Pipeline.arrRef spec1 7) = bi)
    (t : Fin cfg1.N) (j : Fin 128) : iblk1 V c 7 t (ix1 j) = bi (ix1 j) := by
  unfold iblk1
  rw [h7]
  show bi (((cfg1.win 7).blk t).view.emb (ix1 j)) = _
  obtain ⟨-, -, -, -, -, -, -, -, e0, -⟩ := blockPos_s t
  refine congrArg bi (funext fun a => Fin.ext ?_)
  match a with
  | ⟨0, _⟩ => show win1_7.index t (0 : Fin 1) * 128 + 1 * j.val = j.val; omega

/-- The output block's column q is the array's column q. -/
theorem outBlock_col (t : Fin cfg1.N) (p : Fin 4000) (q : Fin 128) :
    (((cfg1.win 10).blk t).view.emb (ix2 p q)) 1 = q := by
  obtain ⟨-, -, -, -, -, -, -, -, -, -, e1⟩ := blockPos_s t
  apply Fin.ext
  show win1_10.index t (1 : Fin 2) * 128 + 1 * q.val = q.val
  omega

theorem flushed_s (c : Dev nD)
    (emb : Vec Ideal S100000x128 .f32) (agg : Vec Ideal S100000x128 .f32) (cnt : Vec Ideal S100000x1 .f32)
    (wi : Vec Ideal S128x128 .bf16) (bi : Vec Ideal S128 .f32)
    (h0 : V c (Pipeline.arrRef spec1 0) = emb) (h2 : V c (Pipeline.arrRef spec1 2) = agg) (h4 : V c (Pipeline.arrRef spec1 4) = cnt)
    (h6 : V c (Pipeline.arrRef spec1 6) = wi) (h7 : V c (Pipeline.arrRef spec1 7) = bi) (t : Fin cfg1.N) :
    (dat1 (F := Ideal) V c).flushed 10 t = ((cfg1.win 10).blk t).view.read (Elt Ideal) (updRows emb agg cnt wi bi) := by
  show (cfg1.win 10).cut (grid1.coords t) ((dat1 V c).after 10 t) = _
  rw [after1_10]
  unfold out1_10
  rw [View.canon_unit_zero origin2]
  simp only [View.ld_unit_zero (S := S4000x128) origin2, View.ld_unit_zero (S := S128x128) origin2, View.ld_unit_zero (S := S128) origin1, View.ld_unit_zero (S := S4000x1) origin2]
  funext j
  obtain ⟨p, q, rfl⟩ : ∃ (p : Fin 4000) (q : Fin 128), j = ix2 p q := ⟨j 0, j 1, eq_ix2 j⟩
  show k1_pay2 (iblk1 V c 0 t) (iblk1 V c 6 t) (iblk1 V c 7 t) (iblk1 V c 4 t) (iblk1 V c 2 t) (ix2 p q)
    = updRows emb agg cnt wi bi (((cfg1.win 10).blk t).view.emb (ix2 p q))
  refine (updBlock_at _ _ _ _ _ p q).trans ?_
  simp only [embBlock_at V c emb h0 t p _ q, aggBlock_at V c agg h2 t p _ q, cntBlock_at V c cnt h4 t p q, wBlock_at V c wi h6 t, bBlock_at V c bi h7 t]
  exact (congrArg (Cert.Spec.upd _ _ _ _ _) (outBlock_col t p q)).symm

/-! ## From the blocks to the array -/

/-- An index of the array lies in a point's output block iff each coordinate lies in the block's range on its axis. -/
theorem mem_outBlock (t : Fin cfg1.N) (i : S100000x128.Idx) :
    i ∈ ((cfg1.win 10).blk t).view.set ↔ ∀ a : Fin 2, win1_10.index t a * S4000x128.size a ≤ (i a).val ∧ (i a).val < win1_10.index t a * S4000x128.size a + S4000x128.size a := by
  show i ∈ ((View.whole main_v51_0).slice (win1_10.rect t)).set ↔ _
  rw [View.set_slice_whole, Rect.mem_set_unit]
  exact Iff.rfl

/-- Every one of the 25 row blocks is some point's. -/
theorem rowBlock_onto : ∀ r : Fin 25, ∃ t : Fin cfg1.N, win1_10.index t = ![r.val, 0] :=
  (by decide +kernel : ∀ r : Fin 25, ∃ t : Fin grid1.N, win1_10.index t = ![r.val, 0])

/-- Every index of the array is written back by the point of its row block: row n by point n / 4000. -/
theorem covered_s (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  obtain ⟨t, ht⟩ := rowBlock_onto ⟨(i 0).val / 4000, by omega⟩
  have q0 : win1_10.index t (0 : Fin 2) = (i 0).val / 4000 := congrFun ht 0
  have q1 : win1_10.index t (1 : Fin 2) = 0 := congrFun ht 1
  refine ⟨t, flush1_10 t, ?_⟩
  rw [mem_outBlock]
  intro a
  match a with
  | ⟨0, _⟩ => show win1_10.index t (0 : Fin 2) * 4000 ≤ (i 0).val ∧ (i 0).val < win1_10.index t (0 : Fin 2) * 4000 + 4000; omega
  | ⟨1, _⟩ => show win1_10.index t (1 : Fin 2) * 128 ≤ (i 1).val ∧ (i 1).val < win1_10.index t (1 : Fin 2) * 128 + 128; omega

/-- The updated user rows: row n is the update of node n from its embedding row, its summed messages and its count. -/
theorem final_s (c : Dev nD)
    (emb : Vec Ideal S100000x128 .f32) (agg : Vec Ideal S100000x128 .f32) (cnt : Vec Ideal S100000x1 .f32)
    (wi : Vec Ideal S128x128 .bf16) (bi : Vec Ideal S128 .f32)
    (h0 : V c (Pipeline.arrRef spec1 0) = emb) (h2 : V c (Pipeline.arrRef spec1 2) = agg) (h4 : V c (Pipeline.arrRef spec1 4) = cnt)
    (h6 : V c (Pipeline.arrRef spec1 6) = wi) (h7 : V c (Pipeline.arrRef spec1 7) = bi) :
    (dat1 (F := Ideal) V c).arrAt 10 cfg1.N = fun i =>
      Cert.Spec.upd (fun k => emb (ix2 (i 0) k)) (fun k j => wi (ix2 k j)) (fun j => bi (ix1 j))
        (fun j => agg (ix2 (i 0) j)) (cnt (ix2 (i 0) 0)) (i 1) :=
  (dat1 (F := Ideal) V c).arrAt_eq_of_cover 10 (updRows emb agg cnt wi bi)
    (fun t _ => flushed_s V c emb agg cnt wi bi h0 h2 h4 h6 h7 t) covered_s

/-! ## The item side: the same computation over the item-side windows -/

/-- The item-side payload, formed in three stages, is the same tree of operations as the user-side one. -/
theorem itemPayload_eq (x1 : Vec Ideal S4000x128 .f32) (x8 : Vec Ideal S128x128 .bf16) (x9 : Vec Ideal S128 .f32)
    (x5 : Vec Ideal S4000x1 .f32) (x3 : Vec Ideal S4000x128 .f32) :
    k1_pay1 (k1_pay3 x1 x8 x9) (k1_pay4 x5) x3 = k1_pay2 x1 x8 x9 x5 x3 := rfl

/-- The block positions of the item-side windows over the grid. -/
theorem blockPos_t : ∀ t : Fin cfg1.N,
    win1_1.index t (0 : Fin 2) = win1_11.index t (0 : Fin 2) ∧ win1_1.index t (1 : Fin 2) = 0
    ∧ win1_3.index t (0 : Fin 2) = win1_11.index t (0 : Fin 2) ∧ win1_3.index t (1 : Fin 2) = 0
    ∧ win1_5.index t (0 : Fin 2) = win1_11.index t (0 : Fin 2) ∧ win1_5.index t (1 : Fin 2) = 0
    ∧ win1_8.index t (0 : Fin 2) = 0 ∧ win1_8.index t (1 : Fin 2) = 0
    ∧ win1_9.index t (0 : Fin 1) = 0
    ∧ win1_11.index t (0 : Fin 2) ≤ 24 ∧ win1_11.index t (1 : Fin 2) = 0 :=
  (by decide +kernel : ∀ t : Fin grid1.N, _)

/-- Row p of the item embedding block is the array's row at the item output block's row p. -/
theorem embBlockT_at (c : Dev nD) (emb : Vec Ideal S100000x128 .f32) (h1 : V c (Pipeline.arrRef spec1 1) = emb)
    (t : Fin cfg1.N) (p : Fin 4000) (k q : Fin 128) :
    iblk1 V c 1 t (ix2 p k) = emb (ix2 ((((cfg1.win 11).blk t).view.emb (ix2 p q)) 0) k) := by
  unfold iblk1
  rw [h1]
  show emb (((cfg1.win 1).blk t).view.emb (ix2 p k)) = _
  obtain ⟨e0, e1, -⟩ := blockPos_t t
  refine congrArg emb (funext fun a => Fin.ext ?_)
  match a with
  | ⟨0, _⟩ => show win1_1.index t (0 : Fin 2) * 4000 + 1 * p.val = win1_11.index t (0 : Fin 2) * 4000 + 1 * p.val; omega
  | ⟨1, _⟩ => show win1_1.index t (1 : Fin 2) * 128 + 1 * k.val = k.val; omega

/-- The same for the item-side block of summed messages. -/
theorem aggBlockT_at (c : Dev nD) (agg : Vec Ideal S100000x128 .f32) (h3 : V c (Pipeline.arrRef spec1 3) = agg)
    (t : Fin cfg1.N) (p : Fin 4000) (k q : Fin 128) :
    iblk1 V c 3 t (ix2 p k) = agg (ix2 ((((cfg1.win 11).blk t).view.emb (ix2 p q)) 0) k) := by
  unfold iblk1
  rw [h3]
  show agg (((cfg1.win 3).blk t).view.emb (ix2 p k)) = _
  obtain ⟨-, -, e0, e1, -⟩ := blockPos_t t
  refine congrArg agg (funext fun a => Fin.ext ?_)
  match a with
  | ⟨0, _⟩ => show win1_3.index t (0 : Fin 2) * 4000 + 1 * p.val = win1_11.index t (0 : Fin 2) * 4000 + 1 * p.val; omega
  | ⟨1, _⟩ => show win1_3.index t (1 : Fin 2) * 128 + 1 * k.val = k.val; omega

/-- Entry p of the item count block is the array's entry at the item output block's row p. -/
theorem cntBlockT_at (c : Dev nD) (cnt : Vec Ideal S100000x1 .f32) (h5 : V c (Pipeline.arrRef spec1 5) = cnt)
    (t : Fin cfg1.N) (p : Fin 4000) (q : Fin 128) :
    iblk1 V c 5 t (ix2 p 0) = cnt (ix2 ((((cfg1.win 11).blk t).view.emb (ix2 p q)) 0) 0) := by
  unfold iblk1
  rw [h5]
  show cnt (((cfg1.win 5).blk t).view.emb (ix2 p 0)) = _
  obtain ⟨-, -, -, -, e0, e1, -⟩ := blockPos_t t
  refine congrArg cnt (funext fun a => Fin.ext ?_)
  match a with
  | ⟨0, _⟩ => show win1_5.index t (0 : Fin 2) * 4000 + 1 * p.val = win1_11.index t (0 : Fin 2) * 4000 + 1 * p.val; omega
  | ⟨1, _⟩ => show win1_5.index t (1 : Fin 2) * 1 + 1 * 0 = 0; omega

/-- The item weight window holds the whole matrix at every point. -/
theorem wBlockT_at (c : Dev nD) (wi : Vec Ideal S128x128 .bf16) (h8 : V c (Pipeline.arrRef spec1 8) = wi)
    (t : Fin cfg1.N) (k j : Fin 128) : iblk1 V c 8 t (ix2 k j) = wi (ix2 k j) := by
  unfold iblk1
  rw [h8]
  show wi (((cfg1.win 8).blk t).view.emb (ix2 k j)) = _
  obtain ⟨-, -, -, -, -, -, e0, e1, -⟩ := blockPos_t t
  refine congrArg wi (funext fun a => Fin.ext ?_)
  match a with
  | ⟨0, _⟩ => show win1_8.index t (0 : Fin 2) * 128 + 1 * k.val = k.val; omega
  | ⟨1, _⟩ => show win1_8.index t (1 : Fin 2) * 128 + 1 * j.val = j.val; omega

/-- The item bias window holds the whole vector at every point. -/
theorem bBlockT_at (c : Dev nD) (bi : Vec Ideal S128 .f32) (h9 : V c (Pipeline.arrRef spec1 9) = bi)
    (t : Fin cfg1.N) (j : Fin 128) : iblk1 V c 9 t (ix1 j) = bi (ix1 j) := by
  unfold iblk1
  rw [h9]
  show bi (((cfg1.win 9).blk t).view.emb (ix1 j)) = _
  obtain ⟨-, -, -, -, -, -, -, -, e0, -⟩ := blockPos_t t
  refine congrArg bi (funext fun a => Fin.ext ?_)
  match a with
  | ⟨0, _⟩ => show win1_9.index t (0 : Fin 1) * 128 + 1 * j.val = j.val; omega

/-- The item output block's column q is the array's column q. -/
theorem outBlockT_col (t : Fin cfg1.N) (p : Fin 4000) (q : Fin 128) :
    (((cfg1.win 11).blk t).view.emb (ix2 p q)) 1 = q := by
  obtain ⟨-, -, -, -, -, -, -, -, -, -, e1⟩ := blockPos_t t
  apply Fin.ext
  show win1_11.index t (1 : Fin 2) * 128 + 1 * q.val = q.val
  omega

/-- What a point writes back to the item output is its block of the row-wise update of the item-side arrays. -/
theorem flushed_t (c : Dev nD)
    (emb : Vec Ideal S100000x128 .f32) (agg : Vec Ideal S100000x128 .f32) (cnt : Vec Ideal S100000x1 .f32)
    (wi : Vec Ideal S128x128 .bf16) (bi : Vec Ideal S128 .f32)
    (h1 : V c (Pipeline.arrRef spec1 1) = emb) (h3 : V c (Pipeline.arrRef spec1 3) = agg) (h5 : V c (Pipeline.arrRef spec1 5) = cnt)
    (h8 : V c (Pipeline.arrRef spec1 8) = wi) (h9 : V c (Pipeline.arrRef spec1 9) = bi) (t : Fin cfg1.N) :
    (dat1 (F := Ideal) V c).flushed 11 t = ((cfg1.win 11).blk t).view.read (Elt Ideal) (updRows emb agg cnt wi bi) := by
  show (cfg1.win 11).cut (grid1.coords t) ((dat1 V c).after 11 t) = _
  rw [after1_11]
  unfold out1_11
  rw [View.canon_unit_zero origin2]
  simp only [View.ld_unit_zero (S := S4000x128) origin2, View.ld_unit_zero (S := S128x128) origin2, View.ld_unit_zero (S := S128) origin1, View.ld_unit_zero (S := S4000x1) origin2]
  rw [itemPayload_eq]
  funext j
  obtain ⟨p, q, rfl⟩ : ∃ (p : Fin 4000) (q : Fin 128), j = ix2 p q := ⟨j 0, j 1, eq_ix2 j⟩
  show k1_pay2 (iblk1 V c 1 t) (iblk1 V c 8 t) (iblk1 V c 9 t) (iblk1 V c 5 t) (iblk1 V c 3 t) (ix2 p q)
    = updRows emb agg cnt wi bi (((cfg1.win 11).blk t).view.emb (ix2 p q))
  refine (updBlock_at _ _ _ _ _ p q).trans ?_
  simp only [embBlockT_at V c emb h1 t p _ q, aggBlockT_at V c agg h3 t p _ q, cntBlockT_at V c cnt h5 t p q, wBlockT_at V c wi h8 t, bBlockT_at V c bi h9 t]
  exact (congrArg (Cert.Spec.upd _ _ _ _ _) (outBlockT_col t p q)).symm

/-- An index of the item output array lies in a point's block iff each coordinate lies in the block's range. -/
theorem mem_outBlockT (t : Fin cfg1.N) (i : S100000x128.Idx) :
    i ∈ ((cfg1.win 11).blk t).view.set ↔ ∀ a : Fin 2, win1_11.index t a * S4000x128.size a ≤ (i a).val ∧ (i a).val < win1_11.index t a * S4000x128.size a + S4000x128.size a := by
  show i ∈ ((View.whole main_v51_1).slice (win1_11.rect t)).set ↔ _
  rw [View.set_slice_whole, Rect.mem_set_unit]
  exact Iff.rfl

/-- Every one of the 25 row blocks of the item output is some point's. -/
theorem rowBlockT_onto : ∀ r : Fin 25, ∃ t : Fin cfg1.N, win1_11.index t = ![r.val, 0] :=
  (by decide +kernel : ∀ r : Fin 25, ∃ t : Fin grid1.N, win1_11.index t = ![r.val, 0])

/-- Every index of the item output array is written back by the point of its row block. -/
theorem covered_t (i : S100000x128.Idx) :
    ∃ t : Fin cfg1.N, (cfg1.win 11).flush t = true ∧ i ∈ ((cfg1.win 11).blk t).view.set := by
  have hi0 : (i 0).val < 100000 := (i 0).isLt
  have hi1 : (i 1).val < 128 := (i 1).isLt
  obtain ⟨t, ht⟩ := rowBlockT_onto ⟨(i 0).val / 4000, by omega⟩
  have q0 : win1_11.index t (0 : Fin 2) = (i 0).val / 4000 := congrFun ht 0
  have q1 : win1_11.index t (1 : Fin 2) = 0 := congrFun ht 1
  refine ⟨t, flush1_11 t, ?_⟩
  rw [mem_outBlockT]
  intro a
  match a with
  | ⟨0, _⟩ => show win1_11.index t (0 : Fin 2) * 4000 ≤ (i 0).val ∧ (i 0).val < win1_11.index t (0 : Fin 2) * 4000 + 4000; omega
  | ⟨1, _⟩ => show win1_11.index t (1 : Fin 2) * 128 ≤ (i 1).val ∧ (i 1).val < win1_11.index t (1 : Fin 2) * 128 + 128; omega

/-- The updated item rows: the same function of the item-side operands. -/
theorem final_t (c : Dev nD)
    (emb : Vec Ideal S100000x128 .f32) (agg : Vec Ideal S100000x128 .f32) (cnt : Vec Ideal S100000x1 .f32)
    (wi : Vec Ideal S128x128 .bf16) (bi : Vec Ideal S128 .f32)
    (h1 : V c (Pipeline.arrRef spec1 1) = emb) (h3 : V c (Pipeline.arrRef spec1 3) = agg) (h5 : V c (Pipeline.arrRef spec1 5) = cnt)
    (h8 : V c (Pipeline.arrRef spec1 8) = wi) (h9 : V c (Pipeline.arrRef spec1 9) = bi) :
    (dat1 (F := Ideal) V c).arrAt 11 cfg1.N = fun i =>
      Cert.Spec.upd (fun k => emb (ix2 (i 0) k)) (fun k j => wi (ix2 k j)) (fun j => bi (ix1 j))
        (fun j => agg (ix2 (i 0) j)) (cnt (ix2 (i 0) 0)) (i 1) :=
  (dat1 (F := Ideal) V c).arrAt_eq_of_cover 11 (updRows emb agg cnt wi bi)
    (fun t _ => flushed_t V c emb agg cnt wi bi h1 h3 h5 h8 h9 t) covered_t

end Cert.KernelIdeal.Region1

end
-- ==== Proof.Region2.lean ====
/-
  The third launch: what its output array holds after the last grid point.
-/
import proofs.«409393_j55679956025643_3_alg».proof.Proof.Gen.KernelIdeal.Frame
import proofs.«409393_j55679956025643_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.ShloMosaic.Pipeline

namespace Cert.KernelIdeal.Region2

open Cert.KernelIdeal Cert.KernelIdeal.Gen

variable (V : (c : Dev nD) → (b : Ref sig .tc) → Buf (Elt Ideal) ((c : Thread nD τ).loc b))

/-! ## The two products of the body, read at an entry

Both contract the second axis of the left factor with the first of the right one, over 128 terms. -/

/-- The wide product's left factor is read on the result's row … -/
theorem wideL_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … at the summation index, -/
theorem wideL_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- and its right factor at the summation index … -/
theorem wideR_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … on the result's column. -/
theorem wideR_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000×128 block times a 128×128 matrix, from zero: entry (p, k) is the sum over l of a(p, l) · b(l, k). -/
theorem wide_apply (a : FVec Ideal S4000x128 .bf16) (b : FVec Ideal S128x128 .bf16) (p : Fin 4000) (k : Fin 128) :
    matmul dot_S4000x128_S128x128_S4000x128_1_0_0_1_n_n none a b (constant (F := Ideal) S4000x128 .f32 0x00000000#32) (ix2 p k)
      = ∑ l : Fin 128, a (ix2 p l) * b (ix2 l k) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun l _ => ?_
  have hk := ValueIdx.contrEquiv1_symm_val dot_S4000x128_S128x128_S4000x128_1_0_0_1_n_n 128 rfl rfl l
  have el : dot_S4000x128_S128x128_S4000x128_1_0_0_1_n_n.lhsIdx (ix2 p k) ((ValueIdx.contrEquiv1 dot_S4000x128_S128x128_S4000x128_1_0_0_1_n_n 128 rfl rfl).symm l) = ix2 p l := funext fun ax => Fin.ext (by
    match ax with
    | ⟨0, _⟩ => exact wideL_row _ _
    | ⟨1, _⟩ => exact (wideL_col _ _).trans hk)
  have er : dot_S4000x128_S128x128_S4000x128_1_0_0_1_n_n.rhsIdx (ix2 p k) ((ValueIdx.contrEquiv1 dot_S4000x128_S128x128_S4000x128_1_0_0_1_n_n 128 rfl rfl).symm l) = ix2 l k := funext fun ax => Fin.ext (by
    match ax with
    | ⟨0, _⟩ => exact (wideR_row _ _).trans hk
    | ⟨1, _⟩ => exact wideR_col _ _)
  rw [el, er]

/-- The one-column product's left factor is read on the result's row … -/
theorem colL_row (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
/-- … at the summation index, -/
theorem colL_col (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
/-- and its right factor at the summation index … -/
theorem colR_row (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
/-- … on the result's (only) column. -/
theorem colR_col (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- A 4000×128 block times a 128×1 column, from zero: entry (p, u) is the sum over l of a(p, l) · b(l, u). -/
theorem col_apply (a : FVec Ideal S4000x128 .bf16) (b : FVec Ideal S128x1 .bf16) (p : Fin 4000) (u : Fin 1) :
    matmul dot_S4000x128_S128x1_S4000x1_1_0_0_1_n_n none a b (constant (F := Ideal) S4000x1 .f32 0x00000000#32) (ix2 p u)
      = ∑ l : Fin 128, a (ix2 p l) * b (ix2 l u) := by
  simp only [matmul]
  rw [Ideal.matmul_constant_zero_apply, ← Equiv.sum_comp (ValueIdx.contrEquiv1 dot_S4000x128_S128x1_S4000x1_1_0_0_1_n_n 128 rfl rfl).symm]
  refine Finset.sum_congr rfl fun l _ => ?_
  have hk := ValueIdx.contrEquiv1_symm_val dot_S4000x128_S128x1_S4000x1_1_0_0_1_n_n 128 rfl rfl l
  have el : dot_S4000x128_S128x1_S4000x1_1_0_0_1_n_n.lhsIdx (ix2 p u) ((ValueIdx.contrEquiv1 dot_S4000x128_S128x1_S4000x1_1_0_0_1_n_n 128 rfl rfl).symm l) = ix2 p l := funext fun ax => Fin.ext (by
    match ax with
    | ⟨0, _⟩ => exact colL_row _ _
    | ⟨1, _⟩ => exact (colL_col _ _).trans hk)
  have er : dot_S4000x128_S128x1_S4000x1_1_0_0_1_n_n.rhsIdx (ix2 p u) ((ValueIdx.contrEquiv1 dot_S4000x128_S128x1_S4000x1_1_0_0_1_n_n 128 rfl rfl).symm l) = ix2 l u := funext fun ax => Fin.ext (by
    match ax with
    | ⟨0, _⟩ => exact (colR_row _ _).trans hk
    | ⟨1, _⟩ => exact colR_col _ _)
  rw [el, er]

/-! ## The body's stored block, read at a row -/

/-- A 128-vector viewed as one row and repeated down 4000 rows reads, at (p, k), its entry k. -/
theorem rowBias_apply (b : FVec Ideal S128 .f32) (p : Fin 4000) (k : Fin 128) :
    broadcastTo S4000x128 (shapeCast S1x128 b shapeCasts_S128_S1x128) broadcasts_S1x128_S4000x128 (ix2 p k) = b (ix1 k) :=
  (broadcastTo_1b_ab_apply _ broadcasts_S1x128_S4000x128 p k).trans (shapeCast_a_1a_apply b shapeCasts_S128_S1x128 0 k)

/-- A 1-vector viewed as a 1×1 matrix and repeated down 4000 rows reads, at (p, u), its entry u. -/
theorem colBias_apply (b : FVec Ideal S1 .f32) (p : Fin 4000) (u : Fin 1) :
    broadcastTo S4000x1 (shapeCast S1x1 b shapeCasts_S1_S1x1) broadcasts_S1x1_S4000x1 (ix2 p u) = b (ix1 u) :=
  (broadcastTo_1b_ab_apply _ broadcasts_S1x1_S4000x1 p u).trans (shapeCast_a_1a_apply b shapeCasts_S1_S1x1 0 u)

/-- What the body stores, at row p: the rating of the edge whose two end-point rows are row p of the two row blocks. -/
theorem stored_apply (x0 x1 : FVec Ideal S4000x128 .bf16) (x2 x3 : FVec Ideal S128x128 .bf16) (x4 : FVec Ideal S128 .f32)
    (x5 : FVec Ideal S128x128 .bf16) (x6 : FVec Ideal S128 .f32) (x7 : FVec Ideal S128x1 .bf16) (x8 : FVec Ideal S1 .f32) (p : Fin 4000) :
    k2_pay1 (k2_pay2 x0 x1 x2 x3 x4 x5 x6 x7 x8) (k2_pay3 (F := Ideal)) (ix2 p (0 : Fin 1))
      = Cert.Spec.rate (fun l => x0 (ix2 p l)) (fun l => x1 (ix2 p l)) (fun l k => x2 (ix2 l k)) (fun l k => x3 (ix2 l k))
          (fun k => x4 (ix1 k)) (fun l k => x5 (ix2 l k)) (fun k => x6 (ix1 k)) (fun l k => x7 (ix2 l k)) (fun k => x8 (ix1 k)) := by
  unfold k2_pay1 k2_pay2 k2_pay3
  simp only [shapeCast_self]
  rw [addf_apply, mulf_apply, broadcast_apply, broadcast_apply]
  refine congrArg (fun y => Ideal.logistic y * Cert.Spec.four + Cert.Spec.one) ?_
  rw [addf_apply, col_apply, colBias_apply]
  unfold Cert.Spec.rate1 Cert.Spec.lin
  refine congrArg (· + _) (Finset.sum_congr rfl fun l _ => congrArg (· * _) ?_)
  rw [truncf_apply, maximumf_apply, broadcast_apply, addf_apply, wide_apply, rowBias_apply]
  refine congrArg (max · _) (congrArg (· + _) (Finset.sum_congr rfl fun l' _ => congrArg (· * _) ?_))
  rw [truncf_apply, maximumf_apply, broadcast_apply, addf_apply, addf_apply, wide_apply, wide_apply, rowBias_apply]
  rfl

/-! ## From the stored block to the array -/

theorem zeroOff2 : (![0, 0] : Fin 2 → Nat) = fun _ => 0 := funext fun a => by fin_cases a <;> rfl
theorem zeroOff1 : (![0] : Fin 1 → Nat) = fun _ => 0 := funext fun a => by fin_cases a <;> rfl

/-- The ratings of all edges, as one array of one column. -/
def ratings (xs xt : Vec Ideal S200000x128 .bf16) (w1a w1b : Vec Ideal S128x128 .bf16) (b1 : Vec Ideal S128 .f32)
    (w2 : Vec Ideal S128x128 .bf16) (b2 : Vec Ideal S128 .f32) (w3 : Vec Ideal S128x1 .bf16) (b3 : Vec Ideal S1 .f32) :
    Vec Ideal S200000x1 .f32 := fun i =>
  Cert.Spec.rate (fun l => xs (ix2 (i 0) l)) (fun l => xt (ix2 (i 0) l)) (fun l k => w1a (ix2 l k)) (fun l k => w1b (ix2 l k))
    (fun k => b1 (ix1 k)) (fun l k => w2 (ix2 l k)) (fun k => b2 (ix1 k)) (fun l k => w3 (ix2 l k)) (fun k => b3 (ix1 k))

/-- The stored block is any block that reads, at each row, the rating of that row's two end-point rows. -/
theorem stored_eq (x0 x1 : FVec Ideal S4000x128 .bf16) (x2 x3 : FVec Ideal S128x128 .bf16) (x4 : FVec Ideal S128 .f32)
    (x5 : FVec Ideal S128x128 .bf16) (x6 : FVec Ideal S128 .f32) (x7 : FVec Ideal S128x1 .bf16) (x8 : FVec Ideal S1 .f32)
    (G : FVec Ideal S4000x1 .f32)
    (hG : ∀ p : Fin 4000, G (ix2 p (0 : Fin 1)) = Cert.Spec.rate (fun l => x0 (ix2 p l)) (fun l => x1 (ix2 p l)) (fun l k => x2 (ix2 l k)) (fun l k => x3 (ix2 l k))
          (fun k => x4 (ix1 k)) (fun l k => x5 (ix2 l k)) (fun k => x6 (ix1 k)) (fun l k => x7 (ix2 l k)) (fun k => x8 (ix1 k))) :
    k2_pay1 (k2_pay2 x0 x1 x2 x3 x4 x5 x6 x7 x8) (k2_pay3 (F := Ideal)) = G := by
  funext j
  obtain ⟨p, u, rfl⟩ : ∃ (p : Fin 4000) (u : Fin 1), j = ix2 p u := ⟨j 0, j 1, eq_ix2 j⟩
  obtain rfl : u = 0 := Subsingleton.elim _ _
  rw [stored_apply, hG]

/-- The block positions of the ten windows, decided over the fifty points: the two row blocks and the output block
    sit at the point's own number, every other window at position zero. -/
theorem positions : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0
    ∧ win2_9.index t (0 : Fin 2) = t.val ∧ win2_9.index t (1 : Fin 2) = 0 :=
  (by decide +kernel : ∀ t : Fin grid2.N, _)

/-- Row p of point t's block of the first end-point rows is row 4000·t + p of the array. -/
theorem rowsRead0 (c : Dev nD) (t : Fin cfg2.N) (xs : Vec Ideal S200000x128 .bf16) (h0 : V c (Pipeline.arrRef spec2 0) = xs)
    (p : Fin 4000) (l : Fin 128) (hp : t.val * 4000 + p.val < 200000) :
    iblk2 (F := Ideal) V c 0 t (ix2 p l) = xs (ix2 ⟨t.val * 4000 + p.val, hp⟩ l) := by
  subst h0
  obtain ⟨e0, e1, -⟩ := positions t
  unfold iblk2
  show V c (Pipeline.arrRef spec2 0) (((cfg2.win 0).blk t).view.emb (ix2 p l)) = _
  refine congrArg (V c (Pipeline.arrRef spec2 0)) (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 128 + 1 * l.val = l.val; rw [e1]; omega

/-- The same for the second end-point rows. -/
theorem rowsRead1 (c : Dev nD) (t : Fin cfg2.N) (xt : Vec Ideal S200000x128 .bf16) (h1 : V c (Pipeline.arrRef spec2 1) = xt)
    (p : Fin 4000) (l : Fin 128) (hp : t.val * 4000 + p.val < 200000) :
    iblk2 (F := Ideal) V c 1 t (ix2 p l) = xt (ix2 ⟨t.val * 4000 + p.val, hp⟩ l) := by
  subst h1
  obtain ⟨-, -, e0, e1, -⟩ := positions t
  unfold iblk2
  show V c (Pipeline.arrRef spec2 1) (((cfg2.win 1).blk t).view.emb (ix2 p l)) = _
  refine congrArg (V c (Pipeline.arrRef spec2 1)) (funext fun a => Fin.ext ?_)
  match a with
  | ⟨0, _⟩ => show win2_1.index t (0 : Fin 2) * 4000 + 1 * p.val = t.val * 4000 + p.val; rw [e0]; omega
  | ⟨1, _⟩ => show win2_1.index t (1 : Fin 2) * 128 + 1 * l.val = l.val; rw [e1]; omega

/-- A resident window's one block is its whole array: the first half of the first layer's matrix, -/
theorem whole2 (c : Dev nD) (t : Fin cfg2.N) (w : Vec Ideal S128x128 .bf16) (h : V c (Pipeline.arrRef spec2 2) = w) :
    iblk2 (F := Ideal) V c 2 t = w := by
  subst h
  obtain ⟨-, -, -, -, e0, e1, -⟩ := positions t
  funext j
  unfold iblk2
  show V c (Pipeline.arrRef spec2 2) (((cfg2.win 2).blk t).view.emb j) = _
  refine congrArg (V c (Pipeline.arrRef spec2 2)) (funext fun a => Fin.ext ?_)
  match a with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

/-- the second half, -/
theorem whole3 (c : Dev nD) (t : Fin cfg2.N) (w : Vec Ideal S128x128 .bf16) (h : V c (Pipeline.arrRef spec2 3) = w) :
    iblk2 (F := Ideal) V c 3 t = w := by
  subst h
  obtain ⟨-, -, -, -, -, -, e0, e1, -⟩ := positions t
  funext j
  unfold iblk2
  show V c (Pipeline.arrRef spec2 3) (((cfg2.win 3).blk t).view.emb j) = _
  refine congrArg (V c (Pipeline.arrRef spec2 3)) (funext fun a => Fin.ext ?_)
  match a with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega

/-- the first layer's bias, -/
theorem whole4 (c : Dev nD) (t : Fin cfg2.N) (w : Vec Ideal S128 .f32) (h : V c (Pipeline.arrRef spec2 4) = w) :
    iblk2 (F := Ideal) V c 4 t = w := by
  subst h
  obtain ⟨-, -, -, -, -, -, -, -, e0, -⟩ := positions t
  funext j
  unfold iblk2
  show V c (Pipeline.arrRef spec2 4) (((cfg2.win 4).blk t).view.emb j) = _
  refine congrArg (V c (Pipeline.arrRef spec2 4)) (funext fun a => Fin.ext ?_)
  match a with
  | ⟨0, _⟩ => show win2_4.index t (0 : Fin 1) * 128 + 1 * (j 0).val = (j 0).val; rw [e0]; omega

/-- the second layer's matrix, -/
theorem whole5 (c : Dev nD) (t : Fin cfg2.N) (w : Vec Ideal S128x128 .bf16) (h : V c (Pipeline.arrRef spec2 5) = w) :
    iblk2 (F := Ideal) V c 5 t = w := by
  subst h
  obtain ⟨-, -, -, -, -, -, -, -, -, e0, e1, -⟩ := positions t
  funext j
  unfold iblk2
  show V c (Pipeline.arrRef spec2 5) (((cfg2.win 5).blk t).view.emb j) = _
  refine congrArg (V c (Pipeline.arrRef spec2 5)) (funext fun a => Fin.ext ?_)
  match a with
  | ⟨0, _⟩ => show win2_5.index t (0 : Fin 2) * 128 + 1 * (j 0).val = (j 0).val; rw [e0]; omega
  | ⟨1, _⟩ => show win2_5.index t (1 : Fin 2) * 128 + 1 * (j 1).val = (j 1).val; rw [e1]; omega

/-- its bias, -/
theorem whole6 (c : Dev nD) (t : Fin cfg2.N) (w : Vec Ideal S128 .f32) (h : V c (Pipeline.arrRef spec2 6) = w) :
    iblk2 (F := Ideal) V c 6 t = w := by
  subst h
  obtain ⟨-, -, -, -, -, -, -, -, -, -, -, e0, -⟩ := positions t
  funext j
  unfold iblk2
  show V c (Pipeline.arrRef spec2 6) (((cfg2.win 6).blk t).view.emb j) = _
  refine congrArg (V c (Pipeline.arrRef spec2 6)) (funext fun a => Fin.ext ?_)
  match a with
  | ⟨0, _⟩ => show win2_6.index t (0 : Fin 1) * 128 + 1 * (j 0).val = (j 0).val; rw [e0]; omega

/-- the third layer's column, -/
theorem whole7 (c : Dev nD) (t : Fin cfg2.N) (w : Vec Ideal S128x1 .bf16) (h : V c (Pipeline.arrRef spec2 7) = w) :
    iblk2 (F := Ideal) V c 7 t = w := by
  subst h
  obtain ⟨-, -, -, -, -, -, -, -, -, -, -, -, e0, e1, -⟩ := positions t
  funext j
  unfold iblk2
  show V c (Pipeline.arrRef spec2 7) (((cfg2.win 7).blk t).view.emb j) = _
  refine congrArg (V c (Pipeline.arrRef spec2 7)) (funext fun a => Fin.ext ?_)
  match a with
  | ⟨0, _⟩ => show win2_7.index t (0 : Fin 2) * 128 + 1 * (j 0).val = (j 0).val; rw [e0]; omega
  | ⟨1, _⟩ => show win2_7.index t (1 : Fin 2) * 1 + 1 * (j 1).val = (j 1).val; rw [e1]; omega

/-- and its bias. -/
theorem whole8 (c : Dev nD) (t : Fin cfg2.N) (w : Vec Ideal S1 .f32) (h : V c (Pipeline.arrRef spec2 8) = w) :
    iblk2 (F := Ideal) V c 8 t = w := by
  subst h
  obtain ⟨-, -, -, -, -, -, -, -, -, -, -, -, -, -, e0, -⟩ := positions t
  funext j
  unfold iblk2
  show V c (Pipeline.arrRef spec2 8) (((cfg2.win 8).blk t).view.emb j) = _
  refine congrArg (V c (Pipeline.arrRef spec2 8)) (funext fun a => Fin.ext ?_)
  match a with
  | ⟨0, _⟩ => show win2_8.index t (0 : Fin 1) * 1 + 1 * (j 0).val = (j 0).val; rw [e0]; omega

/-- What point t writes back is the body's stored block, formed from the ten windows' blocks at t. -/
theorem written_block (c : Dev nD) (t : Fin cfg2.N) :
    (dat2 (F := Ideal) V c).flushed 9 t
      = k2_pay1 (k2_pay2 (iblk2 V c 0 t) (iblk2 V c 1 t) (iblk2 V c 2 t) (iblk2 V c 3 t) (iblk2 V c 4 t) (iblk2 V c 5 t)
          (iblk2 V c 6 t) (iblk2 V c 7 t) (iblk2 V c 8 t)) (k2_pay3 (F := Ideal)) := by
  show (cfg2.win 9).cut (grid2.coords t) ((dat2 V c).after 9 t) = _
  rw [after2_9]
  unfold out2_9
  rw [View.canon_unit_zero zeroOff2]
  simp only [View.ld_unit_zero (S := S4000x128) zeroOff2, View.ld_unit_zero (S := S128x128) zeroOff2, View.ld_unit_zero (S := S128x1) zeroOff2,
    View.ld_unit_zero (S := S128) zeroOff1, View.ld_unit_zero (S := S1) zeroOff1]
  rfl

/-- Block t of the ratings, read at row p, is the rating of edge 4000·t + p. -/
theorem ratings_block (t : Fin cfg2.N) (p : Fin 4000) (hp : t.val * 4000 + p.val < 200000)
    (xs xt : Vec Ideal S200000x128 .bf16) (w1a w1b : Vec Ideal S128x128 .bf16) (b1 : Vec Ideal S128 .f32)
    (w2 : Vec Ideal S128x128 .bf16) (b2 : Vec Ideal S128 .f32) (w3 : Vec Ideal S128x1 .bf16) (b3 : Vec Ideal S1 .f32) :
    ((cfg2.win 9).blk t).view.read (Elt Ideal) (ratings xs xt w1a w1b b1 w2 b2 w3 b3) (ix2 p (0 : Fin 1))
      = Cert.Spec.rate (fun l => xs (ix2 ⟨t.val * 4000 + p.val, hp⟩ l)) (fun l => xt (ix2 ⟨t.val * 4000 + p.val, hp⟩ l))
          (fun l k => w1a (ix2 l k)) (fun l k => w1b (ix2 l k)) (fun k => b1 (ix1 k)) (fun l k => w2 (ix2 l k)) (fun k => b2 (ix1 k))
          (fun l k => w3 (ix2 l k)) (fun k => b3 (ix1 k)) := by
  rw [View.read_apply, cast_eq]
  unfold ratings
  obtain ⟨-, -, -, -, -, -, -, -, -, -, -, -, -, -, -, e0, -⟩ := positions t
  have hrow : (((cfg2.win 9).blk t).view.emb (ix2 p (0 : Fin 1))) 0 = (⟨t.val * 4000 + p.val, hp⟩ : Fin 200000) :=
    Fin.ext (by show win2_9.index t (0 : Fin 2) * 4000 + 1 * p.val = t.val * 4000 + p.val; rw [e0]; omega)
  exact congrArg (fun r : Fin 200000 => Cert.Spec.rate (fun l => xs (ix2 r l)) (fun l => xt (ix2 r l)) (fun l k => w1a (ix2 l k)) (fun l k => w1b (ix2 l k))
    (fun k => b1 (ix1 k)) (fun l k => w2 (ix2 l k)) (fun k => b2 (ix1 k)) (fun l k => w3 (ix2 l k)) (fun k => b3 (ix1 k))) hrow

/-- What point t writes back is block t of the ratings. -/
theorem written_eq (c : Dev nD) (t : Fin cfg2.N)
    (xs xt : Vec Ideal S200000x128 .bf16) (w1a w1b : Vec Ideal S128x128 .bf16) (b1 : Vec Ideal S128 .f32)
    (w2 : Vec Ideal S128x128 .bf16) (b2 : Vec Ideal S128 .f32) (w3 : Vec Ideal S128x1 .bf16) (b3 : Vec Ideal S1 .f32)
    (h0 : V c (Pipeline.arrRef spec2 0) = xs) (h1 : V c (Pipeline.arrRef spec2 1) = xt) (h2 : V c (Pipeline.arrRef spec2 2) = w1a)
    (h3 : V c (Pipeline.arrRef spec2 3) = w1b) (h4 : V c (Pipeline.arrRef spec2 4) = b1) (h5 : V c (Pipeline.arrRef spec2 5) = w2)
    (h6 : V c (Pipeline.arrRef spec2 6) = b2) (h7 : V c (Pipeline.arrRef spec2 7) = w3) (h8 : V c (Pipeline.arrRef spec2 8) = b3) :
    (dat2 (F := Ideal) V c).flushed 9 t = ((cfg2.win 9).blk t).view.read (Elt Ideal) (ratings xs xt w1a w1b b1 w2 b2 w3 b3) := by
  rw [written_block, whole2 V c t w1a h2, whole3 V c t w1b h3, whole4 V c t b1 h4, whole5 V c t w2 h5, whole6 V c t b2 h6, whole7 V c t w3 h7, whole8 V c t b3 h8]
  refine stored_eq (iblk2 V c 0 t) (iblk2 V c 1 t) w1a w1b b1 w2 b2 w3 b3 _ fun p => ?_
  have ht : t.val < 50 := t.isLt
  have hp : t.val * 4000 + p.val < 200000 := by have := p.isLt; omega
  have r0 : (fun l : Fin 128 => iblk2 (F := Ideal) V c 0 t (ix2 p l)) = fun l => xs (ix2 ⟨t.val * 4000 + p.val, hp⟩ l) :=
    funext fun l => rowsRead0 V c t xs h0 p l hp
  have r1 : (fun l : Fin 128 => iblk2 (F := Ideal) V c 1 t (ix2 p l)) = fun l => xt (ix2 ⟨t.val * 4000 + p.val, hp⟩ l) :=
    funext fun l => rowsRead1 V c t xt h1 p l hp
  rw [r0, r1]
  exact ratings_block t p hp xs xt w1a w1b b1 w2 b2 w3 b3

/-- An entry of the output array is in point t's block iff, on each axis, its coordinate is in the block's range. -/
theorem mem_block (t : Fin cfg2.N) (i : S200000x1.Idx) :
    i ∈ ((cfg2.win 9).blk t).view.set ↔ ∀ a : Fin 2, win2_9.index t a * S4000x1.size a ≤ (i a).val ∧ (i a).val < win2_9.index t a * S4000x1.size a + S4000x1.size a := by
  show i ∈ ((View.whole main_v71).slice (win2_9.rect t)).set ↔ _
  rw [View.set_slice_whole, Rect.mem_set_unit]
  exact Iff.rfl

/-- Every entry is in some point's block: row r is in the block of point r / 4000 (fifty blocks of 4000 rows fill 200000 rows). -/
theorem covered (i : S200000x1.Idx) :
    ∃ t : Fin cfg2.N, (cfg2.win 9).flush t = true ∧ i ∈ ((cfg2.win 9).blk t).view.set := by
  have hi0 : (i 0).val < 200000 := (i 0).isLt
  have hi1 : (i 1).val < 1 := (i 1).isLt
  have hq : (i 0).val / 4000 < 50 := by omega
  obtain ⟨-, -, -, -, -, -, -, -, -, -, -, -, -, -, -, e0, e1⟩ := positions ⟨(i 0).val / 4000, hq⟩
  have e0' : win2_9.index ⟨(i 0).val / 4000, hq⟩ (0 : Fin 2) = (i 0).val / 4000 := e0
  refine ⟨⟨(i 0).val / 4000, hq⟩, flush2_9 _, ?_⟩
  rw [mem_block]
  intro a
  match a with
  | ⟨0, _⟩ =>
    show win2_9.index ⟨(i 0).val / 4000, hq⟩ (0 : Fin 2) * 4000 ≤ (i 0).val ∧ (i 0).val < win2_9.index ⟨(i 0).val / 4000, hq⟩ (0 : Fin 2) * 4000 + 4000
    rw [e0']; omega
  | ⟨1, _⟩ =>
    show win2_9.index ⟨(i 0).val / 4000, hq⟩ (1 : Fin 2) * 1 ≤ (i 1).val ∧ (i 1).val < win2_9.index ⟨(i 0).val / 4000, hq⟩ (1 : Fin 2) * 1 + 1
    rw [e1]; omega

/-- The ratings: entry e is the rating of edge e from its two gathered end-point rows. -/
theorem final_r (c : Dev nD)
    (xs xt : Vec Ideal S200000x128 .bf16) (w1a w1b : Vec Ideal S128x128 .bf16) (b1 : Vec Ideal S128 .f32)
    (w2 : Vec Ideal S128x128 .bf16) (b2 : Vec Ideal S128 .f32) (w3 : Vec Ideal S128x1 .bf16) (b3 : Vec Ideal S1 .f32)
    (h0 : V c (Pipeline.arrRef spec2 0) = xs) (h1 : V c (Pipeline.arrRef spec2 1) = xt) (h2 : V c (Pipeline.arrRef spec2 2) = w1a)
    (h3 : V c (Pipeline.arrRef spec2 3) = w1b) (h4 : V c (Pipeline.arrRef spec2 4) = b1) (h5 : V c (Pipeline.arrRef spec2 5) = w2)
    (h6 : V c (Pipeline.arrRef spec2 6) = b2) (h7 : V c (Pipeline.arrRef spec2 7) = w3) (h8 : V c (Pipeline.arrRef spec2 8) = b3) :
    (dat2 (F := Ideal) V c).arrAt 9 cfg2.N = fun i =>
      Cert.Spec.rate (fun l => xs (ix2 (i 0) l)) (fun l => xt (ix2 (i 0) l)) (fun l k => w1a (ix2 l k)) (fun l k => w1b (ix2 l k))
        (fun k => b1 (ix1 k)) (fun l k => w2 (ix2 l k)) (fun k => b2 (ix1 k)) (fun l k => w3 (ix2 l k)) (fun k => b3 (ix1 k)) := by
  exact (dat2 (F := Ideal) V c).arrAt_eq_of_cover 9 (ratings xs xt w1a w1b b1 w2 b2 w3 b3)
    (fun t _ => written_eq V c t xs xt w1a w1b b1 w2 b2 w3 b3 h0 h1 h2 h3 h4 h5 h6 h7 h8) covered

end Cert.KernelIdeal.Region2

end
-- ==== Proof.Words.lean ====
/-
  How the two programs read their integer words.

  An index word against an axis of extent n is first moved up by n when it is negative (the array library's
  reading of a negative index), then read as a signed integer and clamped into [0, n - 1] (the gather's own
  reading). The reference reads the shifted type word (type - 1) that way against the five chunks; the launch
  instead clips the shifted word into [0, 4] and compares it with each candidate. When the type word is one of
  1, …, 5 the two readings name the same chunk.
-/
import Idealize.ShloMosaic.PureOps.Ideal
import Idealize.ShloMosaic.Lib.ValueIdx

noncomputable section

namespace Cert.Spec

open Idealize.ShloMosaic

/-- The array library's reading of a possibly negative index word against an axis of extent n. -/
def wrap (n w : BitVec 32) : BitVec 32 := Scalar.select (IntOp.cmpi .slt w 0#32) (IntOp.addi w n) w

/-- The gather's reading of an index word against an axis of extent N: signed, clamped into [0, N - 1]. -/
def rowIx (N : Nat) (hN : 0 < N) (w : BitVec 32) : Fin N := ⟨min w.toInt.toNat (N - 1), by omega⟩

/-- The launch's clip of the shifted type word into [0, 4]. -/
def clip04 (w : BitVec 32) : BitVec 32 := IntOp.minsi 4#32 (IntOp.maxsi 0#32 (IntOp.subi w 1#32))

/-- The chunk a type word in 1, …, 5 names. -/
def chunkOf (w : BitVec 32) (h : 1 ≤ w.toInt ∧ w.toInt ≤ 5) : Fin 5 := ⟨(w.toInt - 1).toNat, by omega⟩

/-- A type word in 1, …, 5 is one of the five words. -/
theorem word_cases (w : BitVec 32) (h : 1 ≤ w.toInt ∧ w.toInt ≤ 5) :
    w = 1#32 ∨ w = 2#32 ∨ w = 3#32 ∨ w = 4#32 ∨ w = 5#32 := by
  have hc : w.toInt = 1 ∨ w.toInt = 2 ∨ w.toInt = 3 ∨ w.toInt = 4 ∨ w.toInt = 5 := by omega
  rcases hc with h1 | h1 | h1 | h1 | h1
  · exact Or.inl (BitVec.eq_of_toInt_eq (by rw [h1]; decide))
  · exact Or.inr (Or.inl (BitVec.eq_of_toInt_eq (by rw [h1]; decide)))
  · exact Or.inr (Or.inr (Or.inl (BitVec.eq_of_toInt_eq (by rw [h1]; decide))))
  · exact Or.inr (Or.inr (Or.inr (Or.inl (BitVec.eq_of_toInt_eq (by rw [h1]; decide)))))
  · exact Or.inr (Or.inr (Or.inr (Or.inr (BitVec.eq_of_toInt_eq (by rw [h1]; decide)))))

/-- The launch's clipped word is the word of the chunk the type names. -/
theorem clip04_eq (w : BitVec 32) (h : 1 ≤ w.toInt ∧ w.toInt ≤ 5) :
    clip04 w = BitVec.ofNat 32 (chunkOf w h).val := by
  show clip04 w = BitVec.ofNat 32 (w.toInt - 1).toNat
  rcases word_cases w h with rfl | rfl | rfl | rfl | rfl <;> decide

/-- The reference's reading of the shifted type word against the five chunks is the chunk the type names. -/
theorem rowIx_wrap_eq (w : BitVec 32) (h : 1 ≤ w.toInt ∧ w.toInt ≤ 5) :
    rowIx 5 (by decide) (wrap 5#32 (IntOp.subi w 1#32)) = chunkOf w h := by
  apply Fin.ext
  show min (wrap 5#32 (IntOp.subi w 1#32)).toInt.toNat (5 - 1) = (w.toInt - 1).toNat
  rcases word_cases w h with rfl | rfl | rfl | rfl | rfl <;> decide

end Cert.Spec

end
-- ==== Proof.LibGatherRows.lean ====
/-
  Row gathers read at an index.

  A table of N rows and C columns is read through a column of E integer index words: result row e is the
  table's row at the e-th word, the word read as a signed integer and clamped into [0, N - 1]. The same for a
  table of N rows, T chunks and C columns read through E pairs of words: result row e is the table's row at
  the first word of pair e and chunk at the second, each read signed and clamped into its own range. Both
  facts are stated for arbitrary extents, from the dimension numbers alone.
-/
import Idealize.ShloMosaic.PureOps.Ideal
import Idealize.ShloMosaic.Lib.ValueIdx

noncomputable section

namespace Cert.LibRows

open Idealize.ShloMosaic Idealize.ShloMosaic.ValueIdx

/-- A row gather read at (e, j): the table's entry in column j of the row the e-th start index names, that
    index read as a signed integer and clamped into [0, N - 1]. -/
theorem gather_rows {α : Type} {N E C w : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = []) (hsb : d.startIndicesBatchingDims = [])
    (hsim : d.startIndexMap = [0]) (hivd : d.indexVectorDim = 1)
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the row axis: collapsed, so only the clamped start index counts, and the slice there has one row
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (e, j) is read at (e, 0)
      funext b
      apply Fin.ext
      match b with
      | ⟨0, _⟩ => rfl
      | ⟨1, _⟩ => rfl
    · next hn => exact absurd (List.mem_singleton.mpr rfl) hn
  | ⟨1, _⟩ =>
    -- the column axis: no start index, no batching; the offset coordinate is the result's column
    show 0 + 0 + j.val = j.val
    omega

/-- A gather of rows and chunks read at (e, j): the table's entry in column j of the row the first word of
    pair e names and of the chunk its second word names, each word read as a signed integer and clamped into
    its axis. -/
theorem gather_rows_chunks {α : Type} {N T C E w : Nat} (hN : 0 < N) (hT : 0 < T)
    (d : GatherDims ⟨3, ![N, T, C]⟩ ⟨2, ![E, 2]⟩ ⟨2, ![E, C]⟩)
    (hoff : d.offsetDims = [1]) (hcoll : d.collapsedSliceDims = [0, 1]) (hob : d.operandBatchingDims = []) (hsb : d.startIndicesBatchingDims = [])
    (hsim : d.startIndexMap = [0, 1]) (hivd : d.indexVectorDim = 1)
    (x : (⟨3, ![N, T, C]⟩ : Shape).Idx → α) (idx : IVec ⟨2, ![E, 2]⟩ w) (e : Fin E) (j : Fin C) :
    Host.gather d x idx (ix2 e j)
      = x (ix3 ⟨min (idx (ix2 e 0)).toInt.toNat (N - 1), by omega⟩ ⟨min (idx (ix2 e 1)).toInt.toNat (T - 1), by omega⟩ j) := by
  have hsl0 : d.sliceSizes 0 = 1 := d.slice_collapsed 0 (by rw [hcoll]; exact List.mem_cons_self)
  have hsl1 : d.sliceSizes 1 = 1 := d.slice_collapsed 1 (by rw [hcoll]; exact List.mem_cons_of_mem _ List.mem_cons_self)
  obtain ⟨od, cs, ob, sb, sim, ivd, ss, wf⟩ := d
  simp only at hoff hcoll hob hsb hsim hivd hsl0 hsl1
  subst hoff hcoll hob hsb hsim hivd
  unfold Host.gather
  congr 1
  funext a
  apply Fin.ext
  match a with
  | ⟨0, _⟩ =>
    -- the row axis: collapsed; the clamped first word of the pair
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 List.mem_cons_self)]
    simp only [Nat.add_zero]
    unfold GatherDims.start
    split
    · show min (idx _).toInt.toNat (N - ss 0) = _
      rw [hsl0]
      congr 3
      congr 1
      funext b
      apply Fin.ext
      match b with
      | ⟨0, _⟩ => rfl
      | ⟨1, _⟩ => rfl
    · next hn => exact absurd List.mem_cons_self hn
  | ⟨1, _⟩ =>
    -- the chunk axis: collapsed; the clamped second word of the pair
    show GatherDims.start _ _ _ _ + GatherDims.batchCoord _ _ _ + GatherDims.offCoord _ _ _ = min (idx (ix2 e 1)).toInt.toNat (T - 1)
    rw [GatherDims.batchCoord_eq_zero _ _ _ List.not_mem_nil,
        GatherDims.offCoord_eq_zero _ _ _ (fun h => ((GatherDims.mem_sKept _ _).mp h).1 (List.mem_cons_of_mem _ List.mem_cons_self))]
    simp only [Nat.add_zero]
    unfold GatherDims.start
    split
    · show min (idx _).toInt.toNat (T - ss 1) = _
      rw [hsl1]
      congr 3
      congr 1
      funext b
      apply Fin.ext
      match b with
      | ⟨0, _⟩ => rfl
      | ⟨1, _⟩ => rfl
    · next hn => exact absurd (List.mem_cons_of_mem _ List.mem_cons_self) hn
  | ⟨2, _⟩ =>
    -- the column axis: no start index, no batching; the offset coordinate is the result's column
    show 0 + 0 + j.val = j.val
    omega

end Cert.LibRows

end
-- ==== Proof.RefStages.lean ====
/-
  The reference's stages read at an index.

  The reference forms, per convolution, the messages of all edges, their sums and counts per destination node,
  the updated node rows, and from the two updated tables the rating of every edge. Each stage is read here at
  one index as the shared row function of the stage's operands at that row.
-/
import proofs.«409393_j55679956025643_3_alg».proof.Proof.Gen.ReferenceIdeal.Run
import proofs.«409393_j55679956025643_3_alg».proof.Proof.Gen.ReferenceIdeal.Read
import proofs.«409393_j55679956025643_3_alg».proof.Proof.Spec
import proofs.«409393_j55679956025643_3_alg».proof.Proof.Words
import proofs.«409393_j55679956025643_3_alg».proof.Proof.LibGatherRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx

namespace Cert.ReferenceIdeal.RefStages

open Cert.ReferenceIdeal Cert.ReferenceIdeal.Gen Cert.ReferenceIdeal.Read

variable (x0 : (⟨S2x200000, .i32⟩ : BufTy).Contents (Elt Ideal)) (x1 : (⟨S200000, .i32⟩ : BufTy).Contents (Elt Ideal)) (x2 : (⟨S200000x768, .f32⟩ : BufTy).Contents (Elt Ideal))
  (x3 x4 : (⟨S100000x128, .f32⟩ : BufTy).Contents (Elt Ideal))
  (x5 : (⟨S128x640, .f32⟩ : BufTy).Contents (Elt Ideal)) (x6 : (⟨S640, .f32⟩ : BufTy).Contents (Elt Ideal)) (x7 : (⟨S768x640, .f32⟩ : BufTy).Contents (Elt Ideal)) (x8 : (⟨S640, .f32⟩ : BufTy).Contents (Elt Ideal))
  (x9 : (⟨S640x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))
  (x13 : (⟨S128x640, .f32⟩ : BufTy).Contents (Elt Ideal)) (x14 : (⟨S640, .f32⟩ : BufTy).Contents (Elt Ideal)) (x15 : (⟨S768x640, .f32⟩ : BufTy).Contents (Elt Ideal)) (x16 : (⟨S640, .f32⟩ : BufTy).Contents (Elt Ideal))
  (x17 : (⟨S640x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal))
  (x21 : (⟨S256x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal))
  (x25 : (⟨S128x1, .f32⟩ : BufTy).Contents (Elt Ideal)) (x26 : (⟨S1, .f32⟩ : BufTy).Contents (Elt Ideal))

/-- Column 0 of two one-column arrays laid side by side is the first array's column. -/
theorem cat2_col0 {α : Type} (a b : S200000x1.Idx → α) (e : Fin 200000) :
    concatenate S200000x2 1 [⟨S200000x1, a⟩, ⟨S200000x1, b⟩] concatenates_S200000x1_S200000x1_S200000x2_d1 (ix2 e 0)
      = a (ix2 e 0) :=
  concatenate_pair_apply_left (t := S200000x2) (s₁ := S200000x1) (s₂ := S200000x1) 1 a b
    concatenates_S200000x1_S200000x1_S200000x2_d1 (ix2 e 0) rfl (ix2 e 0) (fun c => by
    match c with
    | ⟨0, _⟩ => rfl
    | ⟨1, _⟩ => rfl)

/-- Column 1 of two one-column arrays laid side by side is the second array's column. -/
theorem cat2_col1 {α : Type} (a b : S200000x1.Idx → α) (e : Fin 200000) :
    concatenate S200000x2 1 [⟨S200000x1, a⟩, ⟨S200000x1, b⟩] concatenates_S200000x1_S200000x1_S200000x2_d1 (ix2 e 1)
      = b (ix2 e 0) :=
  concatenate_pair_apply_right (t := S200000x2) (s₁ := S200000x1) (s₂ := S200000x1) 1 a b
    concatenates_S200000x1_S200000x1_S200000x2_d1 (ix2 e 1) rfl rfl (ix2 e 0)
    (fun c hc => by
      match c with
      | ⟨0, _⟩ => rfl
      | ⟨1, _⟩ => exact absurd rfl hc)
    rfl

/-- A column below 128 of two 128-column arrays laid side by side is the first array's column. -/
theorem cat256_left {α : Type} (a b : S200000x128.Idx → α) (e : Fin 200000) (l : Fin 128) :
    concatenate S200000x256 1 [⟨S200000x128, a⟩, ⟨S200000x128, b⟩] concatenates_S200000x128_S200000x128_S200000x256_d1
        (ix2 e (⟨l.val, by omega⟩ : Fin 256))
      = a (ix2 e l) :=
  concatenate_pair_apply_left (t := S200000x256) (s₁ := S200000x128) (s₂ := S200000x128) 1 a b
    concatenates_S200000x128_S200000x128_S200000x256_d1 (ix2 e (⟨l.val, by omega⟩ : Fin 256)) rfl (ix2 e l) (fun c => by
    match c with
    | ⟨0, _⟩ => rfl
    | ⟨1, _⟩ => rfl)

/-- A column from 128 on of two 128-column arrays laid side by side is the second array's column, 128 less. -/
theorem cat256_right {α : Type} (a b : S200000x128.Idx → α) (e : Fin 200000) (l : Fin 128) :
    concatenate S200000x256 1 [⟨S200000x128, a⟩, ⟨S200000x128, b⟩] concatenates_S200000x128_S200000x128_S200000x256_d1
        (ix2 e (⟨128 + l.val, by omega⟩ : Fin 256))
      = b (ix2 e l) :=
  concatenate_pair_apply_right (t := S200000x256) (s₁ := S200000x128) (s₂ := S200000x128) 1 a b
    concatenates_S200000x128_S200000x128_S200000x256_d1 (ix2 e (⟨128 + l.val, by omega⟩ : Fin 256)) rfl rfl (ix2 e l)
    (fun c hc => by
      match c with
      | ⟨0, _⟩ => rfl
      | ⟨1, _⟩ => exact absurd rfl hc)
    (by show l.val + 128 = 128 + l.val; omega)

/-- The word of 1.0 is the extended real one. -/
theorem one_word : Ideal.ofBits .f32 0x3F800000#32 = (1 : EReal) := IdealRules.sign_bit.ideal_onePat .f32

/-- The logistic function written out as 1 / (1 + exp (−x)), with the word of 1.0 for each 1. -/
theorem logistic_spelled (x : EReal) :
    Ideal.div (Ideal.ofBits .f32 0x3F800000#32) (Ideal.ofBits .f32 0x3F800000#32 + Ideal.exp (-x)) = Ideal.logistic x := by
  rw [one_word]; rfl

/-- A sum over 256 positions is the sum over the first 128 plus the sum over the last 128. -/
theorem sum_256_split {M : Type} [AddCommMonoid M] (f : Fin 256 → M) :
    ∑ k : Fin 256, f k = (∑ l : Fin 128, f ⟨l.val, by omega⟩) + ∑ l : Fin 128, f ⟨128 + l.val, by omega⟩ :=
  Fin.sum_univ_add (a := 128) (b := 128) f

/-- The index row 1 read at edge e, moved up by the table's extent where negative. -/
theorem wrapRow_u (e : Fin 200000) :
    val_main_v15 (F := Ideal) x0 (ix1 e) = Cert.Spec.wrap 100000#32 (x0 (ix2 1 e)) := by
  have e1 : idx_main_v2 (idx_main_v3 (ix1 e)) = ix2 1 e := funext fun a => Fin.ext (by
    match a with
    | ⟨0, _⟩ => rfl
    | ⟨1, _⟩ => exact Nat.mod_eq_of_lt e.isLt)
  have h3 : val_main_v3 (F := Ideal) x0 (ix1 e) = x0 (ix2 1 e) := by
    rw [val_main_v3_apply, val_main_v2_apply, e1]
  rw [val_main_v15_apply, val_main_v12_apply, val_main_v14_apply, h3, val_main_v11_apply,
    val_main_v13_apply]
  rfl

/-- The shifted type word at edge e, moved up by five where negative. -/
theorem wrapType_u (e : Fin 200000) :
    val_main_v20 (F := Ideal) x1 (ix1 e) = Cert.Spec.wrap 5#32 (IntOp.subi (x1 (ix1 e)) 1#32) := by
  rw [val_main_v20_apply, val_main_v17_apply, val_main_v19_apply, val_main_v10_apply,
    val_main_v9_apply, val_main_v16_apply, val_main_v18_apply]
  rfl

/-- The first of the pair of index words of edge e is the wrapped index-row word. -/
theorem pair0_u (e : Fin 200000) :
    val_main_v23 (F := Ideal) x0 x1 (ix2 e 0) = Cert.Spec.wrap 100000#32 (x0 (ix2 1 e)) := by
  have e1 : idx_main_v21 (ix2 e 0) = ix1 e := funext fun a => Fin.ext (by
    match a with
    | ⟨0, _⟩ => rfl)
  unfold val_main_v23
  rw [cat2_col0, val_main_v21_apply, e1, wrapRow_u]

/-- The second of the pair is the wrapped shifted type word. -/
theorem pair1_u (e : Fin 200000) :
    val_main_v23 (F := Ideal) x0 x1 (ix2 e 1) = Cert.Spec.wrap 5#32 (IntOp.subi (x1 (ix1 e)) 1#32) := by
  have e1 : idx_main_v22 (ix2 e 0) = ix1 e := funext fun a => Fin.ext (by
    match a with
    | ⟨0, _⟩ => rfl)
  unfold val_main_v23
  rw [cat2_col1, val_main_v22_apply, e1, wrapType_u]

/-- Row n, column c of the 640-wide linear image of the embedding table. -/
theorem image_u (n : Fin 100000) (c : Fin 640) :
    val_main_v7 (F := Ideal) x4 x5 x6 (ix2 n c)
      = Cert.Spec.lin (fun k => x4 (ix2 n k)) (fun k c => x5 (ix2 k c)) (fun c => x6 (ix1 c)) c := by
  have e1 : ∀ k : Fin 128, lidx_main_v4 (ix2 n c) k = ix2 n k := fun k => funext fun a => Fin.ext (by
    match a with
    | ⟨0, _⟩ => rfl
    | ⟨1, _⟩ => rfl)
  have e2 : ∀ k : Fin 128, ridx_main_v4 (ix2 n c) k = ix2 k c := fun k => funext fun a => Fin.ext (by
    match a with
    | ⟨0, _⟩ => rfl
    | ⟨1, _⟩ => rfl)
  have e3 : idx_main_v5 (idx_main_v6 (ix2 n c)) = ix1 c := funext fun a => Fin.ext (by
    match a with
    | ⟨0, _⟩ => rfl)
  rw [val_main_v7_apply, val_main_v4_apply, val_main_v6_apply, val_main_v5_apply, e3]
  simp only [e1, e2]
  rfl

/-- Row n, chunk t, column j of the image cut into five chunks is the image's column 128·t + j. -/
theorem chunks_u (n : Fin 100000) (t : Fin 5) (j : Fin 128) :
    val_main_v8 (F := Ideal) x4 x5 x6 (ix3 n t j)
      = Cert.Spec.lin (fun k => x4 (ix2 n k)) (fun k c => x5 (ix2 k c)) (fun c => x6 (ix1 c))
          (Cert.Spec.chunkPos t j) := by
  have e0 : idx_main_v8 (ix3 n t j) = ix2 n (Cert.Spec.chunkPos t j) := funext fun a => Fin.ext (by
    have hn := n.isLt
    have ht := t.isLt
    have hj := j.isLt
    match a with
    | ⟨0, _⟩ => show ((n.val * 5 + t.val) * 128 + j.val) / 640 = n.val; omega
    | ⟨1, _⟩ => show ((n.val * 5 + t.val) * 128 + j.val) % 640 = 128 * t.val + j.val; omega)
  rw [val_main_v8_apply, e0, image_u]

/-- The perceptron's hidden row of edge e, rectified. -/
theorem hidden_u (e : Fin 200000) (k : Fin 640) :
    val_main_v29 (F := Ideal) x2 x7 x8 (ix2 e k)
      = max (Cert.Spec.lin (fun l => x2 (ix2 e l)) (fun l k => x7 (ix2 l k)) (fun k => x8 (ix1 k)) k) Cert.Spec.z := by
  have e1 : ∀ l : Fin 768, lidx_main_v25 (ix2 e k) l = ix2 e l := fun l => funext fun a => Fin.ext (by
    match a with
    | ⟨0, _⟩ => rfl
    | ⟨1, _⟩ => rfl)
  have e2 : ∀ l : Fin 768, ridx_main_v25 (ix2 e k) l = ix2 l k := fun l => funext fun a => Fin.ext (by
    match a with
    | ⟨0, _⟩ => rfl
    | ⟨1, _⟩ => rfl)
  have e3 : idx_main_v26 (idx_main_v27 (ix2 e k)) = ix1 k := funext fun a => Fin.ext (by
    match a with
    | ⟨0, _⟩ => rfl)
  rw [val_main_v29_apply, val_main_v28_apply, val_main_v25_apply, val_main_v27_apply, val_main_v26_apply, e3,
    val_main_call0_v0_apply, val_main_call0_cst_apply]
  simp only [e1, e2]
  rfl

/-- The two-layer rectified perceptron of edge e's feature row. -/
theorem mlp_u (e : Fin 200000) (j : Fin 128) :
    val_main_v34 (F := Ideal) x2 x7 x8 x9 x10 (ix2 e j)
      = Cert.Spec.edgeMlp (fun l => x2 (ix2 e l)) (fun l k => x7 (ix2 l k)) (fun k => x8 (ix1 k))
          (fun k j' => x9 (ix2 k j')) (fun j' => x10 (ix1 j')) j := by
  have e1 : ∀ k : Fin 640, lidx_main_v30 (ix2 e j) k = ix2 e k := fun k => funext fun a => Fin.ext (by
    match a with
    | ⟨0, _⟩ => rfl
    | ⟨1, _⟩ => rfl)
  have e2 : ∀ k : Fin 640, ridx_main_v30 (ix2 e j) k = ix2 k j := fun k => funext fun a => Fin.ext (by
    match a with
    | ⟨0, _⟩ => rfl
    | ⟨1, _⟩ => rfl)
  have e3 : idx_main_v31 (idx_main_v32 (ix2 e j)) = ix1 j := funext fun a => Fin.ext (by
    match a with
    | ⟨0, _⟩ => rfl)
  rw [val_main_v34_apply, val_main_v33_apply, val_main_v30_apply, val_main_v32_apply, val_main_v31_apply, e3,
    val_main_call1_v0_apply, val_main_call1_cst_apply]
  simp only [e1, e2, hidden_u]
  rfl

/-- The gathered chunk of edge e: the image's row and chunk the pair of wrapped words names, each clamped. -/
theorem gathered_u (e : Fin 200000) (j : Fin 128) :
    val_main_v24 (F := Ideal) x0 x1 x4 x5 x6 (ix2 e j)
      = Cert.Spec.lin
          (fun k => x4 (ix2 (Cert.Spec.rowIx 100000 (by decide) (Cert.Spec.wrap 100000#32 (x0 (ix2 1 e)))) k))
          (fun k c => x5 (ix2 k c)) (fun c => x6 (ix1 c))
          (Cert.Spec.chunkPos (Cert.Spec.rowIx 5 (by decide) (Cert.Spec.wrap 5#32 (IntOp.subi (x1 (ix1 e)) 1#32))) j) := by
  refine (Cert.LibRows.gather_rows_chunks (N := 100000) (T := 5) (C := 128) (E := 200000) (by decide) (by decide)
    gather_S100000x5x128_S200000x2_S200000x128_1_01_n_n_01_1_11128 rfl rfl rfl rfl rfl rfl
    (val_main_v8 (F := Ideal) x4 x5 x6) (val_main_v23 (F := Ideal) x0 x1) e j).trans ?_
  simp only [pair0_u, pair1_u]
  rw [chunks_u]
  rfl

/-- The index row 0 read at edge e, moved up by the table's extent where negative. -/
theorem wrapRow_i (e : Fin 200000) :
    val_main_v65 (F := Ideal) x0 (ix1 e) = Cert.Spec.wrap 100000#32 (x0 (ix2 0 e)) := by
  have e1 : idx_main_v0 (idx_main_v1 (ix1 e)) = ix2 0 e := funext fun a => Fin.ext (by
    match a with
    | ⟨0, _⟩ => rfl
    | ⟨1, _⟩ => exact Nat.mod_eq_of_lt e.isLt)
  have h3 : val_main_v1 (F := Ideal) x0 (ix1 e) = x0 (ix2 0 e) := by
    rw [val_main_v1_apply, val_main_v0_apply, e1]
  rw [val_main_v65_apply, val_main_v62_apply, val_main_v64_apply, h3, val_main_v61_apply,
    val_main_v63_apply]
  rfl

/-- The shifted type word at edge e, moved up by five where negative. -/
theorem wrapType_i (e : Fin 200000) :
    val_main_v70 (F := Ideal) x1 (ix1 e) = Cert.Spec.wrap 5#32 (IntOp.subi (x1 (ix1 e)) 1#32) := by
  rw [val_main_v70_apply, val_main_v67_apply, val_main_v69_apply, val_main_v60_apply,
    val_main_v59_apply, val_main_v66_apply, val_main_v68_apply]
  rfl

/-- The first of the pair of index words of edge e is the wrapped index-row word. -/
theorem pair0_i (e : Fin 200000) :
    val_main_v73 (F := Ideal) x0 x1 (ix2 e 0) = Cert.Spec.wrap 100000#32 (x0 (ix2 0 e)) := by
  have e1 : idx_main_v71 (ix2 e 0) = ix1 e := funext fun a => Fin.ext (by
    match a with
    | ⟨0, _⟩ => rfl)
  unfold val_main_v73
  rw [cat2_col0, val_main_v71_apply, e1, wrapRow_i]

/-- The second of the pair is the wrapped shifted type word. -/
theorem pair1_i (e : Fin 200000) :
    val_main_v73 (F := Ideal) x0 x1 (ix2 e 1) = Cert.Spec.wrap 5#32 (IntOp.subi (x1 (ix1 e)) 1#32) := by
  have e1 : idx_main_v72 (ix2 e 0) = ix1 e := funext fun a => Fin.ext (by
    match a with
    | ⟨0, _⟩ => rfl)
  unfold val_main_v73
  rw [cat2_col1, val_main_v72_apply, e1, wrapType_i]

/-- Row n, column c of the 640-wide linear image of the embedding table. -/
theorem image_i (n : Fin 100000) (c : Fin 640) :
    val_main_v57 (F := Ideal) x3 x13 x14 (ix2 n c)
      = Cert.Spec.lin (fun k => x3 (ix2 n k)) (fun k c => x13 (ix2 k c)) (fun c => x14 (ix1 c)) c := by
  have e1 : ∀ k : Fin 128, lidx_main_v54 (ix2 n c) k = ix2 n k := fun k => funext fun a => Fin.ext (by
    match a with
    | ⟨0, _⟩ => rfl
    | ⟨1, _⟩ => rfl)
  have e2 : ∀ k : Fin 128, ridx_main_v54 (ix2 n c) k = ix2 k c := fun k => funext fun a => Fin.ext (by
    match a with
    | ⟨0, _⟩ => rfl
    | ⟨1, _⟩ => rfl)
  have e3 : idx_main_v55 (idx_main_v56 (ix2 n c)) = ix1 c := funext fun a => Fin.ext (by
    match a with
    | ⟨0, _⟩ => rfl)
  rw [val_main_v57_apply, val_main_v54_apply, val_main_v56_apply, val_main_v55_apply, e3]
  simp only [e1, e2]
  rfl

/-- Row n, chunk t, column j of the image cut into five chunks is the image's column 128·t + j. -/
theorem chunks_i (n : Fin 100000) (t : Fin 5) (j : Fin 128) :
    val_main_v58 (F := Ideal) x3 x13 x14 (ix3 n t j)
      = Cert.Spec.lin (fun k => x3 (ix2 n k)) (fun k c => x13 (ix2 k c)) (fun c => x14 (ix1 c))
          (Cert.Spec.chunkPos t j) := by
  have e0 : idx_main_v58 (ix3 n t j) = ix2 n (Cert.Spec.chunkPos t j) := funext fun a => Fin.ext (by
    have hn := n.isLt
    have ht := t.isLt
    have hj := j.isLt
    match a with
    | ⟨0, _⟩ => show ((n.val * 5 + t.val) * 128 + j.val) / 640 = n.val; omega
    | ⟨1, _⟩ => show ((n.val * 5 + t.val) * 128 + j.val) % 640 = 128 * t.val + j.val; omega)
  rw [val_main_v58_apply, e0, image_i]

/-- The perceptron's hidden row of edge e, rectified. -/
theorem hidden_i (e : Fin 200000) (k : Fin 640) :
    val_main_v79 (F := Ideal) x2 x15 x16 (ix2 e k)
      = max (Cert.Spec.lin (fun l => x2 (ix2 e l)) (fun l k => x15 (ix2 l k)) (fun k => x16 (ix1 k)) k) Cert.Spec.z := by
  have e1 : ∀ l : Fin 768, lidx_main_v75 (ix2 e k) l = ix2 e l := fun l => funext fun a => Fin.ext (by
    match a with
    | ⟨0, _⟩ => rfl
    | ⟨1, _⟩ => rfl)
  have e2 : ∀ l : Fin 768, ridx_main_v75 (ix2 e k) l = ix2 l k := fun l => funext fun a => Fin.ext (by
    match a with
    | ⟨0, _⟩ => rfl
    | ⟨1, _⟩ => rfl)
  have e3 : idx_main_v76 (idx_main_v77 (ix2 e k)) = ix1 k := funext fun a => Fin.ext (by
    match a with
    | ⟨0, _⟩ => rfl)
  rw [val_main_v79_apply, val_main_v78_apply, val_main_v75_apply, val_main_v77_apply, val_main_v76_apply, e3,
    val_main_call3_v0_apply, val_main_call3_cst_apply]
  simp only [e1, e2]
  rfl

/-- The two-layer rectified perceptron of edge e's feature row. -/
theorem mlp_i (e : Fin 200000) (j : Fin 128) :
    val_main_v84 (F := Ideal) x2 x15 x16 x17 x18 (ix2 e j)
      = Cert.Spec.edgeMlp (fun l => x2 (ix2 e l)) (fun l k => x15 (ix2 l k)) (fun k => x16 (ix1 k))
          (fun k j' => x17 (ix2 k j')) (fun j' => x18 (ix1 j')) j := by
  have e1 : ∀ k : Fin 640, lidx_main_v80 (ix2 e j) k = ix2 e k := fun k => funext fun a => Fin.ext (by
    match a with
    | ⟨0, _⟩ => rfl
    | ⟨1, _⟩ => rfl)
  have e2 : ∀ k : Fin 640, ridx_main_v80 (ix2 e j) k = ix2 k j := fun k => funext fun a => Fin.ext (by
    match a with
    | ⟨0, _⟩ => rfl
    | ⟨1, _⟩ => rfl)
  have e3 : idx_main_v81 (idx_main_v82 (ix2 e j)) = ix1 j := funext fun a => Fin.ext (by
    match a with
    | ⟨0, _⟩ => rfl)
  rw [val_main_v84_apply, val_main_v83_apply, val_main_v80_apply, val_main_v82_apply, val_main_v81_apply, e3,
    val_main_call4_v0_apply, val_main_call4_cst_apply]
  simp only [e1, e2, hidden_i]
  rfl

/-- The gathered chunk of edge e: the image's row and chunk the pair of wrapped words names, each clamped. -/
theorem gathered_i (e : Fin 200000) (j : Fin 128) :
    val_main_v74 (F := Ideal) x0 x1 x3 x13 x14 (ix2 e j)
      = Cert.Spec.lin
          (fun k => x3 (ix2 (Cert.Spec.rowIx 100000 (by decide) (Cert.Spec.wrap 100000#32 (x0 (ix2 0 e)))) k))
          (fun k c => x13 (ix2 k c)) (fun c => x14 (ix1 c))
          (Cert.Spec.chunkPos (Cert.Spec.rowIx 5 (by decide) (Cert.Spec.wrap 5#32 (IntOp.subi (x1 (ix1 e)) 1#32))) j) := by
  refine (Cert.LibRows.gather_rows_chunks (N := 100000) (T := 5) (C := 128) (E := 200000) (by decide) (by decide)
    gather_S100000x5x128_S200000x2_S200000x128_1_01_n_n_01_1_11128 rfl rfl rfl rfl rfl rfl
    (val_main_v58 (F := Ideal) x3 x13 x14) (val_main_v73 (F := Ideal) x0 x1) e j).trans ?_
  simp only [pair0_i, pair1_i]
  rw [chunks_i]
  rfl

/-- The first rating layer of edge e: the 256-wide product splits into the two end-point rows' halves. -/
theorem layer1 (e : Fin 200000) (k : Fin 128) :
    val_main_v123 (F := Ideal) x0 x1 x2 x3 x4 x5 x6 x7 x8 x9 x10 x11 x12 x13 x14 x15 x16 x17 x18 x19 x20 x21 x22 (ix2 e k)
      = Cert.Spec.rate1
          (fun l => val_main_v110 (F := Ideal) x0 x1 x2 x3 x4 x5 x6 x7 x8 x9 x10 x11 x12 (ix2 e l))
          (fun l => val_main_v117 (F := Ideal) x0 x1 x2 x3 x4 x13 x14 x15 x16 x17 x18 x19 x20 (ix2 e l))
          (fun l k => x21 (ix2 (⟨l.val, by omega⟩ : Fin 256) k)) (fun l k => x21 (ix2 (⟨128 + l.val, by omega⟩ : Fin 256) k))
          (fun k => x22 (ix1 k)) k := by
  have e1 : ∀ m : Fin 256, lidx_main_v119 (ix2 e k) m = ix2 e m := fun m => funext fun a => Fin.ext (by
    match a with
    | ⟨0, _⟩ => rfl
    | ⟨1, _⟩ => rfl)
  have e2 : ∀ m : Fin 256, ridx_main_v119 (ix2 e k) m = ix2 m k := fun m => funext fun a => Fin.ext (by
    match a with
    | ⟨0, _⟩ => rfl
    | ⟨1, _⟩ => rfl)
  have e3 : idx_main_v120 (idx_main_v121 (ix2 e k)) = ix1 k := funext fun a => Fin.ext (by
    match a with
    | ⟨0, _⟩ => rfl)
  rw [val_main_v123_apply, val_main_v122_apply, val_main_v119_apply, val_main_v121_apply, val_main_v120_apply, e3,
    val_main_call6_v0_apply, val_main_call6_cst_apply]
  simp only [e1, e2]
  rw [sum_256_split]
  unfold val_main_v118
  simp only [cat256_left, cat256_right]
  rfl

/-- The second rating layer of edge e, rectified. -/
theorem layer2 (e : Fin 200000) (k : Fin 128) :
    val_main_v128 (F := Ideal) x0 x1 x2 x3 x4 x5 x6 x7 x8 x9 x10 x11 x12 x13 x14 x15 x16 x17 x18 x19 x20 x21 x22 x23 x24 (ix2 e k)
      = max (Cert.Spec.lin (Cert.Spec.rate1
          (fun l => val_main_v110 (F := Ideal) x0 x1 x2 x3 x4 x5 x6 x7 x8 x9 x10 x11 x12 (ix2 e l))
          (fun l => val_main_v117 (F := Ideal) x0 x1 x2 x3 x4 x13 x14 x15 x16 x17 x18 x19 x20 (ix2 e l))
          (fun l k => x21 (ix2 (⟨l.val, by omega⟩ : Fin 256) k)) (fun l k => x21 (ix2 (⟨128 + l.val, by omega⟩ : Fin 256) k))
          (fun k => x22 (ix1 k))) (fun l k => x23 (ix2 l k)) (fun k => x24 (ix1 k)) k) Cert.Spec.z := by
  have e1 : ∀ l : Fin 128, lidx_main_v124 (ix2 e k) l = ix2 e l := fun l => funext fun a => Fin.ext (by
    match a with
    | ⟨0, _⟩ => rfl
    | ⟨1, _⟩ => rfl)
  have e2 : ∀ l : Fin 128, ridx_main_v124 (ix2 e k) l = ix2 l k := fun l => funext fun a => Fin.ext (by
    match a with
    | ⟨0, _⟩ => rfl
    | ⟨1, _⟩ => rfl)
  have e3 : idx_main_v125 (idx_main_v126 (ix2 e k)) = ix1 k := funext fun a => Fin.ext (by
    match a with
    | ⟨0, _⟩ => rfl)
  rw [val_main_v128_apply, val_main_v127_apply, val_main_v124_apply, val_main_v126_apply, val_main_v125_apply, e3,
    val_main_call7_v0_apply, val_main_call7_cst_apply]
  simp only [e1, e2, layer1]
  rfl

/-- The third rating layer of edge e: the one number the logistic function is applied to. -/
theorem layer3 (e : Fin 200000) :
    val_main_v132 (F := Ideal) x0 x1 x2 x3 x4 x5 x6 x7 x8 x9 x10 x11 x12 x13 x14 x15 x16 x17 x18 x19 x20 x21 x22 x23 x24 x25 x26 (ix2 e 0)
      = Cert.Spec.lin (fun k => max (Cert.Spec.lin (Cert.Spec.rate1
          (fun l => val_main_v110 (F := Ideal) x0 x1 x2 x3 x4 x5 x6 x7 x8 x9 x10 x11 x12 (ix2 e l))
          (fun l => val_main_v117 (F := Ideal) x0 x1 x2 x3 x4 x13 x14 x15 x16 x17 x18 x19 x20 (ix2 e l))
          (fun l k => x21 (ix2 (⟨l.val, by omega⟩ : Fin 256) k)) (fun l k => x21 (ix2 (⟨128 + l.val, by omega⟩ : Fin 256) k))
          (fun k => x22 (ix1 k))) (fun l k => x23 (ix2 l k)) (fun k => x24 (ix1 k)) k) Cert.Spec.z)
          (fun l k => x25 (ix2 l k)) (fun k => x26 (ix1 k)) 0 := by
  have e1 : ∀ l : Fin 128, lidx_main_v129 (ix2 e 0) l = ix2 e l := fun l => funext fun a => Fin.ext (by
    match a with
    | ⟨0, _⟩ => rfl
    | ⟨1, _⟩ => rfl)
  have e2 : ∀ l : Fin 128, ridx_main_v129 (ix2 e 0) l = ix2 l 0 := fun l => funext fun a => Fin.ext (by
    match a with
    | ⟨0, _⟩ => rfl
    | ⟨1, _⟩ => rfl)
  have e3 : idx_main_v130 (idx_main_v131 (ix2 e 0)) = ix1 0 := funext fun a => Fin.ext (by
    match a with
    | ⟨0, _⟩ => rfl)
  rw [val_main_v132_apply, val_main_v129_apply, val_main_v131_apply, val_main_v130_apply, e3]
  simp only [e1, e2, layer2]
  rfl

/-- The user-side message of edge e: its source row is the item row the SECOND index row names, its chunk the
    one the shifted type word names, both read as the gather reads them. -/
theorem msg_u (e : Fin 200000) (j : Fin 128) :
    val_main_v35 (F := Ideal) x0 x1 x2 x4 x5 x6 x7 x8 x9 x10 (ix2 e j)
      = Cert.Spec.msgChunk (fun l => x2 (ix2 e l))
          (fun k => x4 (ix2 (Cert.Spec.rowIx 100000 (by decide) (Cert.Spec.wrap 100000#32 (x0 (ix2 1 e)))) k))
          (Cert.Spec.rowIx 5 (by decide) (Cert.Spec.wrap 5#32 (IntOp.subi (x1 (ix1 e)) 1#32)))
          (fun k c => x5 (ix2 k c)) (fun c => x6 (ix1 c)) (fun l k => x7 (ix2 l k)) (fun k => x8 (ix1 k))
          (fun k j' => x9 (ix2 k j')) (fun j' => x10 (ix1 j')) j := by
  rw [val_main_v35_apply, gathered_u, mlp_u]
  rfl

/-- The item-side message of edge e: its source row is the user row the FIRST index row names. -/
theorem msg_i (e : Fin 200000) (j : Fin 128) :
    val_main_v85 (F := Ideal) x0 x1 x2 x3 x13 x14 x15 x16 x17 x18 (ix2 e j)
      = Cert.Spec.msgChunk (fun l => x2 (ix2 e l))
          (fun k => x3 (ix2 (Cert.Spec.rowIx 100000 (by decide) (Cert.Spec.wrap 100000#32 (x0 (ix2 0 e)))) k))
          (Cert.Spec.rowIx 5 (by decide) (Cert.Spec.wrap 5#32 (IntOp.subi (x1 (ix1 e)) 1#32)))
          (fun k c => x13 (ix2 k c)) (fun c => x14 (ix1 c)) (fun l k => x15 (ix2 l k)) (fun k => x16 (ix1 k))
          (fun k j' => x17 (ix2 k j')) (fun j' => x18 (ix1 j')) j := by
  rw [val_main_v85_apply, gathered_i, mlp_i]
  rfl

/-- The updated user row n, from its embedding row, the summed user-side messages and their count. -/
theorem upd_s (n : Fin 100000) (j : Fin 128) :
    val_main_v53 (F := Ideal) x0 x1 x2 x3 x4 x5 x6 x7 x8 x9 x10 x11 x12 (ix2 n j)
      = Cert.Spec.upd (fun k => x3 (ix2 n k)) (fun k j' => x11 (ix2 k j')) (fun j' => x12 (ix1 j'))
          (fun j' => val_main_v38 (F := Ideal) x0 x1 x2 x4 x5 x6 x7 x8 x9 x10 (ix2 n j'))
          (val_main_v42 (F := Ideal) x0 (ix1 n)) j := by
  have e1 : ∀ k : Fin 128, lidx_main_v48 (ix2 n j) k = ix2 n k := fun k => funext fun a => Fin.ext (by
    match a with
    | ⟨0, _⟩ => rfl
    | ⟨1, _⟩ => rfl)
  have e2 : ∀ k : Fin 128, ridx_main_v48 (ix2 n j) k = ix2 k j := fun k => funext fun a => Fin.ext (by
    match a with
    | ⟨0, _⟩ => rfl
    | ⟨1, _⟩ => rfl)
  have e3 : idx_main_v49 (idx_main_v50 (ix2 n j)) = ix1 j := funext fun a => Fin.ext (by
    match a with
    | ⟨0, _⟩ => rfl)
  have e4 : idx_main_v45 (idx_main_v46 (ix2 n j)) = ix1 n := funext fun a => Fin.ext (by
    match a with
    | ⟨0, _⟩ => rfl)
  rw [val_main_v53_apply, val_main_v52_apply, val_main_v51_apply, val_main_v48_apply, val_main_v50_apply, val_main_v49_apply, e3,
    val_main_v47_apply, val_main_v46_apply, val_main_v45_apply, e4, val_main_v44_apply, val_main_v43_apply, val_main_cst_6_apply,
    val_main_call2_v0_apply, val_main_call2_cst_apply]
  simp only [e1, e2]
  rfl

/-- The updated item row n. -/
theorem upd_t (n : Fin 100000) (j : Fin 128) :
    val_main_v103 (F := Ideal) x0 x1 x2 x3 x4 x13 x14 x15 x16 x17 x18 x19 x20 (ix2 n j)
      = Cert.Spec.upd (fun k => x4 (ix2 n k)) (fun k j' => x19 (ix2 k j')) (fun j' => x20 (ix1 j'))
          (fun j' => val_main_v88 (F := Ideal) x0 x1 x2 x3 x13 x14 x15 x16 x17 x18 (ix2 n j'))
          (val_main_v92 (F := Ideal) x0 (ix1 n)) j := by
  have e1 : ∀ k : Fin 128, lidx_main_v98 (ix2 n j) k = ix2 n k := fun k => funext fun a => Fin.ext (by
    match a with
    | ⟨0, _⟩ => rfl
    | ⟨1, _⟩ => rfl)
  have e2 : ∀ k : Fin 128, ridx_main_v98 (ix2 n j) k = ix2 k j := fun k => funext fun a => Fin.ext (by
    match a with
    | ⟨0, _⟩ => rfl
    | ⟨1, _⟩ => rfl)
  have e3 : idx_main_v99 (idx_main_v100 (ix2 n j)) = ix1 j := funext fun a => Fin.ext (by
    match a with
    | ⟨0, _⟩ => rfl)
  have e4 : idx_main_v95 (idx_main_v96 (ix2 n j)) = ix1 n := funext fun a => Fin.ext (by
    match a with
    | ⟨0, _⟩ => rfl)
  rw [val_main_v103_apply, val_main_v102_apply, val_main_v101_apply, val_main_v98_apply, val_main_v100_apply, val_main_v99_apply, e3,
    val_main_v97_apply, val_main_v96_apply, val_main_v95_apply, e4, val_main_v94_apply, val_main_v93_apply, val_main_cst_15_apply,
    val_main_call5_v0_apply, val_main_call5_cst_apply]
  simp only [e1, e2]
  rfl

/-- The rating of edge e, from its two gathered end-point rows; the first layer's 256-wide product is the sum
    of the two 128-wide halves. -/
theorem rate_r (e : Fin 200000) :
    val_main_v142 (F := Ideal) x0 x1 x2 x3 x4 x5 x6 x7 x8 x9 x10 x11 x12 x13 x14 x15 x16 x17 x18 x19 x20 x21 x22 x23 x24 x25 x26 (ix2 e 0)
      = Cert.Spec.rate
          (fun l => val_main_v110 (F := Ideal) x0 x1 x2 x3 x4 x5 x6 x7 x8 x9 x10 x11 x12 (ix2 e l))
          (fun l => val_main_v117 (F := Ideal) x0 x1 x2 x3 x4 x13 x14 x15 x16 x17 x18 x19 x20 (ix2 e l))
          (fun l k => x21 (ix2 (⟨l.val, by omega⟩ : Fin 256) k)) (fun l k => x21 (ix2 (⟨128 + l.val, by omega⟩ : Fin 256) k))
          (fun k => x22 (ix1 k)) (fun l k => x23 (ix2 l k)) (fun k => x24 (ix1 k))
          (fun l k => x25 (ix2 l k)) (fun k => x26 (ix1 k)) := by
  rw [val_main_v142_apply, val_main_v140_apply, val_main_v138_apply, val_main_v136_apply, val_main_v134_apply, val_main_v133_apply,
    layer3, val_main_v141_apply, val_main_cst_23_apply, val_main_v139_apply, val_main_cst_22_apply, val_main_v137_apply,
    val_main_cst_21_apply, val_main_v135_apply, val_main_cst_20_apply]
  exact congrArg (fun y => y * Cert.Spec.four + Cert.Spec.one) (logistic_spelled _)

end Cert.ReferenceIdeal.RefStages

end
-- ==== Proof.Chunks.lean ====
/-
  The sum of the five masked chunks is the selected chunk.

  When the clipped type word is one of 0, …, 4, exactly one of the five masks is 1 and the other four are 0;
  a product with 0 vanishes and a sum with 0 is the other summand over the extended reals (no finiteness is
  needed for either), so the masked sum collapses to the one chunk the word selects.
-/
import proofs.«409393_j55679956025643_3_alg».proof.Proof.Spec

noncomputable section

namespace Cert.Spec

open Idealize.ShloMosaic

/-- The mask of candidate b at the word of a, for a and b among 0, …, 4: 1 on the diagonal, 0 off it. -/
theorem mask_val (a b : Fin 5) :
    mask (BitVec.ofNat 32 a.val) (BitVec.ofNat 32 b.val) = if a = b then (1 : EReal) else 0 := by
  have h : ∀ a b : Fin 5, ((IntOp.cmpi .eq (BitVec.ofNat 32 a.val) (BitVec.ofNat 32 b.val)).setWidth 32).toInt
      = if a = b then 1 else 0 := by decide
  have e : ∀ v : BitVec 32, FloatOps.sitofp (F := Ideal) .f32 v = ((v.toInt : ℝ) : EReal) := fun _ => rfl
  rw [mask, e, h a b]
  split <;> simp

/-- The five masked chunks at the word of t sum to chunk t. -/
theorem maskedChunks_eq (t : Fin 5) (y : Fin 640 → EReal) (j : Fin 128) :
    maskedChunks (BitVec.ofNat 32 t.val) y j = y (chunkPos t j) := by
  have hz : z = 0 := Ideal.ofBits_zero_f32
  have m0 : mask (BitVec.ofNat 32 t.val) 0#32 = if t = 0 then (1 : EReal) else 0 := mask_val t 0
  have m1 : mask (BitVec.ofNat 32 t.val) 1#32 = if t = 1 then (1 : EReal) else 0 := mask_val t 1
  have m2 : mask (BitVec.ofNat 32 t.val) 2#32 = if t = 2 then (1 : EReal) else 0 := mask_val t 2
  have m3 : mask (BitVec.ofNat 32 t.val) 3#32 = if t = 3 then (1 : EReal) else 0 := mask_val t 3
  have m4 : mask (BitVec.ofNat 32 t.val) 4#32 = if t = 4 then (1 : EReal) else 0 := mask_val t 4
  unfold maskedChunks
  rw [m0, m1, m2, m3, m4, hz]
  fin_cases t <;> simp

end Cert.Spec

end
-- ==== Proof.Bridge.lean ====
/-
  The kernel's result and the reference's are one function of the arguments.

  From the top: an edge's rating is the same three-layer function of its two gathered end-point rows in both
  programs, so it is enough that the gathered rows agree; a gather through the same wrapped index column reads
  the same row of each table, so it is enough that the two tables of updated node rows agree entry by entry; an
  updated row is the same function of the node's embedding row, its summed messages and its count, the counts are
  the same scatter of ones, and the sums are the same scatter applied to the two message arrays, so it is enough
  that the message arrays agree entry by entry. There the precondition enters: with the type word one of
  1, …, 5 the kernel's clipped word is the word of a chunk number t below 5, its five masks at that word are 1
  at t and 0 elsewhere, its masked sum is chunk t of the source row's linear image, and t is the chunk the
  reference's wrapped and clamped word names; the source rows agree because a row gather commutes with a linear
  map applied row by row.
-/
import proofs.«409393_j55679956025643_3_alg».proof.Proof.HostK
import proofs.«409393_j55679956025643_3_alg».proof.Proof.Region0
import proofs.«409393_j55679956025643_3_alg».proof.Proof.Region1
import proofs.«409393_j55679956025643_3_alg».proof.Proof.Region2
import proofs.«409393_j55679956025643_3_alg».proof.Proof.RefStages
import proofs.«409393_j55679956025643_3_alg».proof.Proof.Chunks
import proofs.«409393_j55679956025643_3_alg».proof.Proof.Words
import proofs.«409393_j55679956025643_3_alg».proof.Proof.LibGatherRows
import proofs.«409393_j55679956025643_3_alg».proof.Proof.LibLayout

set_option maxRecDepth 16384

noncomputable section

open scoped BigOperators
open Idealize.ShloMosaic Idealize.ShloMosaic.TcCoe Idealize.ShloMosaic.ValueIdx Idealize.ShloMosaic.StableHlo

namespace Cert.Bridge

open Cert.KernelIdeal Cert.KernelIdeal.Gen Cert.KernelIdeal.HostK
open Cert.ReferenceIdeal.Read

/-- An accumulating scatter depends only on its four operands. -/
theorem scatterAdd_congr {s si u : Shape} {φ : FTy} {w : Nat} (d d' : ScatterDims s si u) (hd : d = d')
    (x x' : FVec Ideal s φ) (hx : x = x') (i i' : IVec si w) (hi : i = i') (y y' : FVec Ideal u φ) (hy : y = y') :
    Host.scatterAdd d x i y = Host.scatterAdd d' x' i' y' := by
  subst hd hx hi hy; rfl

/-- Rows of a 100000-row table gathered through a wrapped index column, read at (e, k): the table's row at the
    wrapped word of e, read signed and clamped. -/
theorem gathered_apply {α : Type} (tbl : S100000x128.Idx → α) (v : IVec S200000 32) (e : Fin 200000) (k : Fin 128) :
    Host.gather gather_S100000x128_S200000x1_S200000x128_1_0_n_n_0_1_1128 tbl (wrapCol v) (ix2 e k)
      = tbl (ix2 (Cert.Spec.rowIx 100000 (by decide) (Cert.Spec.wrap 100000#32 (v (ix1 e)))) k) := by
  rw [Cert.LibRows.gather_rows (by decide) _ rfl rfl rfl rfl rfl rfl]
  refine congrArg (fun r => tbl (ix2 r k)) (Fin.ext ?_)
  show min (wrapCol v (ix2 e 0)).toInt.toNat (100000 - 1) = min (Cert.Spec.wrap 100000#32 (v (ix1 e))).toInt.toNat (100000 - 1)
  rw [wrapCol_apply]
  rfl

variable (m : (ℓ : Loc nD τ sig) → Buf (Elt Ideal) ℓ) (ρ : Dev nD → PrngReg) (c : Dev nD)

set_option quotPrecheck false

local notation "A0" => (m ((c : Thread nD τ).loc main_arg0))
local notation "A1" => (m ((c : Thread nD τ).loc main_arg1))
local notation "A2" => (m ((c : Thread nD τ).loc main_arg2))
local notation "A3" => (m ((c : Thread nD τ).loc main_arg3))
local notation "A4" => (m ((c : Thread nD τ).loc main_arg4))
local notation "A5" => (m ((c : Thread nD τ).loc main_arg5))
local notation "A6" => (m ((c : Thread nD τ).loc main_arg6))
local notation "A7" => (m ((c : Thread nD τ).loc main_arg7))
local notation "A8" => (m ((c : Thread nD τ).loc main_arg8))
local notation "A9" => (m ((c : Thread nD τ).loc main_arg9))
local notation "A10" => (m ((c : Thread nD τ).loc main_arg10))
local notation "A11" => (m ((c : Thread nD τ).loc main_arg11))
local notation "A12" => (m ((c : Thread nD τ).loc main_arg12))
local notation "A13" => (m ((c : Thread nD τ).loc main_arg13))
local notation "A14" => (m ((c : Thread nD τ).loc main_arg14))
local notation "A15" => (m ((c : Thread nD τ).loc main_arg15))
local notation "A16" => (m ((c : Thread nD τ).loc main_arg16))
local notation "A17" => (m ((c : Thread nD τ).loc main_arg17))
local notation "A18" => (m ((c : Thread nD τ).loc main_arg18))
local notation "A19" => (m ((c : Thread nD τ).loc main_arg19))
local notation "A20" => (m ((c : Thread nD τ).loc main_arg20))
local notation "A21" => (m ((c : Thread nD τ).loc main_arg21))
local notation "A22" => (m ((c : Thread nD τ).loc main_arg22))
local notation "A23" => (m ((c : Thread nD τ).loc main_arg23))
local notation "A24" => (m ((c : Thread nD τ).loc main_arg24))
local notation "A25" => (m ((c : Thread nD τ).loc main_arg25))
local notation "A26" => (m ((c : Thread nD τ).loc main_arg26))

/-! ## The messages -/

/-- The user-side message array the first launch leaves is the reference's, entry by entry, when every type word
    is one of 1, …, 5: the launch's masked sum then keeps exactly the chunk the reference gathers. -/
theorem msgU_eq (hpre : ∀ e : Fin 200000, 1 ≤ (A1 (ix1 e)).toInt ∧ (A1 (ix1 e)).toInt ≤ 5) (e : Fin 200000) (j : Fin 128) :
    msgU m ρ c (ix2 e j) = val_main_v35 (F := Ideal) A0 A1 A2 A4 A5 A6 A7 A8 A9 A10 (ix2 e j) := by
  rw [Cert.ReferenceIdeal.RefStages.msg_u]
  have hK := Cert.KernelIdeal.Region0.final_u (V3 m ρ) c _ _ _ _ _ _ _ _ _ (v3_ea m ρ c) (v3_xgu m ρ c) (v3_et m ρ c)
    (v3_wju m ρ c) (v3_bju m ρ c) (v3_we1u m ρ c) (v3_be1u m ρ c) (v3_we2u m ρ c) (v3_be2u m ρ c)
  rw [show msgU m ρ c = _ from hK]
  have hw := hpre e
  have hxg : (fun k => Host.gather gather_S100000x128_S200000x1_S200000x128_1_0_n_n_0_1_1128 (truncf .bf16 A4 bitsLt_bf16_f32 : FVec Ideal S100000x128 .bf16) (wrapCol (idxRow1 A0)) (ix2 e k))
      = fun k => A4 (ix2 (Cert.Spec.rowIx 100000 (by decide) (Cert.Spec.wrap 100000#32 (A0 (ix2 1 e)))) k) :=
    funext fun k => by rw [gathered_apply, idxRow1_apply]; rfl
  have het : clipCol A1 (ix2 e 0) = BitVec.ofNat 32 (Cert.Spec.chunkOf (A1 (ix1 e)) hw).val :=
    (clipCol_apply _ e 0).trans (Cert.Spec.clip04_eq _ hw)
  show Cert.Spec.msgMasked (fun l => A2 (ix2 e l))
      (fun k => Host.gather gather_S100000x128_S200000x1_S200000x128_1_0_n_n_0_1_1128 (truncf .bf16 A4 bitsLt_bf16_f32 : FVec Ideal S100000x128 .bf16) (wrapCol (idxRow1 A0)) (ix2 e k))
      (clipCol A1 (ix2 e 0)) (fun k c' => A5 (ix2 k c')) (fun c' => A6 (ix1 c')) (fun l k => A7 (ix2 l k)) (fun k => A8 (ix1 k))
      (fun k j' => A9 (ix2 k j')) (fun j' => A10 (ix1 j')) j = _
  rw [hxg, het, Cert.Spec.rowIx_wrap_eq _ hw]
  unfold Cert.Spec.msgMasked Cert.Spec.msgChunk
  rw [Cert.Spec.maskedChunks_eq]

/-- The item-side message array, the same way. -/
theorem msgI_eq (hpre : ∀ e : Fin 200000, 1 ≤ (A1 (ix1 e)).toInt ∧ (A1 (ix1 e)).toInt ≤ 5) (e : Fin 200000) (j : Fin 128) :
    msgI m ρ c (ix2 e j) = val_main_v85 (F := Ideal) A0 A1 A2 A3 A13 A14 A15 A16 A17 A18 (ix2 e j) := by
  rw [Cert.ReferenceIdeal.RefStages.msg_i]
  have hK := Cert.KernelIdeal.Region0.final_i (V3 m ρ) c _ _ _ _ _ _ _ _ _ (v3_ea m ρ c) (v3_xgi m ρ c) (v3_et m ρ c)
    (v3_wji m ρ c) (v3_bji m ρ c) (v3_we1i m ρ c) (v3_be1i m ρ c) (v3_we2i m ρ c) (v3_be2i m ρ c)
  rw [show msgI m ρ c = _ from hK]
  have hw := hpre e
  have hxg : (fun k => Host.gather gather_S100000x128_S200000x1_S200000x128_1_0_n_n_0_1_1128 (truncf .bf16 A3 bitsLt_bf16_f32 : FVec Ideal S100000x128 .bf16) (wrapCol (idxRow0 A0)) (ix2 e k))
      = fun k => A3 (ix2 (Cert.Spec.rowIx 100000 (by decide) (Cert.Spec.wrap 100000#32 (A0 (ix2 0 e)))) k) :=
    funext fun k => by rw [gathered_apply, idxRow0_apply]; rfl
  have het : clipCol A1 (ix2 e 0) = BitVec.ofNat 32 (Cert.Spec.chunkOf (A1 (ix1 e)) hw).val :=
    (clipCol_apply _ e 0).trans (Cert.Spec.clip04_eq _ hw)
  show Cert.Spec.msgMasked (fun l => A2 (ix2 e l))
      (fun k => Host.gather gather_S100000x128_S200000x1_S200000x128_1_0_n_n_0_1_1128 (truncf .bf16 A3 bitsLt_bf16_f32 : FVec Ideal S100000x128 .bf16) (wrapCol (idxRow0 A0)) (ix2 e k))
      (clipCol A1 (ix2 e 0)) (fun k c' => A13 (ix2 k c')) (fun c' => A14 (ix1 c')) (fun l k => A15 (ix2 l k)) (fun k => A16 (ix1 k))
      (fun k j' => A17 (ix2 k j')) (fun j' => A18 (ix1 j')) j = _
  rw [hxg, het, Cert.Spec.rowIx_wrap_eq _ hw]
  unfold Cert.Spec.msgMasked Cert.Spec.msgChunk
  rw [Cert.Spec.maskedChunks_eq]

/-! ## Their sums and counts per destination node -/

/-- Summing equal message arrays over the same destination words gives equal sums. -/
theorem aggU_eq (hpre : ∀ e : Fin 200000, 1 ≤ (A1 (ix1 e)).toInt ∧ (A1 (ix1 e)).toInt ≤ 5) : aggOf (idxRow0 A0) (msgU m ρ c) = val_main_v38 (F := Ideal) A0 A1 A2 A4 A5 A6 A7 A8 A9 A10 := by
  unfold aggOf val_main_v38
  refine scatterAdd_congr _ _ rfl _ _ rfl _ _ rfl _ _ ?_
  funext i
  obtain ⟨e, j, rfl⟩ : ∃ (e : Fin 200000) (j : Fin 128), i = ix2 e j := ⟨i 0, i 1, eq_ix2 i⟩
  exact msgU_eq m ρ c hpre e j
theorem aggI_eq (hpre : ∀ e : Fin 200000, 1 ≤ (A1 (ix1 e)).toInt ∧ (A1 (ix1 e)).toInt ≤ 5) : aggOf (idxRow1 A0) (msgI m ρ c) = val_main_v88 (F := Ideal) A0 A1 A2 A3 A13 A14 A15 A16 A17 A18 := by
  unfold aggOf val_main_v88
  refine scatterAdd_congr _ _ rfl _ _ rfl _ _ rfl _ _ ?_
  funext i
  obtain ⟨e, j, rfl⟩ : ∃ (e : Fin 200000) (j : Fin 128), i = ix2 e j := ⟨i 0, i 1, eq_ix2 i⟩
  exact msgI_eq m ρ c hpre e j
/-- The counts are the same scatter of ones on both sides. -/
theorem cntU_eq (n : Fin 100000) : cntOf (idxRow0 A0) (ix2 n 0) = val_main_v42 (F := Ideal) A0 (ix1 n) := by
  unfold cntOf
  rw [Cert.LibLayout.reshape_col_apply]
  unfold val_main_v42
  exact congrFun (scatterAdd_congr _ _ rfl _ _ rfl _ _ rfl _ _ rfl) (ix1 n)
theorem cntI_eq (n : Fin 100000) : cntOf (idxRow1 A0) (ix2 n 0) = val_main_v92 (F := Ideal) A0 (ix1 n) := by
  unfold cntOf
  rw [Cert.LibLayout.reshape_col_apply]
  unfold val_main_v92
  exact congrFun (scatterAdd_congr _ _ rfl _ _ rfl _ _ rfl _ _ rfl) (ix1 n)

/-! ## The updated node rows -/

theorem xs_eq (hpre : ∀ e : Fin 200000, 1 ≤ (A1 (ix1 e)).toInt ∧ (A1 (ix1 e)).toInt ≤ 5) (n : Fin 100000) (j : Fin 128) :
    xsK m ρ c (ix2 n j) = val_main_v53 (F := Ideal) A0 A1 A2 A3 A4 A5 A6 A7 A8 A9 A10 A11 A12 (ix2 n j) := by
  rw [Cert.ReferenceIdeal.RefStages.upd_s]
  have hK := Cert.KernelIdeal.Region1.final_s (V5 m ρ) c _ _ _ _ _ (v5_embu m ρ c) (v5_aggu m ρ c) (v5_cntu m ρ c) (v5_wiu m ρ c) (v5_biu m ρ c)
  rw [show xsK m ρ c = _ from hK]
  show Cert.Spec.upd (fun k => A3 (ix2 n k)) (fun k j' => A11 (ix2 k j')) (fun j' => A12 (ix1 j'))
      (fun j' => aggOf (idxRow0 A0) (msgU m ρ c) (ix2 n j')) (cntOf (idxRow0 A0) (ix2 n 0)) j = _
  rw [aggU_eq m ρ c hpre, cntU_eq m c n]
theorem xt_eq (hpre : ∀ e : Fin 200000, 1 ≤ (A1 (ix1 e)).toInt ∧ (A1 (ix1 e)).toInt ≤ 5) (n : Fin 100000) (j : Fin 128) :
    xtK m ρ c (ix2 n j) = val_main_v103 (F := Ideal) A0 A1 A2 A3 A4 A13 A14 A15 A16 A17 A18 A19 A20 (ix2 n j) := by
  rw [Cert.ReferenceIdeal.RefStages.upd_t]
  have hK := Cert.KernelIdeal.Region1.final_t (V5 m ρ) c _ _ _ _ _ (v5_embi m ρ c) (v5_aggi m ρ c) (v5_cnti m ρ c) (v5_wii m ρ c) (v5_bii m ρ c)
  rw [show xtK m ρ c = _ from hK]
  show Cert.Spec.upd (fun k => A4 (ix2 n k)) (fun k j' => A19 (ix2 k j')) (fun j' => A20 (ix1 j'))
      (fun j' => aggOf (idxRow1 A0) (msgI m ρ c) (ix2 n j')) (cntOf (idxRow1 A0) (ix2 n 0)) j = _
  rw [aggI_eq m ρ c hpre, cntI_eq m c n]

/-! ## The ratings -/

/-- The reference's gathered updated user row of edge e. -/
theorem ref_xs_apply (e : Fin 200000) (l : Fin 128) :
    val_main_v110 (F := Ideal) A0 A1 A2 A3 A4 A5 A6 A7 A8 A9 A10 A11 A12 (ix2 e l)
      = val_main_v53 (F := Ideal) A0 A1 A2 A3 A4 A5 A6 A7 A8 A9 A10 A11 A12 (ix2 (Cert.Spec.rowIx 100000 (by decide) (Cert.Spec.wrap 100000#32 (A0 (ix2 0 e)))) l) := by
  have h : val_main_v110 (F := Ideal) A0 A1 A2 A3 A4 A5 A6 A7 A8 A9 A10 A11 A12
      = Host.gather gather_S100000x128_S200000x1_S200000x128_1_0_n_n_0_1_1128 (val_main_v53 (F := Ideal) A0 A1 A2 A3 A4 A5 A6 A7 A8 A9 A10 A11 A12) (wrapCol (idxRow0 A0)) := rfl
  rw [h, gathered_apply, idxRow0_apply]
theorem ref_xt_apply (e : Fin 200000) (l : Fin 128) :
    val_main_v117 (F := Ideal) A0 A1 A2 A3 A4 A13 A14 A15 A16 A17 A18 A19 A20 (ix2 e l)
      = val_main_v103 (F := Ideal) A0 A1 A2 A3 A4 A13 A14 A15 A16 A17 A18 A19 A20 (ix2 (Cert.Spec.rowIx 100000 (by decide) (Cert.Spec.wrap 100000#32 (A0 (ix2 1 e)))) l) := by
  have h : val_main_v117 (F := Ideal) A0 A1 A2 A3 A4 A13 A14 A15 A16 A17 A18 A19 A20
      = Host.gather gather_S100000x128_S200000x1_S200000x128_1_0_n_n_0_1_1128 (val_main_v103 (F := Ideal) A0 A1 A2 A3 A4 A13 A14 A15 A16 A17 A18 A19 A20) (wrapCol (idxRow1 A0)) := rfl
  rw [h, gathered_apply, idxRow1_apply]

/-- What the program leaves in its result buffer is the reference's result term of the same argument arrays,
    when every type word is one of 1, …, 5. -/
theorem result_eq (hpre : ∀ e : Fin 200000, 1 ≤ (A1 (ix1 e)).toInt ∧ (A1 (ix1 e)).toInt ≤ 5) :
    W8 m ρ c (Proc.devRef .tc main_v71) = val_main_v142 (F := Ideal) A0 A1 A2 A3 A4 A5 A6 A7 A8 A9 A10 A11 A12 A13 A14 A15 A16 A17 A18 A19 A20 A21 A22 A23 A24 A25 A26 := by
  funext i
  obtain ⟨e, q, rfl⟩ : ∃ (e : Fin 200000) (q : Fin 1), i = ix2 e q := ⟨i 0, i 1, eq_ix2 i⟩
  have hq : q = 0 := Subsingleton.elim _ _
  subst hq
  rw [w8_out, Cert.KernelIdeal.Region2.final_r (V7 m ρ) c _ _ _ _ _ _ _ _ _ (v7_xs m ρ c) (v7_xt m ρ c) (v7_w1a m ρ c) (v7_w1b m ρ c)
    (v7_b1 m ρ c) (v7_w2 m ρ c) (v7_b2 m ρ c) (v7_w3 m ρ c) (v7_b3 m ρ c), Cert.ReferenceIdeal.RefStages.rate_r]
  have h1 : (fun l => Host.gather gather_S100000x128_S200000x1_S200000x128_1_0_n_n_0_1_1128 (xsK m ρ c) (wrapCol (idxRow0 A0)) (ix2 e l))
      = fun l => val_main_v110 (F := Ideal) A0 A1 A2 A3 A4 A5 A6 A7 A8 A9 A10 A11 A12 (ix2 e l) :=
    funext fun l => by rw [gathered_apply, ref_xs_apply, idxRow0_apply]; exact xs_eq m ρ c hpre _ l
  have h2 : (fun l => Host.gather gather_S100000x128_S200000x1_S200000x128_1_0_n_n_0_1_1128 (xtK m ρ c) (wrapCol (idxRow1 A0)) (ix2 e l))
      = fun l => val_main_v117 (F := Ideal) A0 A1 A2 A3 A4 A13 A14 A15 A16 A17 A18 A19 A20 (ix2 e l) :=
    funext fun l => by rw [gathered_apply, ref_xt_apply, idxRow1_apply]; exact xt_eq m ρ c hpre _ l
  have h3 : (fun (l k : Fin 128) => (extractStridedSlice S128x128 ![0, 0] (truncf .bf16 A21 bitsLt_bf16_f32 : FVec Ideal S256x128 .bf16) slices_S256x128_S128x128_0_0 : FVec Ideal S128x128 .bf16) (ix2 l k))
      = fun l k => A21 (ix2 (⟨l.val, by omega⟩ : Fin 256) k) :=
    funext fun l => funext fun k =>
      (Cert.LibLayout.rows_apply 0 _ _ l k (by omega)).trans (congrArg (fun r => A21 (ix2 r k)) (Fin.ext (Nat.zero_add _)))
  have h4 : (fun (l k : Fin 128) => (extractStridedSlice S128x128 ![128, 0] (truncf .bf16 A21 bitsLt_bf16_f32 : FVec Ideal S256x128 .bf16) slices_S256x128_S128x128_128_0 : FVec Ideal S128x128 .bf16) (ix2 l k))
      = fun l k => A21 (ix2 (⟨128 + l.val, by omega⟩ : Fin 256) k) :=
    funext fun l => funext fun k => Cert.LibLayout.rows_apply 128 _ _ l k (by omega)
  show Cert.Spec.rate
      (fun l => Host.gather gather_S100000x128_S200000x1_S200000x128_1_0_n_n_0_1_1128 (xsK m ρ c) (wrapCol (idxRow0 A0)) (ix2 e l))
      (fun l => Host.gather gather_S100000x128_S200000x1_S200000x128_1_0_n_n_0_1_1128 (xtK m ρ c) (wrapCol (idxRow1 A0)) (ix2 e l))
      (fun (l k : Fin 128) => (extractStridedSlice S128x128 ![0, 0] (truncf .bf16 A21 bitsLt_bf16_f32 : FVec Ideal S256x128 .bf16) slices_S256x128_S128x128_0_0 : FVec Ideal S128x128 .bf16) (ix2 l k))
      (fun (l k : Fin 128) => (extractStridedSlice S128x128 ![128, 0] (truncf .bf16 A21 bitsLt_bf16_f32 : FVec Ideal S256x128 .bf16) slices_S256x128_S128x128_128_0 : FVec Ideal S128x128 .bf16) (ix2 l k))
      (fun k => A22 (ix1 k)) (fun l k => A23 (ix2 l k)) (fun k => A24 (ix1 k)) (fun l k => A25 (ix2 l k)) (fun k => A26 (ix1 k)) = _
  rw [h1, h2, h3, h4]

/-- The same for any arrays equal to the program's argument arrays (the reference's own memory, which agrees with
    the program's on the arguments). -/
theorem result_eq_of (hpre : ∀ e : Fin 200000, 1 ≤ (A1 (ix1 e)).toInt ∧ (A1 (ix1 e)).toInt ≤ 5)
    (x0 : _) (x1 : _) (x2 : _) (x3 : _) (x4 : _) (x5 : _) (x6 : _) (x7 : _) (x8 : _) (x9 : _) (x10 : _) (x11 : _) (x12 : _) (x13 : _) (x14 : _) (x15 : _) (x16 : _) (x17 : _) (x18 : _) (x19 : _) (x20 : _) (x21 : _) (x22 : _) (x23 : _) (x24 : _) (x25 : _) (x26 : _)
    (h0 : x0 = A0) (h1 : x1 = A1) (h2 : x2 = A2) (h3 : x3 = A3) (h4 : x4 = A4) (h5 : x5 = A5) (h6 : x6 = A6) (h7 : x7 = A7) (h8 : x8 = A8) (h9 : x9 = A9) (h10 : x10 = A10) (h11 : x11 = A11) (h12 : x12 = A12) (h13 : x13 = A13) (h14 : x14 = A14) (h15 : x15 = A15) (h16 : x16 = A16) (h17 : x17 = A17) (h18 : x18 = A18) (h19 : x19 = A19) (h20 : x20 = A20) (h21 : x21 = A21) (h22 : x22 = A22) (h23 : x23 = A23) (h24 : x24 = A24) (h25 : x25 = A25) (h26 : x26 = A26) :
    val_main_v142 (F := Ideal) x0 x1 x2 x3 x4 x5 x6 x7 x8 x9 x10 x11 x12 x13 x14 x15 x16 x17 x18 x19 x20 x21 x22 x23 x24 x25 x26 = W8 m ρ c (Proc.devRef .tc main_v71) := by
  subst h0 h1 h2 h3 h4 h5 h6 h7 h8 h9 h10 h11 h12 h13 h14 h15 h16 h17 h18 h19 h20 h21 h22 h23 h24 h25 h26
  exact (result_eq m ρ c hpre).symm

end Cert.Bridge

end
-- ==== Proof.lean ====
/-
  The kernel and the reference compute the same ratings.

  The kernel runs three launches among plain array operations: the first forms every edge's two messages (a
  chunk of its source node's linear image, selected by the edge's type, plus a rectified two-layer perceptron
  of the edge's features); between the first and the second the messages are summed and counted per destination
  node; the second forms every node's updated row (its own linear image plus the mean of its messages,
  rectified); the third turns each edge's two updated end-point rows into a rating in (1, 5). The reference
  computes the same quantities with whole-array operations, in another order: it forms the linear image of
  every node first and gathers rows and chunks afterwards, and it multiplies the concatenated end-point rows by
  the whole first rating matrix where the kernel adds the two half products.

  Over the extended reals the two agree. A gather of rows commutes with a map applied row by row; a sum over 256
  columns is the sum of its two halves; narrowing a value to a shorter float format and widening it back is
  the identity there; the logistic function is 1 / (1 + exp (−x)) in both spellings. The one place where the
  two programs read an input differently is the type word: the reference wraps a negative chunk number and then
  clamps it, the kernel clips it, and they differ when the type is 0, −1, −2 or −3. The precondition therefore
  asks, beside finite float inputs, that every type word be one of 1, …, 5, the range of the axis the
  reference indexes with it; under it the kernel's five masks have exactly one 1, and its masked sum is the
  chunk the reference gathers. No step needs the inputs to be finite: products with the masks 0 and 1 and sums
  with 0 are exact on the extended reals.

  The modules: Spec (the row functions), Words and Chunks (the two readings of a type word, and the masked sum),
  LibGatherRows and LibLayout (gathers and small layout operations read at an index), PreDecode (what the
  precondition says of the type words), Region0, Region1, Region2 (what each launch leaves, from its blocks to
  the whole array), HostK (what each launch finds, through the array operations between the launches), RefStages
  (the reference's stages read at an index), KRun (the run with every buffer's final contents) and Bridge (the
  two results are one function of the arguments).
-/
import proofs.«409393_j55679956025643_3_alg».proof.Defs
import proofs.«409393_j55679956025643_3_alg».proof.Proof.Gen.Kernel
import proofs.«409393_j55679956025643_3_alg».proof.Proof.Gen.Kernel.Skeleton
import proofs.«409393_j55679956025643_3_alg».proof.Proof.Gen.Kernel.Launch
import proofs.«409393_j55679956025643_3_alg».proof.Proof.Gen.Kernel.Points
import proofs.«409393_j55679956025643_3_alg».proof.Proof.Gen.Kernel.Frame
import proofs.«409393_j55679956025643_3_alg».proof.Proof.Gen.KernelIdeal
import proofs.«409393_j55679956025643_3_alg».proof.Proof.Gen.KernelIdeal.Skeleton
import proofs.«409393_j55679956025643_3_alg».proof.Proof.Gen.KernelIdeal.Launch
import proofs.«409393_j55679956025643_3_alg».proof.Proof.Gen.KernelIdeal.Points
import proofs.«409393_j55679956025643_3_alg».proof.Proof.Gen.KernelIdeal.Frame
import proofs.«409393_j55679956025643_3_alg».proof.Proof.Gen.ReferenceIdeal
import proofs.«409393_j55679956025643_3_alg».proof.Proof.Gen.ReferenceIdeal.Run
import proofs.«409393_j55679956025643_3_alg».proof.Proof.Gen.ReferenceIdeal.Read
import proofs.«409393_j55679956025643_3_alg».proof.Proof.Gen.Pre_finite_inputs
import proofs.«409393_j55679956025643_3_alg».proof.Proof.KRun
import proofs.«409393_j55679956025643_3_alg».proof.Proof.PreDecode
import proofs.«409393_j55679956025643_3_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both idealized programs end with the ratings array at one
    function of the arguments: the kernel's result buffer ends at what its third launch leaves, the
    reference's at its result term, and the two are equal when every type word is one of 1, …, 5. -/
theorem algebraic : Cert.algebraic_KernelIdeal_ReferenceIdeal := by
  intro m ρ m' ρ' hpre hagree
  refine ⟨fun c => Cert.KernelIdeal.Gen.W8 m ρ c (Proc.devRef .tc Cert.KernelIdeal.main_v71), ?_, ?_⟩
  · refine (θ_run Cert.KernelIdeal.defs _ _).mono (fun r h c => ?_) (Cert.KernelIdeal.RunAll.run_all m ρ)
    exact ⟨h c _ (Cert.KernelIdeal.Gen.mem_uc Cert.KernelIdeal.main_v71 (by decide)),
        (h c _ (Cert.KernelIdeal.Gen.mem_uc Cert.KernelIdeal.main_arg0 (by decide))).trans (Cert.KernelIdeal.Gen.W8_main_arg0 m ρ c),
        (h c _ (Cert.KernelIdeal.Gen.mem_uc Cert.KernelIdeal.main_arg1 (by decide))).trans (Cert.KernelIdeal.Gen.W8_main_arg1 m ρ c),
        (h c _ (Cert.KernelIdeal.Gen.mem_uc Cert.KernelIdeal.main_arg2 (by decide))).trans (Cert.KernelIdeal.Gen.W8_main_arg2 m ρ c),
        (h c _ (Cert.KernelIdeal.Gen.mem_uc Cert.KernelIdeal.main_arg3 (by decide))).trans (Cert.KernelIdeal.Gen.W8_main_arg3 m ρ c),
        (h c _ (Cert.KernelIdeal.Gen.mem_uc Cert.KernelIdeal.main_arg4 (by decide))).trans (Cert.KernelIdeal.Gen.W8_main_arg4 m ρ c),
        (h c _ (Cert.KernelIdeal.Gen.mem_uc Cert.KernelIdeal.main_arg5 (by decide))).trans (Cert.KernelIdeal.Gen.W8_main_arg5 m ρ c),
        (h c _ (Cert.KernelIdeal.Gen.mem_uc Cert.KernelIdeal.main_arg6 (by decide))).trans (Cert.KernelIdeal.Gen.W8_main_arg6 m ρ c),
        (h c _ (Cert.KernelIdeal.Gen.mem_uc Cert.KernelIdeal.main_arg7 (by decide))).trans (Cert.KernelIdeal.Gen.W8_main_arg7 m ρ c),
        (h c _ (Cert.KernelIdeal.Gen.mem_uc Cert.KernelIdeal.main_arg8 (by decide))).trans (Cert.KernelIdeal.Gen.W8_main_arg8 m ρ c),
        (h c _ (Cert.KernelIdeal.Gen.mem_uc Cert.KernelIdeal.main_arg9 (by decide))).trans (Cert.KernelIdeal.Gen.W8_main_arg9 m ρ c),
        (h c _ (Cert.KernelIdeal.Gen.mem_uc Cert.KernelIdeal.main_arg10 (by decide))).trans (Cert.KernelIdeal.Gen.W8_main_arg10 m ρ c),
        (h c _ (Cert.KernelIdeal.Gen.mem_uc Cert.KernelIdeal.main_arg11 (by decide))).trans (Cert.KernelIdeal.Gen.W8_main_arg11 m ρ c),
        (h c _ (Cert.KernelIdeal.Gen.mem_uc Cert.KernelIdeal.main_arg12 (by decide))).trans (Cert.KernelIdeal.Gen.W8_main_arg12 m ρ c),
        (h c _ (Cert.KernelIdeal.Gen.mem_uc Cert.KernelIdeal.main_arg13 (by decide))).trans (Cert.KernelIdeal.Gen.W8_main_arg13 m ρ c),
        (h c _ (Cert.KernelIdeal.Gen.mem_uc Cert.KernelIdeal.main_arg14 (by decide))).trans (Cert.KernelIdeal.Gen.W8_main_arg14 m ρ c),
        (h c _ (Cert.KernelIdeal.Gen.mem_uc Cert.KernelIdeal.main_arg15 (by decide))).trans (Cert.KernelIdeal.Gen.W8_main_arg15 m ρ c),
        (h c _ (Cert.KernelIdeal.Gen.mem_uc Cert.KernelIdeal.main_arg16 (by decide))).trans (Cert.KernelIdeal.Gen.W8_main_arg16 m ρ c),
        (h c _ (Cert.KernelIdeal.Gen.mem_uc Cert.KernelIdeal.main_arg17 (by decide))).trans (Cert.KernelIdeal.Gen.W8_main_arg17 m ρ c),
        (h c _ (Cert.KernelIdeal.Gen.mem_uc Cert.KernelIdeal.main_arg18 (by decide))).trans (Cert.KernelIdeal.Gen.W8_main_arg18 m ρ c),
        (h c _ (Cert.KernelIdeal.Gen.mem_uc Cert.KernelIdeal.main_arg19 (by decide))).trans (Cert.KernelIdeal.Gen.W8_main_arg19 m ρ c),
        (h c _ (Cert.KernelIdeal.Gen.mem_uc Cert.KernelIdeal.main_arg20 (by decide))).trans (Cert.KernelIdeal.Gen.W8_main_arg20 m ρ c),
        (h c _ (Cert.KernelIdeal.Gen.mem_uc Cert.KernelIdeal.main_arg21 (by decide))).trans (Cert.KernelIdeal.Gen.W8_main_arg21 m ρ c),
        (h c _ (Cert.KernelIdeal.Gen.mem_uc Cert.KernelIdeal.main_arg22 (by decide))).trans (Cert.KernelIdeal.Gen.W8_main_arg22 m ρ c),
        (h c _ (Cert.KernelIdeal.Gen.mem_uc Cert.KernelIdeal.main_arg23 (by decide))).trans (Cert.KernelIdeal.Gen.W8_main_arg23 m ρ c),
        (h c _ (Cert.KernelIdeal.Gen.mem_uc Cert.KernelIdeal.main_arg24 (by decide))).trans (Cert.KernelIdeal.Gen.W8_main_arg24 m ρ c),
        (h c _ (Cert.KernelIdeal.Gen.mem_uc Cert.KernelIdeal.main_arg25 (by decide))).trans (Cert.KernelIdeal.Gen.W8_main_arg25 m ρ c),
        (h c _ (Cert.KernelIdeal.Gen.mem_uc Cert.KernelIdeal.main_arg26 (by decide))).trans (Cert.KernelIdeal.Gen.W8_main_arg26 m ρ c)⟩
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12, g13, g14, g15, g16, g17, g18, g19, g20, g21, g22, g23, g24, g25, g26⟩ := hagree c
    refine (Cert.ReferenceIdeal.Read.val_main_v142_eq m' c).trans ?_
    exact Cert.Bridge.result_eq_of m ρ c (fun e =>
      Cert.PreDecode.types_in_range _ _ _ _ _ _ _ _ _ _ _ _ _ _ _ _ _ _ _ _ _ _ _ _ _ _ _ (hpre c) (ix1 e))
      _ _ _ _ _ _ _ _ _ _ _ _ _ _ _ _ _ _ _ _ _ _ _ _ _ _ _ g0 g1 g2 g3 g4 g5 g6 g7 g8 g9 g10 g11 g12 g13 g14 g15 g16 g17 g18 g19 g20 g21 g22 g23 g24 g25 g26

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
